-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S500000x64 : Shape := ⟨2, ![500000, 64]⟩
abbrev S128x500000 : Shape := ⟨2, ![128, 500000]⟩
abbrev S128x128 : Shape := ⟨2, ![128, 128]⟩
abbrev S128 : Shape := ⟨1, ![128]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S128x500000 : S_.BroadcastsInDim S128x500000 (![] : Fin 0 → Fin S128x500000.rank)
  reducesTo_S128x500000_S_d0_1 : S128x500000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x64 .f32) (main_arg5 : IVec S128 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg5 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v23 main_v26
  let main_c_10 : IVec S_ 32 := constantI S_ 32 500000#32
  let main_v28 : IVec S128 32 := broadcastInDim S128 ![] bcast_S_S128 main_c_10
  let main_v29 : IVec S128 1 := cmpi .slt main_arg5 main_v28
  let main_c_11 : IVec S_ 1 := constantI S_ 1 1#1
  let main_v30 : IVec S_ 1 := (fun x v => Host.reduce IntOp.andi x v reducesTo_S128_S_d0 h_S_) main_v29 main_c_11
  let main_v31 : IVec S_ 1 := andi main_v27 main_v30
  main_v31

def fn {F : FTy → Type} [FloatOps F] (main_arg0 : FVec F S128x64 .f32) (main_arg1 : FVec F S500000x64 .f32) (main_arg2 : FVec F S128x500000 .f32) (main_arg3 : FVec F S128x128 .f32) (main_arg4 : FVec F S128x64 .f32) (main_arg5 : IVec S128 32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S128x500000 .f32 := Host.absf main_arg2
  let main_cst_2 : FVec F S_ .f32 := constant S_ .f32 0x7F800000#32
  let main_v10 : FVec F S128x500000 .f32 := broadcastInDim S128x500000 ![] bcast_S_S128x500000 main_cst_2
  let main_v11 : IVec S128x500000 1 := cmpf .olt main_v9 main_v10
  let main_c_3 : IVec S_ 1 := constantI S_ 1 1#1
  let main_v12 : IVec S_ 1 := (fun x v => Host.reduce IntOp.andi x v reducesTo_S128x500000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S128x64 : Shape := ⟨2, ![128, 64]⟩
abbrev S500000x64 : Shape := ⟨2, ![500000, 64]⟩
abbrev S128x500000 : Shape := ⟨2, ![128, 500000]⟩
abbrev S128x128 : Shape := ⟨2, ![128, 128]⟩
abbrev S128 : Shape := ⟨1, ![128]⟩
abbrev S_ : Shape := ⟨0, ![]⟩
abbrev S503808x64 : Shape := ⟨2, ![503808, 64]⟩
abbrev S128x503808 : Shape := ⟨2, ![128, 503808]⟩
abbrev S128x1 : Shape := ⟨2, ![128, 1]⟩
abbrev S64x1 : Shape := ⟨2, ![64, 1]⟩
abbrev S64x64 : Shape := ⟨2, ![64, 64]⟩
abbrev S4096x64 : Shape := ⟨2, ![4096, 64]⟩
abbrev S64x4096 : Shape := ⟨2, ![64, 4096]⟩
abbrev S64 : Shape := ⟨1, ![64]⟩
abbrev S4096 : Shape := ⟨1, ![4096]⟩
abbrev S1x4096 : Shape := ⟨2, ![1, 4096]⟩

abbrev nBuf : Space → Nat
  | .hbm => 59
  | .vmem => 30
  | .smem => 0
  | _ => 0

abbrev bufTy : (tb : Table) → Fin (tcTables nBuf tb) → BufTy
  | .hbm, ⟨0, _⟩ => ⟨S128x64, .f32⟩
  | .hbm, ⟨1, _⟩ => ⟨S500000x64, .f32⟩
  | .hbm, ⟨2, _⟩ => ⟨S128x500000, .f32⟩
  | .hbm, ⟨3, _⟩ => ⟨S128x128, .f32⟩
  | .hbm, ⟨4, _⟩ => ⟨S128x64, .f32⟩
  | .hbm, ⟨5, _⟩ => ⟨S128, .i32⟩
  | .hbm, ⟨6, _⟩ => ⟨S_, .i32⟩
  | .hbm, ⟨7, _⟩ => ⟨S_, .f32⟩
  | .hbm, ⟨8, _⟩ => ⟨S503808x64, .f32⟩
  | .hbm, ⟨9, _⟩ => ⟨S_, .i32⟩
  | .hbm, ⟨10, _⟩ => ⟨S_, .f32⟩
  | .hbm, ⟨11, _⟩ => ⟨S128x503808, .f32⟩
  | .hbm, ⟨12, _⟩ => ⟨S128x1, .i32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S128x64, .f32⟩
  | .hbm, ⟨44, _⟩ => ⟨S128x64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S128x503808, .f32⟩
  | .hbm, ⟨58, _⟩ => ⟨S128x500000, .f32⟩
  | .local _ .vmem, ⟨0, _⟩ => ⟨S64x1, .i32⟩
  | .local _ .vmem, ⟨1, _⟩ => ⟨S64x1, .i32⟩
  | .local _ .vmem, ⟨2, _⟩ => ⟨S64x64, .f32⟩
  | .local _ .vmem, ⟨3, _⟩ => ⟨S64x64, .f32⟩
  | .local _ .vmem, ⟨4, _⟩ => ⟨S4096x64, .f32⟩
  | .local _ .vmem, ⟨5, _⟩ => ⟨S4096x64, .f32⟩
  | .local _ .vmem, ⟨6, _⟩ => ⟨S64x4096, .f32⟩
  | .local _ .vmem, ⟨7, _⟩ => ⟨S64x4096, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S64x1, .f32⟩
  | .local _ .vmem, ⟨17, _⟩ => ⟨S64x1, .f32⟩
  | .local _ .vmem, ⟨18, _⟩ => ⟨S64x1, .i32⟩
  | .local _ .vmem, ⟨19, _⟩ => ⟨S64x1, .i32⟩
  | .local _ .vmem, ⟨20, _⟩ => ⟨S64x64, .f32⟩
  | .local _ .vmem, ⟨21, _⟩ => ⟨S64x64, .f32⟩
  | .local _ .vmem, ⟨22, _⟩ => ⟨S4096x64, .f32⟩
  | .local _ .vmem, ⟨23, _⟩ => ⟨S4096x64, .f32⟩
  | .local _ .vmem, ⟨24, _⟩ => ⟨S64x4096, .f32⟩
  | .local _ .vmem, ⟨25, _⟩ => ⟨S64x4096, .f32⟩
  | .local _ .vmem, ⟨26, _⟩ => ⟨S64x1, .f32⟩
  | .local _ .vmem, ⟨27, _⟩ => ⟨S64x1, .f32⟩
  | .local _ .vmem, ⟨28, _⟩ => ⟨S64x4096, .f32⟩
  | .local _ .vmem, ⟨29, _⟩ => ⟨S64x4096, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_cst_9 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_cst_11 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29

abbrev nD : Nat := 1
abbrev τ : Topo := Topo.v7x

variable {F : FTy → Type} [FloatOps F]

abbrev grid0 : Pipeline.Grid := ⟨2, ![2, 123], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 123], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S64x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  pads_S500000x64_S503808x64_038080_000 : S500000x64.Pads (![0, 0] : Fin 2 → Nat) ![3808, 0] ![0, 0] S503808x64
  h_S_ : 0 < S_.numel
  pads_S128x500000_S128x503808_000_038080 : S128x500000.Pads (![0, 0] : Fin 2 → Nat) ![0, 3808] ![0, 0] S128x503808
  shapeCasts_S128_S128x1 : S128.ShapeCasts S128x1
  inb_S64x1_S64x1_0_0 : ∀ a, (![0, 0] : Fin 2 → Nat) a + S64x1.size a ≤ S64x1.size a
  h_S64x1 : 0 < S64x1.numel
  inb_S64x64_S64x64_0_0 : ∀ a, (![0, 0] : Fin 2 → Nat) a + S64x64.size a ≤ S64x64.size a
  h_S64x64 : 0 < S64x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S64x1_S64x1 : S64x1.ShapeCasts S64x1
  bitsLt_bf16_f32 : FTy.bits .bf16 < FTy.bits .f32
  reduces_S64x64_S64 : S64x64.Reduces [1] S64
  shapeCasts_S64_S64x1 : S64.ShapeCasts S64x1
  reduces_S4096x64_S4096 : S4096x64.Reduces [1] S4096
  shapeCasts_S4096_S1x4096 : S4096.ShapeCasts S1x4096
  broadcasts_S64x1_S64x4096 : S64x1.Broadcasts S64x4096
  broadcasts_S1x4096_S64x4096 : S1x4096.Broadcasts S64x4096
  iota_S64x4096_d1_w32 : S64x4096.Iotas .tc 32 [1]
  reduces_S64x4096_S64 : S64x4096.Reduces [1] S64
  natLt_1_32 : 1 < 32
  shapeCasts_S128x1_S128 : S128x1.ShapeCasts S128
  bcast_S_S128 : S_.BroadcastsInDim S128 (![] : Fin 0 → Fin S128.rank)
  reducesTo_S128_S_d0 : S128.ReducesTo [0] S_
  reducesTo_S128x64_S_d0_1 : S128x64.ReducesTo [0, 1] S_
  slices_S128x503808_S128x500000_0_0 : S128x503808.Slices ![0, 0] S128x500000
  dot_S64x64_S4096x64_S64x4096_1_1_0_0_n_n_wf : DotDims.WF S64x64 S4096x64 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S128x1.size a
  hwx0_0 : ∀ i : grid0.Coords, EltTy.bits .i32 = 32 ∨ (Rect.block (s := S128x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S128x64.size a
  hwx0_1 : ∀ i : grid0.Coords, EltTy.bits .f32 = 32 ∨ (Rect.block (s := S128x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S503808x64.size a
  hwx0_2 : ∀ i : grid0.Coords, EltTy.bits .f32 = 32 ∨ (Rect.block (s := S503808x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S128x503808.size a
  hwx0_3 : ∀ i : grid0.Coords, EltTy.bits .f32 = 32 ∨ (Rect.block (s := S128x503808) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S128x1.size a
  hwx0_4 : ∀ i : grid0.Coords, EltTy.bits .f32 = 32 ∨ (Rect.block (s := S128x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S128x1.size a
  hwx0_5 : ∀ i : grid0.Coords, EltTy.bits .f32 = 32 ∨ (Rect.block (s := S128x1) S64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S128x1.size a
  hwx0_6 : ∀ i : grid0.Coords, EltTy.bits .f32 = 32 ∨ (Rect.block (s := S128x1) S64x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S128x1.size a
  hwx0_7 : ∀ i : grid0.Coords, EltTy.bits .f32 = 32 ∨ (Rect.block (s := S128x1) S64x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S128x1.size a
  hwx0_8 : ∀ i : grid0.Coords, EltTy.bits .f32 = 32 ∨ (Rect.block (s := S128x1) S64x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1.size a ≤ S128x1.size a
  hwx1_0 : ∀ i : grid1.Coords, EltTy.bits .i32 = 32 ∨ (Rect.block (s := S128x1) S64x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S128x64.size a
  hwx1_1 : ∀ i : grid1.Coords, EltTy.bits .f32 = 32 ∨ (Rect.block (s := S128x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S503808x64.size a
  hwx1_2 : ∀ i : grid1.Coords, EltTy.bits .f32 = 32 ∨ (Rect.block (s := S503808x64) S4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S128x503808.size a
  hwx1_3 : ∀ i : grid1.Coords, EltTy.bits .f32 = 32 ∨ (Rect.block (s := S128x503808) S64x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S128x1.size a
  hwx1_4 : ∀ i : grid1.Coords, EltTy.bits .f32 = 32 ∨ (Rect.block (s := S128x1) S64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x4096.size a ≤ S128x503808.size a
  hwx1_5 : ∀ i : grid1.Coords, EltTy.bits .f32 = 32 ∨ (Rect.block (s := S128x503808) S64x4096.size (cc1_transform_5 i) (hinb1_5 i)).WholeWords (EltTy.packing .f32)

variable [Facts₀]

def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf

abbrev win0_0 : Pipeline.Window sig grid0 :=
  Pipeline.Window.ofSpec (Memref.whole main_v2) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S64x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_3) S64x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_4) S64x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v2) S64x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S64x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_2) S64x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S64x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x64 : Shape := ⟨2, ![128, 64]⟩
abbrev S500000x64 : Shape := ⟨2, ![500000, 64]⟩
abbrev S128x500000 : Shape := ⟨2, ![128, 500000]⟩
abbrev S128x128 : Shape := ⟨2, ![128, 128]⟩
abbrev S128 : Shape := ⟨1, ![128]⟩
abbrev S64x500000 : Shape := ⟨2, ![64, 500000]⟩
abbrev S_ : Shape := ⟨0, ![]⟩
abbrev S128x1 : Shape := ⟨2, ![128, 1]⟩
abbrev S500000 : Shape := ⟨1, ![500000]⟩
abbrev S1x500000 : Shape := ⟨2, ![1, 500000]⟩
abbrev S128x2 : Shape := ⟨2, ![128, 2]⟩

abbrev nBuf : Space → Nat
  | .hbm => 151
  | .vmem => 0
  | .smem => 0
  | _ => 0

abbrev hbmTy0_0 (i : Nat) : BufTy := match i % 128 with
  | 0 => ⟨S128x64, .f32⟩
  | 1 => ⟨S500000x64, .f32⟩
  | 2 => ⟨S128x500000, .f32⟩
  | 3 => ⟨S128x128, .f32⟩
  | 4 => ⟨S128x64, .f32⟩
  | 5 => ⟨S128, .i32⟩
  | 6 => ⟨S128, .i32⟩
  | 7 => ⟨S64x500000, .f32⟩
  | 8 => ⟨S128x500000, .f32⟩
  | 9 => ⟨S128x64, .f32⟩
  | 10 => ⟨S_, .f32⟩
  | 11 => ⟨S128, .f32⟩
  | 12 => ⟨S128x1, .f32⟩
  | 13 => ⟨S500000x64, .f32⟩
  | 14 => ⟨S_, .f32⟩
  | 15 => ⟨S500000, .f32⟩
  | 16 => ⟨S1x500000, .f32⟩
  | 17 => ⟨S128x500000, .f32⟩
  | 18 => ⟨S128x500000, .f32⟩
  | 19 => ⟨S128x500000, .f32⟩
  | 20 => ⟨S_, .f32⟩
  | 21 => ⟨S128x500000, .f32⟩
  | 22 => ⟨S128x500000, .f32⟩
  | 23 => ⟨S128x500000, .f32⟩
  | 24 => ⟨S_, .f32⟩
  | 25 => ⟨S_, .f32⟩
  | 26 => ⟨S128x500000, .f32⟩
  | 27 => ⟨S128x500000, .f32⟩
  | 28 => ⟨S128x500000, .f32⟩
  | 29 => ⟨S_, .f32⟩
  | 30 => ⟨S128x500000, .f32⟩
  | 31 => ⟨S128x500000, .i1⟩
  | 32 => ⟨S_, .i32⟩
  | 33 => ⟨S128, .i32⟩
  | 34 => ⟨S128, .i1⟩
  | 35 => ⟨S_, .i32⟩
  | 36 => ⟨S128, .i32⟩
  | 37 => ⟨S128, .i32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i32⟩
  | 45 => ⟨S128, .i32⟩
  | 46 => ⟨S128x1, .i32⟩
  | 47 => ⟨S128x1, .i32⟩
  | 48 => ⟨S128x2, .i32⟩
  | 49 => ⟨S_, .i1⟩
  | 50 => ⟨S128, .i1⟩
  | 51 => ⟨S128x500000, .i1⟩
  | 52 => ⟨S_, .f32⟩
  | 53 => ⟨S128x500000, .f32⟩
  | 54 => ⟨S128x500000, .i1⟩
  | 55 => ⟨S_, .f32⟩
  | 56 => ⟨S128x500000, .f32⟩
  | 57 => ⟨S128x500000, .f32⟩
  | 58 => ⟨S_, .f32⟩
  | 59 => ⟨S128x500000, .f32⟩
  | 60 => ⟨S128x500000, .f32⟩
  | 61 => ⟨S_, .f32⟩
  | 62 => ⟨S_, .f32⟩
  | 63 => ⟨S128x500000, .f32⟩
  | 64 => ⟨S128x500000, .f32⟩
  | 65 => ⟨S_, .f32⟩
  | 66 => ⟨S128, .f32⟩
  | 67 => ⟨S128x500000, .i32⟩
  | 68 => ⟨S_, .i32⟩
  | 69 => ⟨S128, .i32⟩
  | 70 => ⟨S_, .i32⟩
  | 71 => ⟨S128, .i32⟩
  | 72 => ⟨S128, .i32⟩
  | 73 => ⟨S128, .f32⟩
  | 74 => ⟨S128, .f32⟩
  | 75 => ⟨S_, .f32⟩
  | 76 => ⟨S128x500000, .f32⟩
  | 77 => ⟨S128x500000, .f32⟩
  | 78 => ⟨S_, .f32⟩
  | 79 => ⟨S128x500000, .f32⟩
  | 80 => ⟨S128x500000, .i1⟩
  | 81 => ⟨S128x500000, .i1⟩
  | 82 => ⟨S_, .f32⟩
  | 83 => ⟨S128x500000, .f32⟩
  | 84 => ⟨S128x500000, .f32⟩
  | 85 => ⟨S128x500000, .f32⟩
  | 86 => ⟨S_, .f32⟩
  | 87 => ⟨S_, .f32⟩
  | 88 => ⟨S128x500000, .f32⟩
  | 89 => ⟨S128x500000, .f32⟩
  | 90 => ⟨S128x500000, .f32⟩
  | 91 => ⟨S_, .f32⟩
  | 92 => ⟨S128, .f32⟩
  | 93 => ⟨S_, .f32⟩
  | 94 => ⟨S128, .f32⟩
  | 95 => ⟨S_, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S128, .f32⟩
  | 103 => ⟨S_, .f32⟩
  | 104 => ⟨S_, .f32⟩
  | 105 => ⟨S_, .f32⟩
  | 106 => ⟨S_, .f32⟩
  | 107 => ⟨S_, .f32⟩
  | 108 => ⟨S128x500000, .f32⟩
  | 109 => ⟨S128x500000, .f32⟩
  | 110 => ⟨S128x500000, .f32⟩
  | 111 => ⟨S128x500000, .f32⟩
  | 112 => ⟨S_, .f32⟩
  | 113 => ⟨S_, .f32⟩
  | 114 => ⟨S_, .f32⟩
  | 115 => ⟨S_, .f32⟩
  | 116 => ⟨S128x64, .f32⟩
  | 117 => ⟨S128x64, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S128x64, .f32⟩

abbrev hbmTy0_1 (i : Nat) : BufTy := match i % 128 with
  | 0 => ⟨S_, .f32⟩
  | 1 => ⟨S_, .f32⟩
  | 2 => ⟨S_, .f32⟩
  | 3 => ⟨S128x500000, .f32⟩
  | 4 => ⟨S128x500000, .i1⟩
  | 5 => ⟨S128x500000, .i1⟩
  | 6 => ⟨S128x500000, .f32⟩
  | 7 => ⟨S_, .f32⟩
  | 8 => ⟨S128x500000, .f32⟩
  | 9 => ⟨S128x500000, .f32⟩
  | 10 => ⟨S128x500000, .f32⟩
  | 11 => ⟨S128x500000, .f32⟩
  | 12 => ⟨S128x500000, .f32⟩
  | 13 => ⟨S_, .f32⟩
  | 14 => ⟨S128, .f32⟩
  | 15 => ⟨S128x1, .f32⟩
  | 16 => ⟨S_, .f32⟩
  | 17 => ⟨S128x1, .f32⟩
  | 18 => ⟨S128x1, .f32⟩
  | 19 => ⟨S128x500000, .f32⟩
  | 20 => ⟨S128x500000, .f32⟩
  | 21 => ⟨S128x500000, .f32⟩
  | 22 => ⟨S128x500000, .f32⟩
  | _ => ⟨S128x64, .f32⟩

abbrev hbmTy (i : Nat) : BufTy := match i / 128 with
  | 0 => hbmTy0_0 i
  | 1 => hbmTy0_1 i
  | _ => ⟨S128x64, .f32⟩

abbrev bufTy : (tb : Table) → Fin (tcTables nBuf tb) → BufTy
  | .hbm, ⟨i, _⟩ => hbmTy i
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_cst_11 : Ref sig .tc := ⟨.hbm, 61, rfl⟩
abbrev main_call1_v0 : Ref sig .tc := ⟨.hbm, 62, rfl⟩
abbrev main_call1_v1 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_c_13 : Ref sig .tc := ⟨.hbm, 68, rfl⟩
abbrev main_v43 : Ref sig .tc := ⟨.hbm, 69, rfl⟩
abbrev main_c_14 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_cst_16 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_17 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_18 : Ref sig .tc := ⟨.hbm, 86, rfl⟩
abbrev main_call2_v0 : Ref sig .tc := ⟨.hbm, 87, rfl⟩
abbrev main_call2_v1 : Ref sig .tc := ⟨.hbm, 88, rfl⟩
abbrev main_v56 : Ref sig .tc := ⟨.hbm, 89, rfl⟩
abbrev main_v57 : Ref sig .tc := ⟨.hbm, 90, rfl⟩
abbrev main_cst_19 : Ref sig .tc := ⟨.hbm, 91, rfl⟩
abbrev main_v58 : Ref sig .tc := ⟨.hbm, 92, rfl⟩
abbrev main_cst_20 : Ref sig .tc := ⟨.hbm, 93, rfl⟩
abbrev main_v59 : Ref sig .tc := ⟨.hbm, 94, rfl⟩
abbrev main_cst_21 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_22 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_23 : Ref sig .tc := ⟨.hbm, 103, rfl⟩
abbrev main_v66 : Ref sig .tc := ⟨.hbm, 104, rfl⟩
abbrev main_cst_24 : Ref sig .tc := ⟨.hbm, 105, rfl⟩
abbrev main_v67 : Ref sig .tc := ⟨.hbm, 106, rfl⟩
abbrev main_cst_25 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_26 : Ref sig .tc := ⟨.hbm, 112, rfl⟩
abbrev main_v72 : Ref sig .tc := ⟨.hbm, 113, rfl⟩
abbrev main_cst_27 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_28 : Ref sig .tc := ⟨.hbm, 118, rfl⟩
abbrev main_v76 : Ref sig .tc := ⟨.hbm, 119, rfl⟩
abbrev main_cst_29 : Ref sig .tc := ⟨.hbm, 120, rfl⟩
abbrev main_v77 : Ref sig .tc := ⟨.hbm, 121, rfl⟩
abbrev main_cst_30 : Ref sig .tc := ⟨.hbm, 122, rfl⟩
abbrev main_v78 : Ref sig .tc := ⟨.hbm, 123, rfl⟩
abbrev main_cst_31 : Ref sig .tc := ⟨.hbm, 124, rfl⟩
abbrev main_v79 : Ref sig .tc := ⟨.hbm, 125, rfl⟩
abbrev main_v80 : Ref sig .tc := ⟨.hbm, 126, rfl⟩
abbrev main_cst_32 : Ref sig .tc := ⟨.hbm, 127, rfl⟩
abbrev main_v81 : Ref sig .tc := ⟨.hbm, 128, rfl⟩
abbrev main_v82 : Ref sig .tc := ⟨.hbm, 129, rfl⟩
abbrev main_cst_33 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_34 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_35 : Ref sig .tc := ⟨.hbm, 141, rfl⟩
abbrev main_v92 : Ref sig .tc := ⟨.hbm, 142, rfl⟩
abbrev main_v93 : Ref sig .tc := ⟨.hbm, 143, rfl⟩
abbrev main_cst_36 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩

abbrev nD : Nat := 1
abbrev τ : Topo := Topo.v7x

variable {F : FTy → Type} [FloatOps F]

class Facts₀ : Prop where
  transposes_S500000x64_S64x500000_1_0 : S500000x64.Transposes [1, 0] S64x500000
  reducesTo_S128x64_S128_d1 : S128x64.ReducesTo [1] S128
  h_S_ : 0 < S_.numel
  bcast_S128_S128x1_0 : S128.BroadcastsInDim S128x1 (![0] : Fin 1 → Fin S128x1.rank)
  reducesTo_S500000x64_S500000_d1 : S500000x64.ReducesTo [1] S500000
  bcast_S500000_S1x500000_1 : S500000.BroadcastsInDim S1x500000 (![1] : Fin 1 → Fin S1x500000.rank)
  bcast_S128x1_S128x500000_0_1 : S128x1.BroadcastsInDim S128x500000 (![0, 1] : Fin 2 → Fin S128x500000.rank)
  bcast_S1x500000_S128x500000_0_1 : S1x500000.BroadcastsInDim S128x500000 (![0, 1] : Fin 2 → Fin S128x500000.rank)
  bcast_S_S128x500000 : S_.BroadcastsInDim S128x500000 (![] : Fin 0 → Fin S128x500000.rank)
  bcast_S_S128 : S_.BroadcastsInDim S128 (![] : Fin 0 → Fin S128.rank)
  concatenates_S128x1_S128x1_S128x2_d1 : Shape.Concatenates [S128x1, S128x1] S128x2 1
  reducesTo_S128x500000_S128_d1 : S128x500000.ReducesTo [1] S128
  natLt_1_32 : 1 < 32
  reducesTo_S128_S_d0 : S128.ReducesTo [0] S_
  reducesTo_S128x500000_S_d0_1 : S128x500000.ReducesTo [0, 1] S_
  reducesTo_S128x64_S_d0_1 : S128x64.ReducesTo [0, 1] S_
  bcast_S_S128x1 : S_.BroadcastsInDim S128x1 (![] : Fin 0 → Fin S128x1.rank)
  dot_S128x64_S64x500000_S128x500000_1_0_0_1_n_n_wf : DotDims.WF S128x64 S64x500000 S128x500000 [1] [0] [0] [1] [] []
  scatter_S128x500000_S128x2_S128_n_01_01_1_wf : ScatterDims.WF S128x500000 S128x2 S128 [] [0, 1] [0, 1] 1

variable [Facts₀]

def dot_S128x64_S64x500000_S128x500000_1_0_0_1_n_n : DotDims S128x64 S64x500000 S128x500000 where
  lhsContracting := [1]
  rhsContracting := [0]
  lhsNonContracting := [0]
  rhsNonContracting := [1]
  lhsBatch := []
  rhsBatch := []
  wf := dot_S128x64_S64x500000_S128x500000_1_0_0_1_n_n_wf
def scatter_S128x500000_S128x2_S128_n_01_01_1 : ScatterDims S128x500000 S128x2 S128 where
  updateWindowDims := []
  insertedWindowDims := [0, 1]
  scatterDimsToOperandDims := [0, 1]
  indexVectorDim := 1
  wf := scatter_S128x500000_S128x2_S128_n_01_01_1_wf

class Facts : Prop extends Facts₀ where

variable [Facts]
-- ==== Proof.Spec.lean ====
/-
  The mathematics of the two programs, entry by entry, over the extended reals.

  Inputs: u (128 x 64), V (500000 x 64), S (128 x 500000), V_omega_u (128 x 64) and an index b r per row.
  For a row r and a database column j write  uv = sum_k u[r,k] * V[j,k],  us = sum_k u[r,k]^2,  vs = sum_k V[j,k]^2.
  The distance is  d = sqrt (max (us + vs - 2 uv) eps).  A pair (r, j) is POSITIVE when S[r,j] > 0 and j is not the
  row's own column b r, NEGATIVE when S[r,j] <= 0 (and j is a real column), and an ACTIVE negative when moreover
  d < 12.  Per row the programs sum over the columns: the margin term  max (d - 10) 0  over the positives, the number
  of positives, the weight  w = exp ((12 - d) / 2)  over the active negatives, w * (12 - d) over the same, and the
  square (uv - 64 S[r,j])^2 over all columns.  The loss is assembled from the five row sums; the weight matrix is
  -(w / (row's weight sum + eps)) + [positive and d > 10].

  Everything here is a function of SCALARS (one entry's us, vs, uv, S[r,j] and its two index tests), written with
  the very operations the printed programs use at the exact instance, so that either program's entry is one of
  these terms after its layout operations are read at an index.
-/
import Idealize.ShloMosaic.PureOps.Ideal
import Idealize.ShloMosaic.Lib.ValueIdx

noncomputable section

namespace Cert.Spec

open Idealize.ShloMosaic

/-- The float literals of both programs, as the words they are printed with (never evaluated, except zero and one). -/
abbrev c0 : EReal := Ideal.ofBits .f32 0x00000000#32
abbrev c1 : EReal := Ideal.ofBits .f32 0x3F800000#32
abbrev c2 : EReal := Ideal.ofBits .f32 0x40000000#32
abbrev cEps : EReal := Ideal.ofBits .f32 0x2B8CBCCC#32
abbrev c10 : EReal := Ideal.ofBits .f32 0x41200000#32
abbrev c12 : EReal := Ideal.ofBits .f32 0x41400000#32
abbrev cHalf : EReal := Ideal.ofBits .f32 0x3F000000#32
abbrev c64 : EReal := Ideal.ofBits .f32 0x42800000#32
abbrev c128 : EReal := Ideal.ofBits .f32 0x43000000#32
abbrev c64e6 : EReal := Ideal.ofBits .f32 0x4C742400#32
abbrev c8192 : EReal := Ideal.ofBits .f32 0x46000000#32
abbrev c200 : EReal := Ideal.ofBits .f32 0x43480000#32

/-- The distance of a row and a column from the row's and the column's squared norms and their inner product. -/
def dist (us vs uv : EReal) : EReal := Ideal.sqrt (max ((us + vs) - c2 * uv) cEps)

/-- "Positive pair": S[r,j] > 0 and the column is not the row's own (`self` is the test "column = b r"). -/
def mpos (s : EReal) (self : BitVec 1) : BitVec 1 := Ideal.cmp .ogt s c0 &&& (self ^^^ 1#1)

/-- "Negative pair": S[r,j] <= 0, on a real column (`valid` is the test "column < 500000"). -/
def mneg (s : EReal) (valid : BitVec 1) : BitVec 1 := Ideal.cmp .ole s c0 &&& valid

/-- "Active negative": a negative pair closer than 12. -/
def nact (mn : BitVec 1) (d : EReal) : BitVec 1 := mn &&& Ideal.cmp .olt d c12

/-- The margin term of a positive pair, zero elsewhere. -/
def lpT (mp : BitVec 1) (d : EReal) : EReal := Scalar.select mp (max (d - c10) c0) c0

/-- One for a positive pair, zero elsewhere (the test widened to a word, the word read as a number). -/
def cntT (mp : BitVec 1) : EReal := (((mp.setWidth 32).toInt : ℝ) : EReal)

/-- 12 - d. -/
def amd (d : EReal) : EReal := c12 - d

/-- The weight of an active negative, zero elsewhere. -/
def wT (na : BitVec 1) (d : EReal) : EReal := Scalar.select na (Ideal.exp (cHalf * amd d)) c0

/-- The weight times 12 - d. -/
def waT (na : BitVec 1) (d : EReal) : EReal := wT na d * amd d

/-- (uv - 64 S[r,j])^2. -/
def sqT (uv s : EReal) : EReal := (uv - c64 * s) * (uv - c64 * s)

/-- One for a positive pair further than 10, zero elsewhere. -/
def paT (mp : BitVec 1) (d : EReal) : EReal := ((((mp &&& Ideal.cmp .ogt d c10).setWidth 32).toInt : ℝ) : EReal)

/-- An entry of the weight matrix from the row's weight sum. -/
def wOut (na mp : BitVec 1) (d wsum : EReal) : EReal := (c0 - Ideal.div (wT na d) (wsum + cEps)) + paT mp d

/-- The loss from the row sums (margin, count, weight, weighted distance: functions of the row), the total of the
    squares and the total of (V_omega_u - u)^2. -/
def loss (lp cnt ws wa : Fin 128 → EReal) (sqTot qTot : EReal) : EReal :=
  (c1 * Ideal.div (c0 + ∑ r : Fin 128, (Ideal.div (lp r) (max (cnt r) c1) + c1 * Ideal.div (wa r) (ws r + cEps))) c128
    + c1 * Ideal.div sqTot c64e6)
  + c200 * Ideal.div qTot c8192

end Cert.Spec

end
-- ==== Proof.SpecArr.lean ====
/-
  The entries of both programs as functions of the ARRAYS: a row r of u, a column j of a database of n columns
  (n = 500000 for the reference, n = 503808 for the kernel's padded copy), the pair's label S[r,j] and the row's
  own column b r.  Each is one of the scalar terms of Spec.lean at the row's and the column's squared norms,
  their inner product, the label and the two index tests.
-/
import proofs.«404421_j35442070126796_1_alg».proof.Proof.Spec

noncomputable section

namespace Cert.Spec

open Idealize.ShloMosaic Idealize.ShloMosaic.ValueIdx

/-- A matrix of extended reals with `a` rows and `b` columns, indexed as the printed programs index it. -/
abbrev Mat (a b : Nat) : Type := (⟨2, ![a, b]⟩ : Shape).Idx → EReal

/-- The squared norm of row `r` of a matrix with 64 columns. -/
def sqn {a : Nat} (x : Mat a 64) (r : Fin a) : EReal := ∑ k : Fin 64, x (ix2 r k) * x (ix2 r k)

/-- The inner product of row `r` of `x` and row `j` of `y`. -/
def inner {a n : Nat} (x : Mat a 64) (y : Mat n 64) (r : Fin a) (j : Fin n) : EReal := ∑ k : Fin 64, x (ix2 r k) * y (ix2 j k)

/-- The test "column `j` is the row's own column `b`", on 32-bit words. -/
def selfB (b : BitVec 32) (j : Nat) : BitVec 1 := IntOp.cmpi .eq (BitVec.ofNat 32 j) b

/-- The test "column `j` is a real column (below 500000)", on 32-bit words, signed. -/
def validB (j : Nat) : BitVec 1 := IntOp.cmpi .slt (BitVec.ofNat 32 j) 500000#32

section
variable {n : Nat} (u : Mat 128 64) (v : Mat n 64) (s : Mat 128 n) (b : Fin 128 → BitVec 32)

/-- The distance of row `r` of u and column `j` of the database. -/
def dAt (r : Fin 128) (j : Fin n) : EReal := dist (sqn u r) (sqn v j) (inner u v r j)
/-- The pair is positive. -/
def mposAt (r : Fin 128) (j : Fin n) : BitVec 1 := mpos (s (ix2 r j)) (selfB (b r) j.val)
/-- The pair is an active negative. -/
def nactAt (r : Fin 128) (j : Fin n) : BitVec 1 := nact (mneg (s (ix2 r j)) (validB j.val)) (dAt u v r j)

/-- The five summands of a row's sums at column `j`. -/
def lpE (r : Fin 128) (j : Fin n) : EReal := lpT (mposAt s b r j) (dAt u v r j)
def cntE (r : Fin 128) (j : Fin n) : EReal := cntT (mposAt s b r j)
def wE (r : Fin 128) (j : Fin n) : EReal := wT (nactAt u v s r j) (dAt u v r j)
def waE (r : Fin 128) (j : Fin n) : EReal := waT (nactAt u v s r j) (dAt u v r j)
def sqE (r : Fin 128) (j : Fin n) : EReal := sqT (inner u v r j) (s (ix2 r j))

/-- The entry of the weight matrix at (r, j) from the rows' weight sums `ws`. -/
def wMatE (ws : Fin 128 → EReal) (r : Fin 128) (j : Fin n) : EReal :=
  wOut (nactAt u v s r j) (mposAt s b r j) (dAt u v r j) (ws r)

/-- The row sums over all `n` columns. -/
def lpRow (r : Fin 128) : EReal := ∑ j : Fin n, lpE u v s b r j
def cntRow (r : Fin 128) : EReal := ∑ j : Fin n, cntE s b r j
def wRow (r : Fin 128) : EReal := ∑ j : Fin n, wE u v s r j
def waRow (r : Fin 128) : EReal := ∑ j : Fin n, waE u v s r j
def sqRow (r : Fin 128) : EReal := ∑ j : Fin n, sqE u v s r j

/-- The loss over a database of `n` columns (`vo` is V_omega_u). -/
def lossOf (vo : Mat 128 64) : EReal :=
  loss (lpRow u v s b) (cntRow s b) (wRow u v s) (waRow u v s) (c0 + ∑ r : Fin 128, sqRow u v s r)
    (c0 + ∑ i : (⟨2, ![128, 64]⟩ : Shape).Idx, (vo i - u i) * (vo i - u i))

/-- The weight matrix over a database of `n` columns. -/
def wMatOf (r : Fin 128) (j : Fin n) : EReal := wMatE u v s b (wRow u v s) r j
end

/-! The same at one grid point: a block of 64 rows of u (`x1`), a block of 4096 rows of the padded database (`x2`),
    the 64 x 4096 block of labels (`x3`), the 64 rows' own columns (`x0`), at column tile `t`: lane `l` of the
    tile is the database column 4096 * t + l, which the body computes on 32-bit words. -/

/-- The word 4096 * t + l. -/
def colWord (t : Nat) (l : Fin 4096) : BitVec 32 := (BitVec.ofNat 32 t) * 4096#32 + BitVec.ofNat 32 l.val

section
variable (t : Nat) (x0 : (⟨2, ![64, 1]⟩ : Shape).Idx → BitVec 32) (x1 : Mat 64 64) (x2 : Mat 4096 64) (x3 : Mat 64 4096)

/-- The block's distance, positive test and active-negative test at row `p`, lane `l`. -/
def dBlk (p : Fin 64) (l : Fin 4096) : EReal := dist (sqn x1 p) (sqn x2 l) (inner x1 x2 p l)
def mposBlk (p : Fin 64) (l : Fin 4096) : BitVec 1 := mpos (x3 (ix2 p l)) (IntOp.cmpi .eq (colWord t l) (x0 (ix2 p 0)))
def nactBlk (p : Fin 64) (l : Fin 4096) : BitVec 1 :=
  nact (mneg (x3 (ix2 p l)) (IntOp.cmpi .slt (colWord t l) 500000#32)) (dBlk x1 x2 p l)
end

/-- The padded database: rows past `n` are zero. -/
def padRows {n N : Nat} (v : Mat n 64) : Mat N 64 := fun i => if h : (i 0).val < n then v (ix2 ⟨(i 0).val, h⟩ (i 1)) else 0
/-- The padded labels: columns past `n` are zero. -/
def padCols {n N : Nat} (s : Mat 128 n) : Mat 128 N := fun i => if h : (i 1).val < n then s (ix2 (i 0) ⟨(i 1).val, h⟩) else 0

end Cert.Spec

end
-- ==== Proof.KArr.lean ====
/-
  Names for the arrays region 0 and region 1 read and write, at the contents `V` a region is entered with: the 128
  rows of u, the zero-padded database (503808 rows of 64), the zero-padded labels (128 x 503808), the rows' own
  columns; and for what the regions leave: per row the five sums over all padded columns, and the padded weight matrix.
-/
import proofs.«404421_j35442070126796_1_alg».proof.Proof.FrameKernelIdeal
import proofs.«404421_j35442070126796_1_alg».proof.Proof.SpecArr

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP Cert.Spec

variable (V : (c : Dev nD) → (b : Ref sig .tc) → Buf (Elt Ideal) ((c : Thread nD τ).loc b))

/-- The arrays both regions read, as a region finds them. -/
abbrev uK (c : Dev nD) : Vec Ideal S128x64 .f32 := V c main_arg0
abbrev vK (c : Dev nD) : Vec Ideal S503808x64 .f32 := V c main_v0
abbrev sK (c : Dev nD) : Vec Ideal S128x503808 .f32 := V c main_v1
abbrev bK (c : Dev nD) : Vec Ideal S128x1 .i32 := V c main_v2
/-- Region 1's fifth input: the rows' weight sums region 0 left. -/
abbrev wsK (c : Dev nD) : Vec Ideal S128x1 .f32 := V c main_v3_2

/-- The rows' own columns as a function of the row. -/
def bRow (c : Dev nD) : Fin 128 → BitVec 32 := fun r => bK V c (ix2 r 0)

/-- What region 0 leaves in its five output arrays: per row, the sum over all 503808 padded columns. -/
def lpArr (c : Dev nD) : Vec Ideal S128x1 .f32 := fun y => lpRow (uK V c) (vK V c) (sK V c) (bRow V c) ⟨(y 0).val, idx2_lt0 y⟩
def cntArr (c : Dev nD) : Vec Ideal S128x1 .f32 := fun y => cntRow (sK V c) (bRow V c) ⟨(y 0).val, idx2_lt0 y⟩
def wArr (c : Dev nD) : Vec Ideal S128x1 .f32 := fun y => wRow (uK V c) (vK V c) (sK V c) ⟨(y 0).val, idx2_lt0 y⟩
def waArr (c : Dev nD) : Vec Ideal S128x1 .f32 := fun y => waRow (uK V c) (vK V c) (sK V c) ⟨(y 0).val, idx2_lt0 y⟩
def sqArr (c : Dev nD) : Vec Ideal S128x1 .f32 := fun y => sqRow (uK V c) (vK V c) (sK V c) ⟨(y 0).val, idx2_lt0 y⟩

/-- What region 1 leaves in its output array: the padded weight matrix, from the weight sums it is given. -/
def wmatArr (c : Dev nD) : Vec Ideal S128x503808 .f32 := fun y =>
  wMatE (uK V c) (vK V c) (sK V c) (bRow V c) (fun r => wsK V c (ix2 r 0)) ⟨(y 0).val, idx2_lt0 y⟩ ⟨(y 1).val, idx2_lt1 y⟩

end Cert.KernelIdeal.Val

end
-- ==== Proof.KEntry.lean ====
/-
  The arrays the two regions are entered with, read back through the host operations before them: the padded
  database is V with 3808 zero rows appended, the padded labels are S with 3808 zero columns appended, the rows' own
  columns are batch_ind reshaped to a column, u is the argument itself; region 1 finds the same four arrays and,
  as its fifth input, the weight sums region 0 wrote.
-/
import proofs.«404421_j35442070126796_1_alg».proof.Proof.KArr
import Idealize.ShloMosaic.Lib.StableHlo.Run
import Idealize.ShloMosaic.Lib.KernelVsHost
import Idealize.ShloMosaic.Lib.Pipeline.Value

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP Cert.Spec

namespace KEntry

/-- A buffer that no operation of a stretch of host operations writes holds after the stretch what it held before:
    each operation's one written buffer is another buffer. -/
local macro "host_keeps" : tactic => `(tactic|
  (refine StableHlo.after_of_forall_not_mem _ _ (List.forall_iff_forall_mem.mp ?_)
   simp only [hostOps0, hostOps0_1, hostOps0_2, hostOps0_3, hostOps0_4, hostOps1, List.flatten_cons, List.flatten_nil,
     List.append_nil, List.cons_append, List.nil_append, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-! ## Each stretch of host operations, from any contents `X` -/

section Stretches
variable (X : Valuation τ sig (Elt Ideal))

/-! The buffers a stretch leaves alone. -/
theorem s0_arg0 : StableHlo.after (hostOps0 (F := Ideal)) X (Proc.devRef .tc main_arg0) = X (Proc.devRef .tc main_arg0) := by
  host_keeps
theorem s0_arg1 : StableHlo.after (hostOps0 (F := Ideal)) X (Proc.devRef .tc main_arg1) = X (Proc.devRef .tc main_arg1) := by
  host_keeps
theorem s0_arg2 : StableHlo.after (hostOps0 (F := Ideal)) X (Proc.devRef .tc main_arg2) = X (Proc.devRef .tc main_arg2) := by
  host_keeps
theorem s0_arg5 : StableHlo.after (hostOps0 (F := Ideal)) X (Proc.devRef .tc main_arg5) = X (Proc.devRef .tc main_arg5) := by
  host_keeps
theorem s1_arg0 : StableHlo.after (hostOps0_1 (F := Ideal)) X (Proc.devRef .tc main_arg0) = X (Proc.devRef .tc main_arg0) := by
  host_keeps
theorem s1_arg2 : StableHlo.after (hostOps0_1 (F := Ideal)) X (Proc.devRef .tc main_arg2) = X (Proc.devRef .tc main_arg2) := by
  host_keeps
theorem s1_arg5 : StableHlo.after (hostOps0_1 (F := Ideal)) X (Proc.devRef .tc main_arg5) = X (Proc.devRef .tc main_arg5) := by
  host_keeps
theorem s2_arg0 : StableHlo.after (hostOps0_2 (F := Ideal)) X (Proc.devRef .tc main_arg0) = X (Proc.devRef .tc main_arg0) := by
  host_keeps
theorem s2_arg2 : StableHlo.after (hostOps0_2 (F := Ideal)) X (Proc.devRef .tc main_arg2) = X (Proc.devRef .tc main_arg2) := by
  host_keeps
theorem s2_arg5 : StableHlo.after (hostOps0_2 (F := Ideal)) X (Proc.devRef .tc main_arg5) = X (Proc.devRef .tc main_arg5) := by
  host_keeps
theorem s2_v0 : StableHlo.after (hostOps0_2 (F := Ideal)) X (Proc.devRef .tc main_v0) = X (Proc.devRef .tc main_v0) := by
  host_keeps
theorem s3_arg0 : StableHlo.after (hostOps0_3 (F := Ideal)) X (Proc.devRef .tc main_arg0) = X (Proc.devRef .tc main_arg0) := by
  host_keeps
theorem s3_arg5 : StableHlo.after (hostOps0_3 (F := Ideal)) X (Proc.devRef .tc main_arg5) = X (Proc.devRef .tc main_arg5) := by
  host_keeps
theorem s3_v0 : StableHlo.after (hostOps0_3 (F := Ideal)) X (Proc.devRef .tc main_v0) = X (Proc.devRef .tc main_v0) := by
  host_keeps
theorem s4_arg0 : StableHlo.after (hostOps0_4 (F := Ideal)) X (Proc.devRef .tc main_arg0) = X (Proc.devRef .tc main_arg0) := by
  host_keeps
theorem s4_v0 : StableHlo.after (hostOps0_4 (F := Ideal)) X (Proc.devRef .tc main_v0) = X (Proc.devRef .tc main_v0) := by
  host_keeps
theorem s4_v1 : StableHlo.after (hostOps0_4 (F := Ideal)) X (Proc.devRef .tc main_v1) = X (Proc.devRef .tc main_v1) := by
  host_keeps
theorem s5_arg0 : StableHlo.after (hostOps1 (F := Ideal)) X (Proc.devRef .tc main_arg0) = X (Proc.devRef .tc main_arg0) := by
  host_keeps
theorem s5_v0 : StableHlo.after (hostOps1 (F := Ideal)) X (Proc.devRef .tc main_v0) = X (Proc.devRef .tc main_v0) := by
  host_keeps
theorem s5_v1 : StableHlo.after (hostOps1 (F := Ideal)) X (Proc.devRef .tc main_v1) = X (Proc.devRef .tc main_v1) := by
  host_keeps
theorem s5_v2 : StableHlo.after (hostOps1 (F := Ideal)) X (Proc.devRef .tc main_v2) = X (Proc.devRef .tc main_v2) := by
  host_keeps
theorem s5_v3_2 : StableHlo.after (hostOps1 (F := Ideal)) X (Proc.devRef .tc main_v3_2) = X (Proc.devRef .tc main_v3_2) := by
  host_keeps

/-! The buffer a stretch writes: the operation's function of what its operands held. -/

/-- The first stretch leaves the word 0 in its scalar. -/
theorem s0_c : StableHlo.after (hostOps0 (F := Ideal)) X (Proc.devRef .tc main_c) = (constantI S_ 32 0#32 : Vec Ideal S_ .i32) := by
  after_results
/-- The second pads the database with the first's scalar, read as a number. -/
theorem s1_v0 : StableHlo.after (hostOps0_1 (F := Ideal)) X (Proc.devRef .tc main_v0)
    = pad S503808x64 ![0, 0] ![3808, 0] ![0, 0] (X (Proc.devRef .tc main_arg1) : Vec Ideal S500000x64 .f32)
        (sitofp (F := Ideal) .f32 (X (Proc.devRef .tc main_c) : Vec Ideal S_ .i32)) pads_S500000x64_S503808x64_038080_000 h_S_ := by
  after_results; rfl
/-- The third leaves the word 0 in its scalar. -/
theorem s2_c : StableHlo.after (hostOps0_2 (F := Ideal)) X (Proc.devRef .tc main_c_0) = (constantI S_ 32 0#32 : Vec Ideal S_ .i32) := by
  after_results
/-- The fourth pads the labels with the third's scalar, read as a number. -/
theorem s3_v1 : StableHlo.after (hostOps0_3 (F := Ideal)) X (Proc.devRef .tc main_v1)
    = pad S128x503808 ![0, 0] ![0, 3808] ![0, 0] (X (Proc.devRef .tc main_arg2) : Vec Ideal S128x500000 .f32)
        (sitofp (F := Ideal) .f32 (X (Proc.devRef .tc main_c_0) : Vec Ideal S_ .i32)) pads_S128x500000_S128x503808_000_038080 h_S_ := by
  after_results; rfl
/-- The fifth reshapes the rows' own columns to a column. -/
theorem s4_v2 : StableHlo.after (hostOps0_4 (F := Ideal)) X (Proc.devRef .tc main_v2)
    = (shapeCast S128x1 (X (Proc.devRef .tc main_arg5) : Vec Ideal S128 .i32) shapeCasts_S128_S128x1 : Vec Ideal S128x1 .i32) := by
  after_results; rfl

end Stretches

/-! ## The written arrays read at an index -/

/-- The padding scalar: the word 0 read as a signed number is the number 0. -/
theorem pad_scalar_zero :
    (sitofp (F := Ideal) .f32 (constantI S_ 32 0#32 : Vec Ideal S_ .i32) : Vec Ideal S_ .f32) (Shape.Idx.first h_S_) = 0 := by
  show ((((0#32 : BitVec 32).toInt : ℤ) : ℝ) : EReal) = 0
  have h0 : (0#32 : BitVec 32).toInt = 0 := by decide
  rw [h0, Int.cast_zero, EReal.coe_zero]

/-- 3808 rows of the scalar `z` appended to a matrix of 500000 rows: the matrix on its rows, `z` past them. -/
theorem pad_rows_eq (x : Vec Ideal S500000x64 .f32) (z : Vec Ideal S_ .f32) (hz : z (Shape.Idx.first h_S_) = 0) :
    pad S503808x64 ![0, 0] ![3808, 0] ![0, 0] x z pads_S500000x64_S503808x64_038080_000 h_S_ = padRows (N := 503808) x := by
  funext j
  unfold padRows
  by_cases h : (j 0).val < 500000
  · rw [dif_pos h]
    exact pad_apply_of_inside _ _ _ x z _ _ j (ix2 ⟨(j 0).val, h⟩ (j 1)) fun a =>
      match a with
      | ⟨0, _⟩ => by show (j 0).val = 0 + (j 0).val * (0 + 1); omega
      | ⟨1, _⟩ => by show (j 1).val = 0 + (j 1).val * (0 + 1); omega
  · rw [dif_neg h]
    refine (pad_apply_of_not_inside _ _ _ x z _ _ j 0 ?_).trans hz
    intro h3
    have h4 : ((j 0).val - 0) / (0 + 1) < 500000 := h3.2.2
    omega

/-- 3808 columns of the scalar `z` appended to a matrix of 500000 columns: the matrix on its columns, `z` past them. -/
theorem pad_cols_eq (x : Vec Ideal S128x500000 .f32) (z : Vec Ideal S_ .f32) (hz : z (Shape.Idx.first h_S_) = 0) :
    pad S128x503808 ![0, 0] ![0, 3808] ![0, 0] x z pads_S128x500000_S128x503808_000_038080 h_S_ = padCols (N := 503808) x := by
  funext j
  unfold padCols
  by_cases h : (j 1).val < 500000
  · rw [dif_pos h]
    exact pad_apply_of_inside _ _ _ x z _ _ j (ix2 (j 0) ⟨(j 1).val, h⟩) fun a =>
      match a with
      | ⟨0, _⟩ => by show (j 0).val = 0 + (j 0).val * (0 + 1); omega
      | ⟨1, _⟩ => by show (j 1).val = 0 + (j 1).val * (0 + 1); omega
  · rw [dif_neg h]
    refine (pad_apply_of_not_inside _ _ _ x z _ _ j 1 ?_).trans hz
    intro h3
    have h4 : ((j 1).val - 0) / (0 + 1) < 500000 := h3.2.2
    omega

/-- A vector of 128 reshaped to a column: entry (r, 0) of the column is entry r of the vector. -/
theorem reshape_col (x : Vec Ideal S128 .i32) (r : Fin 128) :
    (shapeCast S128x1 x shapeCasts_S128_S128x1 : Vec Ideal S128x1 .i32) (ix2 r 0) = x (ix1 r) := by
  refine shapeCast_apply x _ (ix2 r 0) (ix1 r) ?_
  rw [Shape.rowMajor_val_one, Shape.rowMajor_val_two]
  show r.val = r.val * 1 + 0
  omega

/-- A padding whose scalar is the word 0 read as a number is a padding by the number 0. -/
theorem pad_rows_of (x : Vec Ideal S500000x64 .f32) (cst : Vec Ideal S_ .i32) (hc : cst = constantI S_ 32 0#32) :
    pad S503808x64 ![0, 0] ![3808, 0] ![0, 0] x (sitofp (F := Ideal) .f32 cst : Vec Ideal S_ .f32)
      pads_S500000x64_S503808x64_038080_000 h_S_ = padRows (N := 503808) x :=
  pad_rows_eq x _ (by subst hc; exact pad_scalar_zero)
theorem pad_cols_of (x : Vec Ideal S128x500000 .f32) (cst : Vec Ideal S_ .i32) (hc : cst = constantI S_ 32 0#32) :
    pad S128x503808 ![0, 0] ![0, 3808] ![0, 0] x (sitofp (F := Ideal) .f32 cst : Vec Ideal S_ .f32)
      pads_S128x500000_S128x503808_000_038080 h_S_ = padCols (N := 503808) x :=
  pad_cols_eq x _ (by subst hc; exact pad_scalar_zero)

end KEntry

variable (m : (ℓ : Loc nD τ sig) → Buf (Elt Ideal) ℓ) (ρ : Dev nD → PrngReg)

/-- The argument arrays at their literal types. -/
abbrev uM (c : Dev nD) : Vec Ideal S128x64 .f32 := m ((c : Thread nD τ).loc main_arg0)
abbrev vM (c : Dev nD) : Vec Ideal S500000x64 .f32 := m ((c : Thread nD τ).loc main_arg1)
abbrev sM (c : Dev nD) : Vec Ideal S128x500000 .f32 := m ((c : Thread nD τ).loc main_arg2)
abbrev voM (c : Dev nD) : Vec Ideal S128x64 .f32 := m ((c : Thread nD τ).loc main_arg4)
abbrev bM (c : Dev nD) : Vec Ideal S128 .i32 := m ((c : Thread nD τ).loc main_arg5)
/-- The rows' own columns as a function of the row. -/
def bOf (c : Dev nD) : Fin 128 → BitVec 32 := fun r => bM m c (ix1 r)

namespace KEntry

/-! ## The contents at region 0's entry, buffer by buffer -/

/-- u is as launched: no host operation before region 0 writes it. -/
theorem W5_arg0 (c : Dev nD) : (W5 m ρ c (Proc.devRef .tc main_arg0) : Vec Ideal S128x64 .f32) = uM m c :=
  calc W5 m ρ c (Proc.devRef .tc main_arg0)
    _ = W4 m ρ c (Proc.devRef .tc main_arg0) := s4_arg0 _
    _ = W3 m ρ c (Proc.devRef .tc main_arg0) := s3_arg0 _
    _ = W2 m ρ c (Proc.devRef .tc main_arg0) := s2_arg0 _
    _ = W1 m ρ c (Proc.devRef .tc main_arg0) := s1_arg0 _
    _ = W0 m ρ c (Proc.devRef .tc main_arg0) := s0_arg0 _
    _ = m ((c : Thread nD τ).loc main_arg0) := rfl

/-- V is as launched when it is padded. -/
theorem W1_arg1 (c : Dev nD) : (W1 m ρ c (Proc.devRef .tc main_arg1) : Vec Ideal S500000x64 .f32) = vM m c :=
  calc W1 m ρ c (Proc.devRef .tc main_arg1)
    _ = W0 m ρ c (Proc.devRef .tc main_arg1) := s0_arg1 _
    _ = m ((c : Thread nD τ).loc main_arg1) := rfl

/-- S is as launched when it is padded. -/
theorem W3_arg2 (c : Dev nD) : (W3 m ρ c (Proc.devRef .tc main_arg2) : Vec Ideal S128x500000 .f32) = sM m c :=
  calc W3 m ρ c (Proc.devRef .tc main_arg2)
    _ = W2 m ρ c (Proc.devRef .tc main_arg2) := s2_arg2 _
    _ = W1 m ρ c (Proc.devRef .tc main_arg2) := s1_arg2 _
    _ = W0 m ρ c (Proc.devRef .tc main_arg2) := s0_arg2 _
    _ = m ((c : Thread nD τ).loc main_arg2) := rfl

/-- batch_ind is as launched when it is reshaped. -/
theorem W4_arg5 (c : Dev nD) : (W4 m ρ c (Proc.devRef .tc main_arg5) : Vec Ideal S128 .i32) = bM m c :=
  calc W4 m ρ c (Proc.devRef .tc main_arg5)
    _ = W3 m ρ c (Proc.devRef .tc main_arg5) := s3_arg5 _
    _ = W2 m ρ c (Proc.devRef .tc main_arg5) := s2_arg5 _
    _ = W1 m ρ c (Proc.devRef .tc main_arg5) := s1_arg5 _
    _ = W0 m ρ c (Proc.devRef .tc main_arg5) := s0_arg5 _
    _ = m ((c : Thread nD τ).loc main_arg5) := rfl

/-- The padded database is V with zero rows appended. -/
theorem W5_v0 (c : Dev nD) : (W5 m ρ c (Proc.devRef .tc main_v0) : Vec Ideal S503808x64 .f32) = padRows (N := 503808) (vM m c) :=
  calc W5 m ρ c (Proc.devRef .tc main_v0)
    _ = W4 m ρ c (Proc.devRef .tc main_v0) := s4_v0 _
    _ = W3 m ρ c (Proc.devRef .tc main_v0) := s3_v0 _
    _ = W2 m ρ c (Proc.devRef .tc main_v0) := s2_v0 _
    _ = pad S503808x64 ![0, 0] ![3808, 0] ![0, 0] (W1 m ρ c (Proc.devRef .tc main_arg1) : Vec Ideal S500000x64 .f32)
          (sitofp (F := Ideal) .f32 (W1 m ρ c (Proc.devRef .tc main_c) : Vec Ideal S_ .i32))
          pads_S500000x64_S503808x64_038080_000 h_S_ := s1_v0 _
    _ = padRows (N := 503808) (W1 m ρ c (Proc.devRef .tc main_arg1) : Vec Ideal S500000x64 .f32) := pad_rows_of _ _ (s0_c _)
    _ = padRows (N := 503808) (vM m c) := congrArg (padRows (n := 500000) (N := 503808)) (W1_arg1 m ρ c)

/-- The padded labels are S with zero columns appended. -/
theorem W5_v1 (c : Dev nD) : (W5 m ρ c (Proc.devRef .tc main_v1) : Vec Ideal S128x503808 .f32) = padCols (N := 503808) (sM m c) :=
  calc W5 m ρ c (Proc.devRef .tc main_v1)
    _ = W4 m ρ c (Proc.devRef .tc main_v1) := s4_v1 _
    _ = pad S128x503808 ![0, 0] ![0, 3808] ![0, 0] (W3 m ρ c (Proc.devRef .tc main_arg2) : Vec Ideal S128x500000 .f32)
          (sitofp (F := Ideal) .f32 (W3 m ρ c (Proc.devRef .tc main_c_0) : Vec Ideal S_ .i32))
          pads_S128x500000_S128x503808_000_038080 h_S_ := s3_v1 _
    _ = padCols (N := 503808) (W3 m ρ c (Proc.devRef .tc main_arg2) : Vec Ideal S128x500000 .f32) := pad_cols_of _ _ (s2_c _)
    _ = padCols (N := 503808) (sM m c) := congrArg (padCols (n := 500000) (N := 503808)) (W3_arg2 m ρ c)

/-- The rows' own columns are batch_ind as a column. -/
theorem W5_v2 (c : Dev nD) : (W5 m ρ c (Proc.devRef .tc main_v2) : Vec Ideal S128x1 .i32)
    = shapeCast S128x1 (bM m c) shapeCasts_S128_S128x1 :=
  calc W5 m ρ c (Proc.devRef .tc main_v2)
    _ = (shapeCast S128x1 (W4 m ρ c (Proc.devRef .tc main_arg5) : Vec Ideal S128 .i32) shapeCasts_S128_S128x1 : Vec Ideal S128x1 .i32) := s4_v2 _
    _ = shapeCast S128x1 (bM m c) shapeCasts_S128_S128x1 :=
        congrArg (fun x : Vec Ideal S128 .i32 => (shapeCast S128x1 x shapeCasts_S128_S128x1 : Vec Ideal S128x1 .i32)) (W4_arg5 m ρ c)

end KEntry

open KEntry

/-- Region 0's entry. -/
theorem entry5_u (c : Dev nD) : uK (V5 m ρ) c = uM m c := W5_arg0 m ρ c
theorem entry5_v (c : Dev nD) : vK (V5 m ρ) c = padRows (N := 503808) (vM m c) := W5_v0 m ρ c
theorem entry5_s (c : Dev nD) : sK (V5 m ρ) c = padCols (N := 503808) (sM m c) := W5_v1 m ρ c
theorem entry5_b (c : Dev nD) : bRow (V5 m ρ) c = bOf m c :=
  funext fun r => (congrFun (W5_v2 m ρ c) (ix2 r 0)).trans (reshape_col (bM m c) r)

namespace KEntry

/-! ## The contents at region 1's entry: region 0 leaves its four inputs as it found them, and the host operations
    between the regions write none of them nor the weight sums -/

theorem W7_arg0 (c : Dev nD) : W7 m ρ c (Proc.devRef .tc main_arg0) = W5 m ρ c (Proc.devRef .tc main_arg0) :=
  calc W7 m ρ c (Proc.devRef .tc main_arg0)
    _ = W6 m ρ c (Proc.devRef .tc main_arg0) := s5_arg0 _
    _ = W5 m ρ c (Proc.devRef .tc main_arg0) := (W6_arr m ρ c 1).trans (((dat0 (V5 m ρ) c).arrAt_in 1 rfl _).trans (A_eq0 (V5 m ρ) c 1))
theorem W7_v0 (c : Dev nD) : W7 m ρ c (Proc.devRef .tc main_v0) = W5 m ρ c (Proc.devRef .tc main_v0) :=
  calc W7 m ρ c (Proc.devRef .tc main_v0)
    _ = W6 m ρ c (Proc.devRef .tc main_v0) := s5_v0 _
    _ = W5 m ρ c (Proc.devRef .tc main_v0) := (W6_arr m ρ c 2).trans (((dat0 (V5 m ρ) c).arrAt_in 2 rfl _).trans (A_eq0 (V5 m ρ) c 2))
theorem W7_v1 (c : Dev nD) : W7 m ρ c (Proc.devRef .tc main_v1) = W5 m ρ c (Proc.devRef .tc main_v1) :=
  calc W7 m ρ c (Proc.devRef .tc main_v1)
    _ = W6 m ρ c (Proc.devRef .tc main_v1) := s5_v1 _
    _ = W5 m ρ c (Proc.devRef .tc main_v1) := (W6_arr m ρ c 3).trans (((dat0 (V5 m ρ) c).arrAt_in 3 rfl _).trans (A_eq0 (V5 m ρ) c 3))
theorem W7_v2 (c : Dev nD) : W7 m ρ c (Proc.devRef .tc main_v2) = W5 m ρ c (Proc.devRef .tc main_v2) :=
  calc W7 m ρ c (Proc.devRef .tc main_v2)
    _ = W6 m ρ c (Proc.devRef .tc main_v2) := s5_v2 _
    _ = W5 m ρ c (Proc.devRef .tc main_v2) := (W6_arr m ρ c 0).trans (((dat0 (V5 m ρ) c).arrAt_in 0 rfl _).trans (A_eq0 (V5 m ρ) c 0))

end KEntry

/-- Region 1's entry: the same four arrays, and the weight sums region 0 left. -/
theorem entry7_u (c : Dev nD) : uK (V7 m ρ) c = uM m c := (W7_arg0 m ρ c).trans (W5_arg0 m ρ c)
theorem entry7_v (c : Dev nD) : vK (V7 m ρ) c = padRows (N := 503808) (vM m c) := (W7_v0 m ρ c).trans (W5_v0 m ρ c)
theorem entry7_s (c : Dev nD) : sK (V7 m ρ) c = padCols (N := 503808) (sM m c) := (W7_v1 m ρ c).trans (W5_v1 m ρ c)
theorem entry7_b (c : Dev nD) : bRow (V7 m ρ) c = bOf m c :=
  funext fun r => (congrFun ((W7_v2 m ρ c).trans (W5_v2 m ρ c)) (ix2 r 0)).trans (reshape_col (bM m c) r)
theorem entry7_ws (c : Dev nD) : wsK (V7 m ρ) c = (dat0 (V5 m ρ) c).arrAt 6 cfg0.N :=
  calc W7 m ρ c (Proc.devRef .tc main_v3_2)
    _ = W6 m ρ c (Proc.devRef .tc main_v3_2) := s5_v3_2 _
    _ = (dat0 (V5 m ρ) c).arrAt 6 cfg0.N := W6_arr m ρ c 6

end Cert.KernelIdeal.Val

end
-- ==== Proof.KLoss.lean ====
/-
  The host operations between the two regions: from the five row-sum arrays region 0 left, u and V_omega_u, the
  scalar loss — the mean over the rows of  margin / max(count, 1) + 1 * weighted / (weight + eps),  plus 1 * the total
  of the squares over 64000000, plus 200 * the total of (V_omega_u - u)^2 over 8192 — as the one term `Spec.loss`.
-/
import proofs.«404421_j35442070126796_1_alg».proof.Proof.KArr
import Idealize.ShloMosaic.Lib.StableHlo.Run
import Idealize.ShloMosaic.PureOps.Ideal.Laws
import Idealize.ShloMosaic.Lib.IdealHost
import Idealize.ShloMosaic.Lib.Pipeline.Value

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP Cert.Spec

/-- A column `[a, 1]` read as a vector `[a]`: entry `r` of the vector is entry `(r, 0)` of the column (both sit at
    row-major position `r`). -/
theorem castCol_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r 0) :=
  shapeCast_apply x h _ _ (by
    rw [Shape.rowMajor_val_two, Shape.rowMajor_val_one]
    show r.val * 1 + 0 = r.val
    omega)

/-- The entries of a vector of length `n`, summed over its indices, are the sum over `r : Fin n` of entry `r`. -/
theorem sum_idx1 {M : Type} [AddCommMonoid M] {n : ℕ} (f : (⟨1, ![n]⟩ : Shape).Idx → M) :
    ∑ i : (⟨1, ![n]⟩ : Shape).Idx, f i = ∑ r : Fin n, f (ix1 r) :=
  (Fintype.sum_equiv (⟨ix1, fun j => j 0, fun r => rfl, fun j => (eq_ix1 j).symm⟩ : Fin n ≃ (⟨1, ![n]⟩ : Shape).Idx)
    (fun r => f (ix1 r)) f (fun r => rfl)).symm

/-- A scalar spread over a vector of 128 entries is that scalar at every entry. -/
theorem splat_apply {α : Type} (x : S_.Idx → α) (r : Fin 128) :
    broadcastInDim S128 (![] : Fin 0 → Fin 1) bcast_S_S128 x (ix1 r) = x ix0 :=
  broadcastInDim_scalar_apply _ _ _

/-- The sum of a vector of 128 entries into a scalar, started from a constant: the constant plus the sum of the
    entries. -/
theorem rowReduce_apply (x : Vec Ideal S128 .f32) (w : BitVec 32) (j : S_.Idx) :
    Host.reduceAdd x (constant (F := Ideal) S_ .f32 w) reducesTo_S128_S_d0 h_S_ j
      = Ideal.ofBits .f32 w + ∑ r : Fin 128, x (ix1 r) := by
  rw [hostReduceAdd_apply, Ideal.hostReduceAdd_total _ (fun b => b.elim0), constant_apply]
  exact congrArg _ (sum_idx1 x)

/-- The sum of every entry of a 128 x 64 array into a scalar, started from a constant: the constant plus the total. -/
theorem totalReduce_apply (x : Vec Ideal S128x64 .f32) (w : BitVec 32) (j : S_.Idx) :
    Host.reduceAdd x (constant (F := Ideal) S_ .f32 w) reducesTo_S128x64_S_d0_1 h_S_ j
      = Ideal.ofBits .f32 w + ∑ i : S128x64.Idx, x i := by
  rw [hostReduceAdd_apply, Ideal.hostReduceAdd_total _ (fun b => b.elim0), constant_apply]

variable (m : (ℓ : Loc nD τ sig) → Buf (Elt Ideal) ℓ) (ρ : Dev nD → PrngReg)

/-- The five arrays region 0 left and the two arguments the loss reads, at region 0's exit. -/
abbrev a4 (c : Dev nD) : Vec Ideal S128x1 .f32 := W6 m ρ c (Proc.devRef .tc main_v3_0)
abbrev a5 (c : Dev nD) : Vec Ideal S128x1 .f32 := W6 m ρ c (Proc.devRef .tc main_v3_1)
abbrev a6 (c : Dev nD) : Vec Ideal S128x1 .f32 := W6 m ρ c (Proc.devRef .tc main_v3_2)
abbrev a7 (c : Dev nD) : Vec Ideal S128x1 .f32 := W6 m ρ c (Proc.devRef .tc main_v3_3)
abbrev a8 (c : Dev nD) : Vec Ideal S128x1 .f32 := W6 m ρ c (Proc.devRef .tc main_v3_4)
abbrev u6 (c : Dev nD) : Vec Ideal S128x64 .f32 := W6 m ρ c (Proc.devRef .tc main_arg0)
abbrev vo6 (c : Dev nD) : Vec Ideal S128x64 .f32 := W6 m ρ c (Proc.devRef .tc main_arg4)

/-- The loss the host operations compute from them.  The operations' composed term, read at the scalar's one index:
    every column is read as a vector (entry `r` is the column's entry `(r, 0)`), the spread constants are the
    constants, quotients, maxima, sums and products are taken entry by entry, and each of the three reductions is its
    zero constant plus a finite sum — over the 128 rows for the per-row term and for the squares, over all 128 x 64
    entries for (V_omega_u - u)^2.  What is left is `Spec.loss` of the five columns and the two totals, word for word. -/
theorem loss_chain (c : Dev nD) :
    (W7 m ρ c (Proc.devRef .tc main_v30) : Vec Ideal S_ .f32) = fun _ =>
      loss (fun r => a4 m ρ c (ix2 r 0)) (fun r => a5 m ρ c (ix2 r 0)) (fun r => a6 m ρ c (ix2 r 0)) (fun r => a7 m ρ c (ix2 r 0))
        (c0 + ∑ r : Fin 128, a8 m ρ c (ix2 r 0))
        (c0 + ∑ i : (⟨2, ![128, 64]⟩ : Shape).Idx, (vo6 m ρ c i - u6 m ρ c i) * (vo6 m ρ c i - u6 m ρ c i)) := by
  show StableHlo.after hostOps1 (W6 m ρ c) (Proc.devRef .tc main_v30) = _
  dsimp only [hostOps1]
  after_results_simp
  funext j
  have e4 : ∀ r : Fin 128, shapeCast main_v4.ty.shape (W6 m ρ c (Proc.devRef .tc main_v3_0)) shapeCasts_S128x1_S128 (ix1 r)
      = a4 m ρ c (ix2 r 0) := fun r => castCol_apply (a4 m ρ c) shapeCasts_S128x1_S128 r
  have e5 : ∀ r : Fin 128, shapeCast main_v5.ty.shape (W6 m ρ c (Proc.devRef .tc main_v3_1)) shapeCasts_S128x1_S128 (ix1 r)
      = a5 m ρ c (ix2 r 0) := fun r => castCol_apply (a5 m ρ c) shapeCasts_S128x1_S128 r
  have e9 : ∀ r : Fin 128, shapeCast main_v9.ty.shape (W6 m ρ c (Proc.devRef .tc main_v3_3)) shapeCasts_S128x1_S128 (ix1 r)
      = a7 m ρ c (ix2 r 0) := fun r => castCol_apply (a7 m ρ c) shapeCasts_S128x1_S128 r
  have e10 : ∀ r : Fin 128, shapeCast main_v10.ty.shape (W6 m ρ c (Proc.devRef .tc main_v3_2)) shapeCasts_S128x1_S128 (ix1 r)
      = a6 m ρ c (ix2 r 0) := fun r => castCol_apply (a6 m ρ c) shapeCasts_S128x1_S128 r
  have e19 : ∀ r : Fin 128, shapeCast main_v19.ty.shape (W6 m ρ c (Proc.devRef .tc main_v3_4)) shapeCasts_S128x1_S128 (ix1 r)
      = a8 m ρ c (ix2 r 0) := fun r => castCol_apply (a8 m ρ c) shapeCasts_S128x1_S128 r
  simp only [addf_apply, mulf_apply, subf_apply, maximumf_apply, hostDivf_apply, constant_apply,
    rowReduce_apply, totalReduce_apply, splat_apply, e4, e5, e9, e10, e19]
  rfl

end Cert.KernelIdeal.Val

end
-- ==== Proof.R0Pieces.lean ====
/-
  Region 0's five outputs after one run of the body, as the body's arithmetic of the blocks it read.  On the
  first column tile (the zeroing branch taken) each output holds the tile's sum added to zero; on every other tile
  the tile's sum added to what the output held before.
-/
import proofs.«404421_j35442070126796_1_alg».proof.Proof.FrameKernelIdeal
import Idealize.ShloMosaic.Lib.Pipeline.Value

set_option maxRecDepth 16384

noncomputable section

namespace Cert.KernelIdeal.Val

open Idealize.ShloMosaic Idealize.ShloMosaic.TcCoe Idealize.ShloMosaic.Tactic
open Cert.KernelIdeal Cert.KernelIdeal.Gen Cert.KernelIdeal.GenP

variable {F : FTy → Type} [FloatOps F]
variable (c : Dev nD) (i : grid0.Coords) (arg2 : Memref sig .tc .vmem S64x1 .i32) (harg2 : arg2.IsWhole)
  (arg3 : Memref sig .tc .vmem S64x64 .f32) (harg3 : arg3.IsWhole) (arg4 : Memref sig .tc .vmem S4096x64 .f32) (harg4 : arg4.IsWhole)
  (arg5 : Memref sig .tc .vmem S64x4096 .f32) (harg5 : arg5.IsWhole) (arg6 : Memref sig .tc .vmem S64x1 .f32) (harg6 : arg6.IsWhole)
  (arg7 : Memref sig .tc .vmem S64x1 .f32) (harg7 : arg7.IsWhole) (arg8 : Memref sig .tc .vmem S64x1 .f32) (harg8 : arg8.IsWhole)
  (arg9 : Memref sig .tc .vmem S64x1 .f32) (harg9 : arg9.IsWhole) (arg10 : Memref sig .tc .vmem S64x1 .f32) (harg10 : arg10.IsWhole)
  (x0 : Vec F S64x1 .i32) (x1 : Vec F S64x64 .f32) (x2 : Vec F S4096x64 .f32) (x3 : Vec F S64x4096 .f32)

/-- The all-true mask the body builds. -/
abbrev tt : IVec S64x4096 1 := constantI S64x4096 1 1#1

/-- The zero offset of a rank-two block, written as the constant function. -/
private theorem hz : (![0, 0] : Fin 2 → Nat) = fun _ => 0 := funext fun a => by fin_cases a <;> rfl

section B
variable (hc0 : ¬cond0_0 i) (xo4 xo5 xo6 xo7 xo8 : Vec F S64x1 .f32)

theorem out0_B_4_eq : out0_B_4 c i arg2 harg2 arg3 harg3 arg4 harg4 arg5 harg5 arg6 harg6 arg7 harg7 arg8 harg8 arg9 harg9 arg10 harg10 hc0 x0 x1 x2 x3 xo4 xo5 xo6 xo7 xo8
    = k0_pay25 (k0_pay13 x1 x2) (k0_pay16 i x0) (k0_pay17 x3) tt xo4 := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 x2 x3 xo4 xo5 xo6 xo7 xo8)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_B_5_eq : out0_B_5 c i arg2 harg2 arg3 harg3 arg4 harg4 arg5 harg5 arg6 harg6 arg7 harg7 arg8 harg8 arg9 harg9 arg10 harg10 hc0 x0 x1 x2 x3 xo4 xo5 xo6 xo7 xo8
    = k0_pay1 (k0_pay19 (k0_pay16 i x0) (k0_pay17 x3) tt) xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 xo4 xo5 xo6 xo7 xo8)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_B_6_eq : out0_B_6 c i arg2 harg2 arg3 harg3 arg4 harg4 arg5 harg5 arg6 harg6 arg7 harg7 arg8 harg8 arg9 harg9 arg10 harg10 hc0 x0 x1 x2 x3 xo4 xo5 xo6 xo7 xo8
    = k0_pay2 (k0_pay22 (k0_pay11 x3) (k0_pay13 x1 x2) (k0_pay15 i)) xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 xo4 xo5 xo6 xo7 xo8)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_B_7_eq : out0_B_7 c i arg2 harg2 arg3 harg3 arg4 harg4 arg5 harg5 arg6 harg6 arg7 harg7 arg8 harg8 arg9 harg9 arg10 harg10 hc0 x0 x1 x2 x3 xo4 xo5 xo6 xo7 xo8
    = k0_pay3 (k0_pay23 (k0_pay11 x3) (k0_pay13 x1 x2) (k0_pay15 i)) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 xo4 xo5 xo6 xo7 xo8)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_B_8_eq : out0_B_8 c i arg2 harg2 arg3 harg3 arg4 harg4 arg5 harg5 arg6 harg6 arg7 harg7 arg8 harg8 arg9 harg9 arg10 harg10 hc0 x0 x1 x2 x3 xo4 xo5 xo6 xo7 xo8
    = k0_pay4 (k0_pay24 (k0_pay11 x3) (k0_pay12 x1 x2)) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 x2 x3 xo4 xo5 xo6 xo7 xo8)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
end B

section A
variable (hc0 : cond0_0 i)

theorem out0_A_4_eq : out0_A_4 c i arg2 harg2 arg3 harg3 arg4 harg4 arg5 harg5 arg6 harg6 arg7 harg7 arg8 harg8 arg9 harg9 arg10 harg10 hc0 x0 x1 x2 x3
    = k0_pay25 (k0_pay13 x1 x2) (k0_pay16 i x0) (k0_pay17 x3) tt (k0_pay5 (F := F)) := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S64x1) hz, View.readCov_unit_zero (S := S64x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_A_5_eq : out0_A_5 c i arg2 harg2 arg3 harg3 arg4 harg4 arg5 harg5 arg6 harg6 arg7 harg7 arg8 harg8 arg9 harg9 arg10 harg10 hc0 x0 x1 x2 x3
    = k0_pay1 (k0_pay19 (k0_pay16 i x0) (k0_pay17 x3) tt) (k0_pay6 (F := F)) := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S64x1) hz, View.readCov_unit_zero (S := S64x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_A_6_eq : out0_A_6 c i arg2 harg2 arg3 harg3 arg4 harg4 arg5 harg5 arg6 harg6 arg7 harg7 arg8 harg8 arg9 harg9 arg10 harg10 hc0 x0 x1 x2 x3
    = k0_pay2 (k0_pay22 (k0_pay11 x3) (k0_pay13 x1 x2) (k0_pay15 i)) (k0_pay7 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S64x1) hz, View.readCov_unit_zero (S := S64x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_A_7_eq : out0_A_7 c i arg2 harg2 arg3 harg3 arg4 harg4 arg5 harg5 arg6 harg6 arg7 harg7 arg8 harg8 arg9 harg9 arg10 harg10 hc0 x0 x1 x2 x3
    = k0_pay3 (k0_pay23 (k0_pay11 x3) (k0_pay13 x1 x2) (k0_pay15 i)) (k0_pay8 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S64x1) hz, View.readCov_unit_zero (S := S64x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
theorem out0_A_8_eq : out0_A_8 c i arg2 harg2 arg3 harg3 arg4 harg4 arg5 harg5 arg6 harg6 arg7 harg7 arg8 harg8 arg9 harg9 arg10 harg10 hc0 x0 x1 x2 x3
    = k0_pay4 (k0_pay24 (k0_pay11 x3) (k0_pay12 x1 x2)) (k0_pay9 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S64x1) hz, View.readCov_unit_zero (S := S64x1) _ hz]
  simp only [View.readAt_eq_ld, harg2.read_unread, harg3.read_unread, harg4.read_unread, harg5.read_unread,
    harg6.read_unread, harg7.read_unread, harg8.read_unread, harg9.read_unread, harg10.read_unread,
    View.ld_unit_zero (S := S64x1) hz, View.ld_unit_zero (S := S64x64) hz, View.ld_unit_zero (S := S4096x64) hz,
    View.ld_unit_zero (S := S64x4096) hz]
end A

end Cert.KernelIdeal.Val

end
-- ==== Proof.R0Pay.lean ====
/-
  Region 0's arithmetic at one output row.  At a grid point with column tile `i 1` the body reads a block of 64
  rows of u (`x1`), a block of 4096 rows of the padded V (`x2`), the 64 x 4096 block of the padded S (`x3`) and
  the rows' own columns (`x0`); each of its five stored values is the value held before plus the row's sum, over
  the tile's 4096 columns, of one of the scalar terms.

  The road: each composed block is read at row `p`, lane `l`.  The elementwise operations read through at the
  index; a lane sum kept as a column is the sum over the lanes of the row; a column or a row broadcast over the
  block reads the column's row or the row's lane; the contraction of the two blocks over their second axes is the
  inner product of row `p` of the first with row `l` of the second; the lane counter on the second axis, added to
  4096 times the tile, is the column word.
-/
import proofs.«404421_j35442070126796_1_alg».proof.Proof.Gen.KernelIdeal.Skeleton
import proofs.«404421_j35442070126796_1_alg».proof.Proof.SpecArr
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen Cert.Spec

namespace R0

/-! ## Layout operations and sums read at coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of a two-axis block read at row `p`: the sum over the lanes of the block's row. -/
theorem laneSum_apply {a b : ℕ} (x : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (funext fun c => Fin.ext (by
    match c with
    | ⟨0, _⟩ => rfl
    | ⟨1, _⟩ => rfl))

/-- The operand indices of the contraction, axis by axis: the first operand is read at (row of the result, contraction
    position), the second at (lane of the result, contraction position). -/
theorem lhs_dot_0 (j : S64x4096.Idx) (q : dot_S64x64_S4096x64_S64x4096_1_1_0_0_n_n.contr.Idx) :
    (dot_S64x64_S4096x64_S64x4096_1_1_0_0_n_n.lhsIdx j q 0).val = (j 0).val := by
  unfold DotDims.lhsIdx
  rw [dif_neg (show ¬(0 : Fin S64x64.rank) ∈ dot_S64x64_S4096x64_S64x4096_1_1_0_0_n_n.lhsBatch by decide), dif_pos (show (0 : Fin S64x64.rank) ∈ dot_S64x64_S4096x64_S64x4096_1_1_0_0_n_n.lhsNonContracting by decide)]
  rfl
theorem lhs_dot_1 (j : S64x4096.Idx) (q : dot_S64x64_S4096x64_S64x4096_1_1_0_0_n_n.contr.Idx) :
    (dot_S64x64_S4096x64_S64x4096_1_1_0_0_n_n.lhsIdx j q 1).val = (q ⟨0, by decide⟩).val :=
  dot_S64x64_S4096x64_S64x4096_1_1_0_0_n_n.lhsIdx_val_of_single rfl j q
theorem rhs_dot_0 (j : S64x4096.Idx) (q : dot_S64x64_S4096x64_S64x4096_1_1_0_0_n_n.contr.Idx) :
    (dot_S64x64_S4096x64_S64x4096_1_1_0_0_n_n.rhsIdx j q 0).val = (j 1).val := by
  unfold DotDims.rhsIdx
  rw [dif_neg (show ¬(0 : Fin S4096x64.rank) ∈ dot_S64x64_S4096x64_S64x4096_1_1_0_0_n_n.rhsBatch by decide), dif_pos (show (0 : Fin S4096x64.rank) ∈ dot_S64x64_S4096x64_S64x4096_1_1_0_0_n_n.rhsNonContracting by decide)]
  rfl
theorem rhs_dot_1 (j : S64x4096.Idx) (q : dot_S64x64_S4096x64_S64x4096_1_1_0_0_n_n.contr.Idx) :
    (dot_S64x64_S4096x64_S64x4096_1_1_0_0_n_n.rhsIdx j q 1).val = (q ⟨0, by decide⟩).val :=
  dot_S64x64_S4096x64_S64x4096_1_1_0_0_n_n.rhsIdx_val_of_single rfl j q

/-- The contraction into a zero block, read at row `p`, lane `l`: the sum over the 64 positions of the products. -/
theorem dot_apply (y1 : FVec Ideal S64x64 .bf16) (y2 : FVec Ideal S4096x64 .bf16) (p : Fin 64) (l : Fin 4096) :
    matmul dot_S64x64_S4096x64_S64x4096_1_1_0_0_n_n none y1 y2 (constant (F := Ideal) S64x4096 .f32 0x00000000#32) (ix2 p l)
      = ∑ k : Fin 64, y1 (ix2 p k) * y2 (ix2 l k) := by
  refine (Ideal.matmul_constant_zero_apply dot_S64x64_S4096x64_S64x4096_1_1_0_0_n_n none y1 y2 (ix2 p l)).trans ?_
  rw [← Equiv.sum_comp (contrEquiv1 dot_S64x64_S4096x64_S64x4096_1_1_0_0_n_n 64 rfl rfl).symm]
  refine Finset.sum_congr rfl fun k _ => ?_
  have hk := contrEquiv1_symm_val dot_S64x64_S4096x64_S64x4096_1_1_0_0_n_n 64 rfl rfl k
  have el : dot_S64x64_S4096x64_S64x4096_1_1_0_0_n_n.lhsIdx (ix2 p l) ((contrEquiv1 dot_S64x64_S4096x64_S64x4096_1_1_0_0_n_n 64 rfl rfl).symm k) = ix2 p k := funext fun a => Fin.ext (by
    match a with
    | ⟨0, _⟩ => exact lhs_dot_0 _ _
    | ⟨1, _⟩ => exact (lhs_dot_1 _ _).trans hk)
  have er : dot_S64x64_S4096x64_S64x4096_1_1_0_0_n_n.rhsIdx (ix2 p l) ((contrEquiv1 dot_S64x64_S4096x64_S64x4096_1_1_0_0_n_n 64 rfl rfl).symm k) = ix2 l k := funext fun a => Fin.ext (by
    match a with
    | ⟨0, _⟩ => exact rhs_dot_0 _ _
    | ⟨1, _⟩ => exact (rhs_dot_1 _ _).trans hk)
  rw [el, er]

/-! ## The sub-payloads at row `p`, lane `l` -/

section Blocks
variable (i : grid0.Coords) (x0 : Vec Ideal S64x1 .i32) (x1 : Vec Ideal S64x64 .f32) (x2 : Vec Ideal S4096x64 .f32)
  (x3 : Vec Ideal S64x4096 .f32)

/-- The two identity casts change nothing. -/
theorem pay10_eq : k0_pay10 x2 = x2 := shapeCast_self x2 _
theorem pay11_eq : k0_pay11 x3 = x3 := shapeCast_self x3 _

/-- The contraction is the inner product of row `p` of the first block and row `l` of the second. -/
theorem pay12_apply (p : Fin 64) (l : Fin 4096) : k0_pay12 x1 x2 (ix2 p l) = inner x1 x2 p l := by
  unfold k0_pay12
  refine (dot_apply _ _ p l).trans ?_
  rw [pay10_eq]
  rfl

/-- The squared norms, broadcast along the other axis. -/
theorem rowNorm_apply (x : FVec Ideal S64x64 .f32) (h : S64x64.Reduces [1] S64) (hφ : FKind.Formats .f32)
    (hacc : (0x00000000#32 : BitVec (FTy.bits .f32)) = FKind.add.neutral .f32 hφ) (hc : S64.ShapeCasts S64x1) (hb : S64x1.Broadcasts S64x4096)
    (p : Fin 64) (l : Fin 4096) :
    broadcastTo S64x4096 (shapeCast S64x1 (multiReduction (F := Ideal) .add [1] S64 (mulf x x) 0x00000000#32 h hφ hacc) hc) hb (ix2 p l)
      = sqn x p := by
  refine (broadcastTo_a1_ab_apply _ hb p l).trans ?_
  refine (shapeCast_a_a1_apply _ hc p 0).trans ?_
  exact laneSum_apply (mulf x x) _ h hφ hacc p

theorem colNorm_apply (x : FVec Ideal S4096x64 .f32) (h : S4096x64.Reduces [1] S4096) (hφ : FKind.Formats .f32)
    (hacc : (0x00000000#32 : BitVec (FTy.bits .f32)) = FKind.add.neutral .f32 hφ) (hc : S4096.ShapeCasts S1x4096) (hb : S1x4096.Broadcasts S64x4096)
    (p : Fin 64) (l : Fin 4096) :
    broadcastTo S64x4096 (shapeCast S1x4096 (multiReduction (F := Ideal) .add [1] S4096 (mulf x x) 0x00000000#32 h hφ hacc) hc) hb (ix2 p l)
      = sqn x l := by
  refine (broadcastTo_1b_ab_apply _ hb p l).trans ?_
  refine (shapeCast_a_1a_apply _ hc 0 l).trans ?_
  exact laneSum_apply (mulf x x) _ h hφ hacc l

/-- The distance block. -/
theorem pay13_apply (p : Fin 64) (l : Fin 4096) : k0_pay13 x1 x2 (ix2 p l) = dBlk x1 x2 p l := by
  unfold k0_pay13
  show Ideal.sqrt (max ((_ + _) - c2 * k0_pay12 x1 x2 (ix2 p l)) cEps)
    = Ideal.sqrt (max ((sqn x1 p + sqn x2 l) - c2 * inner x1 x2 p l) cEps)
  refine congrArg (fun t => Ideal.sqrt (max t cEps)) ?_
  refine congrArg₂ (fun a b => a - c2 * b) (congrArg₂ (fun a b => a + b) ?_ ?_) (pay12_apply x1 x2 p l)
  · exact rowNorm_apply x1 _ _ _ _ _ p l
  · exact (colNorm_apply (k0_pay10 x2) _ _ _ _ _ p l).trans (congrArg (fun y => sqn y l) (pay10_eq x2))

/-- The column word of lane `l` at the point's column tile. -/
theorem pay14_apply (p : Fin 64) (l : Fin 4096) : k0_pay14 i (ix2 p l) = colWord (i 1).val l := by
  unfold k0_pay14
  show IntOp.addi _ (iota .tc S64x4096 32 [1] _ (ix2 p l)) = _
  rw [iota_single_apply]
  rfl

/-- "The column is a real column". -/
theorem pay15_apply (p : Fin 64) (l : Fin 4096) :
    k0_pay15 i (ix2 p l) = IntOp.cmpi .slt (colWord (i 1).val l) 500000#32 := by
  unfold k0_pay15
  show IntOp.cmpi .slt (k0_pay14 i (ix2 p l)) 500000#32 = _
  rw [pay14_apply]

/-- "The column is the row's own". -/
theorem pay16_apply (p : Fin 64) (l : Fin 4096) :
    k0_pay16 i x0 (ix2 p l) = IntOp.cmpi .eq (colWord (i 1).val l) (x0 (ix2 p 0)) := by
  unfold k0_pay16
  show IntOp.cmpi .eq (k0_pay14 i (ix2 p l)) (broadcastTo S64x4096 (shapeCast S64x1 x0 _) _ (ix2 p l)) = _
  rw [pay14_apply, broadcastTo_a1_ab_apply, shapeCast_self]

/-- "The label is positive". -/
theorem pay17_apply (p : Fin 64) (l : Fin 4096) : k0_pay17 x3 (ix2 p l) = Ideal.cmp .ogt (x3 (ix2 p l)) c0 := by
  unfold k0_pay17
  rw [pay11_eq]
  rfl

/-- The positive test. -/
theorem pay18_apply (p : Fin 64) (l : Fin 4096) :
    k0_pay18 (k0_pay16 i x0) (k0_pay17 x3) (constantI S64x4096 1 1#1) (ix2 p l) = mposBlk (i 1).val x0 x3 p l := by
  unfold k0_pay18
  show IntOp.andi (k0_pay17 x3 (ix2 p l)) (IntOp.xori (k0_pay16 i x0 (ix2 p l)) 1#1) = _
  rw [pay17_apply, pay16_apply]
  rfl

/-- The weight of an active negative, from any label, distance and validity blocks. -/
theorem pay21_gen (v7 v27 : FVec Ideal S64x4096 .f32) (v33 : IVec S64x4096 1) (j : S64x4096.Idx) :
    k0_pay21 v7 v27 v33 j = wT (nact (mneg (v7 j) (v33 j)) (v27 j)) (v27 j) := by
  unfold k0_pay21 k0_pay20
  rfl

theorem pay20_gen (v27 : FVec Ideal S64x4096 .f32) (j : S64x4096.Idx) : k0_pay20 v27 j = amd (v27 j) := by
  unfold k0_pay20
  rfl

theorem pay21_apply (p : Fin 64) (l : Fin 4096) :
    k0_pay21 (k0_pay11 x3) (k0_pay13 x1 x2) (k0_pay15 i) (ix2 p l) = wT (nactBlk (i 1).val x1 x2 x3 p l) (dBlk x1 x2 p l) := by
  rw [pay21_gen, pay11_eq, pay13_apply, pay15_apply]
  rfl

end Blocks

/-! ## A row's sum over the lanes, added to the value before -/

/-- The lane sum kept as a column, read at row `p`. -/
theorem colSum_apply (x : FVec Ideal S64x4096 .f32) (h : S64x4096.Reduces [1] S64) (hφ : FKind.Formats .f32)
    (hacc : (0x00000000#32 : BitVec (FTy.bits .f32)) = FKind.add.neutral .f32 hφ) (hc : S64.ShapeCasts S64x1) (p : Fin 64) :
    shapeCast S64x1 (multiReduction (F := Ideal) .add [1] S64 x 0x00000000#32 h hφ hacc) hc (ix2 p 0) = ∑ l : Fin 4096, x (ix2 p l) := by
  refine (shapeCast_a_a1_apply _ hc p 0).trans ?_
  exact laneSum_apply x _ h hφ hacc p

/-- The value before, through its identity cast, plus the new column. -/
theorem accum_apply (q : Vec Ideal S64x1 .f32) (v : FVec Ideal S64x1 .f32) (hs : S64x1.ShapeCasts S64x1) (j : S64x1.Idx) :
    addf (shapeCast S64x1 q hs) v j = q j + v j := by
  rw [shapeCast_self]
  rfl

end R0

open R0

variable (i : grid0.Coords) (x0 : Vec Ideal S64x1 .i32) (x1 : Vec Ideal S64x64 .f32) (x2 : Vec Ideal S4096x64 .f32)
  (x3 : Vec Ideal S64x4096 .f32)

/-- The margin sum: the stored value at row `p` is the value before plus the tile's margin terms. -/
theorem lp_pay (q : Vec Ideal S64x1 .f32) (p : Fin 64) :
    k0_pay25 (F := Ideal) (k0_pay13 x1 x2) (k0_pay16 i x0) (k0_pay17 x3) (constantI S64x4096 1 1#1) q (ix2 p 0)
      = q (ix2 p 0) + ∑ l : Fin 4096, lpT (mposBlk (i 1).val x0 x3 p l) (dBlk x1 x2 p l) := by
  unfold k0_pay25
  refine (accum_apply q _ _ _).trans ?_
  refine congrArg (q (ix2 p 0) + ·) ?_
  refine (colSum_apply _ _ _ _ _ p).trans ?_
  refine Finset.sum_congr rfl fun l _ => ?_
  show Scalar.select (k0_pay18 (k0_pay16 i x0) (k0_pay17 x3) (constantI S64x4096 1 1#1) (ix2 p l))
      (max (k0_pay13 x1 x2 (ix2 p l) - c10) c0) c0 = _
  rw [pay18_apply, pay13_apply]
  rfl

/-- The count of positives. -/
theorem cnt_pay (q : Vec Ideal S64x1 .f32) (p : Fin 64) :
    k0_pay1 (F := Ideal) (k0_pay19 (k0_pay16 i x0) (k0_pay17 x3) (constantI S64x4096 1 1#1)) q (ix2 p 0)
      = q (ix2 p 0) + ∑ l : Fin 4096, cntT (mposBlk (i 1).val x0 x3 p l) := by
  unfold k0_pay1 k0_pay19
  refine (accum_apply q _ _ _).trans ?_
  refine congrArg (q (ix2 p 0) + ·) ?_
  refine (colSum_apply _ _ _ _ _ p).trans ?_
  refine Finset.sum_congr rfl fun l _ => ?_
  show cntT (k0_pay18 (k0_pay16 i x0) (k0_pay17 x3) (constantI S64x4096 1 1#1) (ix2 p l)) = _
  rw [pay18_apply]

/-- The weight sum. -/
theorem w_pay (q : Vec Ideal S64x1 .f32) (p : Fin 64) :
    k0_pay2 (F := Ideal) (k0_pay22 (k0_pay11 x3) (k0_pay13 x1 x2) (k0_pay15 i)) q (ix2 p 0)
      = q (ix2 p 0) + ∑ l : Fin 4096, wT (nactBlk (i 1).val x1 x2 x3 p l) (dBlk x1 x2 p l) := by
  unfold k0_pay2 k0_pay22
  refine (accum_apply q _ _ _).trans ?_
  refine congrArg (q (ix2 p 0) + ·) ?_
  refine (colSum_apply _ _ _ _ _ p).trans ?_
  exact Finset.sum_congr rfl fun l _ => pay21_apply i x1 x2 x3 p l

/-- The weighted distance sum. -/
theorem wa_pay (q : Vec Ideal S64x1 .f32) (p : Fin 64) :
    k0_pay3 (F := Ideal) (k0_pay23 (k0_pay11 x3) (k0_pay13 x1 x2) (k0_pay15 i)) q (ix2 p 0)
      = q (ix2 p 0) + ∑ l : Fin 4096, waT (nactBlk (i 1).val x1 x2 x3 p l) (dBlk x1 x2 p l) := by
  unfold k0_pay3 k0_pay23
  refine (accum_apply q _ _ _).trans ?_
  refine congrArg (q (ix2 p 0) + ·) ?_
  refine (colSum_apply _ _ _ _ _ p).trans ?_
  refine Finset.sum_congr rfl fun l _ => ?_
  show k0_pay21 (k0_pay11 x3) (k0_pay13 x1 x2) (k0_pay15 i) (ix2 p l) * k0_pay20 (k0_pay13 x1 x2) (ix2 p l) = _
  rw [pay21_apply, pay20_gen, pay13_apply]
  rfl

/-- The sum of squares. -/
theorem sq_pay (q : Vec Ideal S64x1 .f32) (p : Fin 64) :
    k0_pay4 (F := Ideal) (k0_pay24 (k0_pay11 x3) (k0_pay12 x1 x2)) q (ix2 p 0)
      = q (ix2 p 0) + ∑ l : Fin 4096, sqT (inner x1 x2 p l) (x3 (ix2 p l)) := by
  unfold k0_pay4 k0_pay24
  refine (accum_apply q _ _ _).trans ?_
  refine congrArg (q (ix2 p 0) + ·) ?_
  refine (colSum_apply _ _ _ _ _ p).trans ?_
  refine Finset.sum_congr rfl fun l _ => ?_
  show sqT (k0_pay12 x1 x2 (ix2 p l)) (k0_pay11 x3 (ix2 p l)) = _
  rw [pay12_apply, pay11_eq]

/-- The five zero payloads of the first tile are zero at every row. -/
theorem zero_pay (p : Fin 64) :
    k0_pay5 (F := Ideal) (ix2 p 0) = 0 ∧ k0_pay6 (F := Ideal) (ix2 p 0) = 0 ∧ k0_pay7 (F := Ideal) (ix2 p 0) = 0
      ∧ k0_pay8 (F := Ideal) (ix2 p 0) = 0 ∧ k0_pay9 (F := Ideal) (ix2 p 0) = 0 :=
  ⟨Ideal.ofBits_zero_f32, Ideal.ofBits_zero_f32, Ideal.ofBits_zero_f32, Ideal.ofBits_zero_f32, Ideal.ofBits_zero_f32⟩

end Cert.KernelIdeal.Val

end
-- ==== Proof.R0Sum.lean ====
/-
  Region 0 over its whole grid.  The grid has 2 x 123 points; point t works on the row block t / 123 and the column
  tile t % 123.  On tile 0 the five outputs restart from zero, on the others they add the tile's sums to what they
  hold, so after the last tile of a row block each output row holds the sum over all 123 * 4096 = 503808 padded
  columns; the block is written back then, the two row blocks cover the 128 rows.

  The steps.  Row p of a block at point t is row 64 (t / 123) + p of u, of the labels and of the own columns; lane l
  of the tile is the padded column 4096 (t % 123) + l of the database and of the labels, and the column word the
  body computes for the lane is that number.  So each term of a tile's sum is the row's term at that column.  A
  row's sum over the first 4096 (s + 1) columns is its sum over the first 4096 s plus the tile's 4096 terms, which
  gives, by induction on the point, what each output holds after every point; at the last tile of a row block that is
  the row's sum over all padded columns.
-/
import proofs.«404421_j35442070126796_1_alg».proof.Proof.KArr
import proofs.«404421_j35442070126796_1_alg».proof.Proof.R0Pieces
import proofs.«404421_j35442070126796_1_alg».proof.Proof.R0Pay
import Idealize.ShloMosaic.Lib.Pipeline.Value

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.GenP Cert.Spec

variable (V : (c : Dev nD) → (b : Ref sig .tc) → Buf (Elt Ideal) ((c : Thread nD τ).loc b))

/-! ## The grid and the windows' index maps -/

/-- Point t of the 2 x 123 grid has row block t / 123 and column tile t % 123. -/
theorem coords0 : ∀ t : Fin cfg0.N, ((grid0.coords t) 0).val = t.val / 123 ∧ ((grid0.coords t) 1).val = t.val % 123 :=
  (by decide +kernel : ∀ t : Fin grid0.N, ((grid0.coords t) 0).val = t.val / 123 ∧ ((grid0.coords t) 1).val = t.val % 123)

/-- The block indices at point t: the rows' windows (own columns, u, and the five outputs) follow the row block,
    the database's window the column tile, the labels' window both. -/
theorem idx0_0 : ∀ t : Fin cfg0.N, win0_0.index t 0 = t.val / 123 ∧ win0_0.index t 1 = 0 :=
  (by decide +kernel : ∀ t : Fin grid0.N, win0_0.index t 0 = t.val / 123 ∧ win0_0.index t 1 = 0)
theorem idx0_1 : ∀ t : Fin cfg0.N, win0_1.index t 0 = t.val / 123 ∧ win0_1.index t 1 = 0 :=
  (by decide +kernel : ∀ t : Fin grid0.N, win0_1.index t 0 = t.val / 123 ∧ win0_1.index t 1 = 0)
theorem idx0_2 : ∀ t : Fin cfg0.N, win0_2.index t 0 = t.val % 123 ∧ win0_2.index t 1 = 0 :=
  (by decide +kernel : ∀ t : Fin grid0.N, win0_2.index t 0 = t.val % 123 ∧ win0_2.index t 1 = 0)
theorem idx0_3 : ∀ t : Fin cfg0.N, win0_3.index t 0 = t.val / 123 ∧ win0_3.index t 1 = t.val % 123 :=
  (by decide +kernel : ∀ t : Fin grid0.N, win0_3.index t 0 = t.val / 123 ∧ win0_3.index t 1 = t.val % 123)
theorem idx0_4 : ∀ t : Fin cfg0.N, win0_4.index t 0 = t.val / 123 ∧ win0_4.index t 1 = 0 :=
  (by decide +kernel : ∀ t : Fin grid0.N, win0_4.index t 0 = t.val / 123 ∧ win0_4.index t 1 = 0)
theorem idx0_5 : ∀ t : Fin cfg0.N, win0_5.index t 0 = t.val / 123 ∧ win0_5.index t 1 = 0 :=
  (by decide +kernel : ∀ t : Fin grid0.N, win0_5.index t 0 = t.val / 123 ∧ win0_5.index t 1 = 0)
theorem idx0_6 : ∀ t : Fin cfg0.N, win0_6.index t 0 = t.val / 123 ∧ win0_6.index t 1 = 0 :=
  (by decide +kernel : ∀ t : Fin grid0.N, win0_6.index t 0 = t.val / 123 ∧ win0_6.index t 1 = 0)
theorem idx0_7 : ∀ t : Fin cfg0.N, win0_7.index t 0 = t.val / 123 ∧ win0_7.index t 1 = 0 :=
  (by decide +kernel : ∀ t : Fin grid0.N, win0_7.index t 0 = t.val / 123 ∧ win0_7.index t 1 = 0)
theorem idx0_8 : ∀ t : Fin cfg0.N, win0_8.index t 0 = t.val / 123 ∧ win0_8.index t 1 = 0 :=
  (by decide +kernel : ∀ t : Fin grid0.N, win0_8.index t 0 = t.val / 123 ∧ win0_8.index t 1 = 0)

/-! ## The input blocks at a point, as entries of the arrays -/

/-- The four input blocks at point t, named at their literal types. -/
abbrev xb0 (c : Dev nD) (t : Fin cfg0.N) : Vec Ideal S64x1 .i32 := iblk0 V c 0 t
abbrev xb1 (c : Dev nD) (t : Fin cfg0.N) : Vec Ideal S64x64 .f32 := iblk0 V c 1 t
abbrev xb2 (c : Dev nD) (t : Fin cfg0.N) : Vec Ideal S4096x64 .f32 := iblk0 V c 2 t
abbrev xb3 (c : Dev nD) (t : Fin cfg0.N) : Vec Ideal S64x4096 .f32 := iblk0 V c 3 t

/-- Entry (p, k) of the u block is entry (64 (t / 123) + p, k) of u. -/
theorem xb1_apply (c : Dev nD) (t : Fin cfg0.N) (y : S64x64.Idx) (k : S128x64.Idx)
    (hk0 : (k 0).val = 64 * (t.val / 123) + (y 0).val) (hk1 : (k 1).val = (y 1).val) :
    xb1 V c t y = uK V c k := by
  unfold xb1 iblk0
  rw [View.read_apply]
  show V c main_arg0 _ = V c main_arg0 _
  congr 1
  funext a
  apply Fin.ext
  match a with
  | ⟨0, _⟩ => show win0_1.index t 0 * 64 + 1 * (y 0).val = (k 0).val; rw [(idx0_1 t).1, hk0]; omega
  | ⟨1, _⟩ => show win0_1.index t 1 * 64 + 1 * (y 1).val = (k 1).val; rw [(idx0_1 t).2, hk1]; omega

/-- Entry (l, k) of the database block is entry (4096 (t % 123) + l, k) of the padded database. -/
theorem xb2_apply (c : Dev nD) (t : Fin cfg0.N) (y : S4096x64.Idx) (k : S503808x64.Idx)
    (hk0 : (k 0).val = 4096 * (t.val % 123) + (y 0).val) (hk1 : (k 1).val = (y 1).val) :
    xb2 V c t y = vK V c k := by
  unfold xb2 iblk0
  rw [View.read_apply]
  show V c main_v0 _ = V c main_v0 _
  congr 1
  funext a
  apply Fin.ext
  match a with
  | ⟨0, _⟩ => show win0_2.index t 0 * 4096 + 1 * (y 0).val = (k 0).val; rw [(idx0_2 t).1, hk0]; omega
  | ⟨1, _⟩ => show win0_2.index t 1 * 64 + 1 * (y 1).val = (k 1).val; rw [(idx0_2 t).2, hk1]; omega

/-- Entry (p, l) of the label block is entry (64 (t / 123) + p, 4096 (t % 123) + l) of the padded labels. -/
theorem xb3_apply (c : Dev nD) (t : Fin cfg0.N) (y : S64x4096.Idx) (k : S128x503808.Idx)
    (hk0 : (k 0).val = 64 * (t.val / 123) + (y 0).val) (hk1 : (k 1).val = 4096 * (t.val % 123) + (y 1).val) :
    xb3 V c t y = sK V c k := by
  unfold xb3 iblk0
  rw [View.read_apply]
  show V c main_v1 _ = V c main_v1 _
  congr 1
  funext a
  apply Fin.ext
  match a with
  | ⟨0, _⟩ => show win0_3.index t 0 * 64 + 1 * (y 0).val = (k 0).val; rw [(idx0_3 t).1, hk0]; omega
  | ⟨1, _⟩ => show win0_3.index t 1 * 4096 + 1 * (y 1).val = (k 1).val; rw [(idx0_3 t).2, hk1]; omega

/-- Entry (p, 0) of the own-column block is the own column of row 64 (t / 123) + p. -/
theorem xb0_apply (c : Dev nD) (t : Fin cfg0.N) (y : S64x1.Idx) (k : S128x1.Idx)
    (hk0 : (k 0).val = 64 * (t.val / 123) + (y 0).val) (hk1 : (k 1).val = (y 1).val) :
    xb0 V c t y = bK V c k := by
  unfold xb0 iblk0
  rw [View.read_apply]
  show V c main_v2 _ = V c main_v2 _
  congr 1
  funext a
  apply Fin.ext
  match a with
  | ⟨0, _⟩ => show win0_0.index t 0 * 64 + 1 * (y 0).val = (k 0).val; rw [(idx0_0 t).1, hk0]; omega
  | ⟨1, _⟩ => show win0_0.index t 1 * 1 + 1 * (y 1).val = (k 1).val; rw [(idx0_0 t).2, hk1]; omega

/-! ## Sums over the padded columns, tile by tile -/

/-- A function of the 503808 padded columns, continued by zero to all naturals. -/
def extN (g : Fin 503808 → EReal) (j : ℕ) : EReal := if h : j < 503808 then g ⟨j, h⟩ else 0

theorem extN_of_lt (g : Fin 503808 → EReal) (j : ℕ) (h : j < 503808) : extN g j = g ⟨j, h⟩ := dif_pos h

/-- The sum of its first 503808 values is the sum over the columns. -/
theorem sum_extN (g : Fin 503808 → EReal) : ∑ j ∈ Finset.range 503808, extN g j = ∑ j : Fin 503808, g j := by
  rw [Finset.sum_range]
  exact Finset.sum_congr rfl fun j _ => extN_of_lt g j.val j.isLt

/-- One more tile: the first 4096 (s + 1) values are the first 4096 s and the tile's 4096. -/
theorem sum_tile (g : ℕ → EReal) (s : ℕ) :
    ∑ j ∈ Finset.range (4096 * (s + 1)), g j
      = ∑ j ∈ Finset.range (4096 * s), g j + ∑ l : Fin 4096, g (4096 * s + l.val) := by
  rw [show 4096 * (s + 1) = 4096 * s + 4096 by omega, Finset.sum_range_add]
  exact congrArg _ (Finset.sum_range fun x => g (4096 * s + x))

/-- An output that restarts from zero on tile 0 of a row block and on every other tile adds the tile's 4096 terms to
    what it held holds, after tile n % 123 of row block n / 123, the first 4096 (n % 123 + 1) terms of its row's sum. -/
theorem acc_rows {N : ℕ} (G : Fin 128 → Fin 503808 → EReal) (o : (n : ℕ) → n < N → Fin 64 → EReal)
    (hA : ∀ (n : ℕ) (h : n < N) (p : Fin 64) (r : Fin 128), r.val = 64 * (n / 123) + p.val → n % 123 = 0 →
      o n h p = 0 + ∑ l : Fin 4096, extN (G r) (4096 * (n % 123) + l.val))
    (hB : ∀ (n : ℕ) (h : n + 1 < N) (p : Fin 64) (r : Fin 128), r.val = 64 * ((n + 1) / 123) + p.val → ¬(n + 1) % 123 = 0 →
      o (n + 1) h p = o n (Nat.lt_of_succ_lt h) p + ∑ l : Fin 4096, extN (G r) (4096 * ((n + 1) % 123) + l.val)) :
    ∀ (n : ℕ) (h : n < N) (p : Fin 64) (r : Fin 128), r.val = 64 * (n / 123) + p.val →
      o n h p = ∑ j ∈ Finset.range (4096 * (n % 123 + 1)), extN (G r) j := by
  have hzero : ∀ (n : ℕ) (h : n < N) (p : Fin 64) (r : Fin 128), r.val = 64 * (n / 123) + p.val → n % 123 = 0 →
      o n h p = ∑ j ∈ Finset.range (4096 * (n % 123 + 1)), extN (G r) j := fun n h p r hr h0 => by
    rw [hA n h p r hr h0, sum_tile, h0, Nat.mul_zero, Finset.range_zero, Finset.sum_empty]
  intro n
  induction n with
  | zero => exact fun h p r hr => hzero 0 h p r hr rfl
  | succ m ih =>
    intro h p r hr
    by_cases h0 : (m + 1) % 123 = 0
    · exact hzero (m + 1) h p r hr h0
    · have e : (m + 1) % 123 = m % 123 + 1 := by omega
      rw [hB m h p r hr h0, ih (Nat.lt_of_succ_lt h) p r (by omega), e, sum_tile _ (m % 123 + 1)]

/-- The column word of lane l of tile s is the column's number (as a 32-bit word). -/
theorem colWord_eq (s : ℕ) (l : Fin 4096) : colWord s l = BitVec.ofNat 32 (4096 * s + l.val) := by
  unfold colWord
  rw [BitVec.ofNat_add, BitVec.ofNat_mul, BitVec.mul_comm]

/-! ## A tile's terms are the arrays' terms

  At point t, row p of the blocks is row r = 64 (t / 123) + p of the arrays and lane l of the tile is the
  padded column j = 4096 (t % 123) + l. -/

section Tile
variable (c : Dev nD) (t : Fin cfg0.N) (p : Fin 64) (l : Fin 4096) (r : Fin 128) (j : Fin 503808)
  (hr : r.val = 64 * (t.val / 123) + p.val) (hj : j.val = 4096 * (t.val % 123) + l.val)

include hr in
/-- The squared norm of row p of the u block is that of row r of u. -/
theorem sqn_u : sqn (xb1 V c t) p = sqn (uK V c) r := by
  unfold sqn
  exact Finset.sum_congr rfl fun k _ =>
    congrArg₂ (· * ·) (xb1_apply V c t (ix2 p k) (ix2 r k) hr rfl) (xb1_apply V c t (ix2 p k) (ix2 r k) hr rfl)

include hj in
/-- The squared norm of row l of the database block is that of the padded column j. -/
theorem sqn_v : sqn (xb2 V c t) l = sqn (vK V c) j := by
  unfold sqn
  exact Finset.sum_congr rfl fun k _ =>
    congrArg₂ (· * ·) (xb2_apply V c t (ix2 l k) (ix2 j k) hj rfl) (xb2_apply V c t (ix2 l k) (ix2 j k) hj rfl)

include hr hj in
/-- The inner product of the blocks' rows is that of row r of u and the padded column j. -/
theorem inner_uv : Cert.Spec.inner (xb1 V c t) (xb2 V c t) p l = Cert.Spec.inner (uK V c) (vK V c) r j := by
  unfold Cert.Spec.inner
  exact Finset.sum_congr rfl fun k _ =>
    congrArg₂ (· * ·) (xb1_apply V c t (ix2 p k) (ix2 r k) hr rfl) (xb2_apply V c t (ix2 l k) (ix2 j k) hj rfl)

include hr hj in
/-- So the blocks' distance is the arrays' distance, -/
theorem dBlk_eq : dBlk (xb1 V c t) (xb2 V c t) p l = dAt (uK V c) (vK V c) r j := by
  unfold dBlk dAt
  rw [sqn_u V c t p r hr, sqn_v V c t l j hj, inner_uv V c t p l r j hr hj]

include hr hj in
/-- the blocks' positive test the arrays' (the lane's column word is the column's number), -/
theorem mposBlk_eq :
    mposBlk ((grid0.coords t) 1).val (xb0 V c t) (xb3 V c t) p l = mposAt (sK V c) (bRow V c) r j := by
  unfold mposBlk mposAt selfB
  show mpos (xb3 V c t (ix2 p l)) (IntOp.cmpi .eq (colWord ((grid0.coords t) 1).val l) (xb0 V c t (ix2 p 0)))
    = mpos (sK V c (ix2 r j)) (IntOp.cmpi .eq (BitVec.ofNat 32 j.val) (bK V c (ix2 r 0)))
  rw [(coords0 t).2, colWord_eq, xb3_apply V c t (ix2 p l) (ix2 r j) hr hj, xb0_apply V c t (ix2 p 0) (ix2 r 0) hr rfl, hj]

include hr hj in
/-- and the blocks' active-negative test the arrays'. -/
theorem nactBlk_eq :
    nactBlk ((grid0.coords t) 1).val (xb1 V c t) (xb2 V c t) (xb3 V c t) p l = nactAt (uK V c) (vK V c) (sK V c) r j := by
  unfold nactBlk nactAt validB
  rw [(coords0 t).2, colWord_eq, xb3_apply V c t (ix2 p l) (ix2 r j) hr hj, dBlk_eq V c t p l r j hr hj, hj]

end Tile

/-- Lane l of tile s < 123 is a padded column. -/
theorem lane_lt (s : ℕ) (hs : s < 123) (l : Fin 4096) : 4096 * s + l.val < 503808 := by
  have := l.isLt; omega

section TileSums
variable (c : Dev nD) (t : Fin cfg0.N) (p : Fin 64) (r : Fin 128) (hr : r.val = 64 * (t.val / 123) + p.val)
include hr

/-- The tile's margin terms are the row's margin terms at the tile's columns; likewise the other four. -/
theorem tile_lp :
    ∑ l : Fin 4096, lpT (mposBlk ((grid0.coords t) 1).val (xb0 V c t) (xb3 V c t) p l) (dBlk (xb1 V c t) (xb2 V c t) p l)
      = ∑ l : Fin 4096, extN (lpE (uK V c) (vK V c) (sK V c) (bRow V c) r) (4096 * (t.val % 123) + l.val) :=
  Finset.sum_congr rfl fun l _ => by
    have hj : 4096 * (t.val % 123) + l.val < 503808 := lane_lt _ (Nat.mod_lt _ (by decide)) l
    rw [extN_of_lt _ _ hj, mposBlk_eq V c t p l r ⟨_, hj⟩ hr rfl, dBlk_eq V c t p l r ⟨_, hj⟩ hr rfl]
    rfl
theorem tile_cnt :
    ∑ l : Fin 4096, cntT (mposBlk ((grid0.coords t) 1).val (xb0 V c t) (xb3 V c t) p l)
      = ∑ l : Fin 4096, extN (cntE (sK V c) (bRow V c) r) (4096 * (t.val % 123) + l.val) :=
  Finset.sum_congr rfl fun l _ => by
    have hj : 4096 * (t.val % 123) + l.val < 503808 := lane_lt _ (Nat.mod_lt _ (by decide)) l
    rw [extN_of_lt _ _ hj, mposBlk_eq V c t p l r ⟨_, hj⟩ hr rfl]
    rfl
theorem tile_w :
    ∑ l : Fin 4096, wT (nactBlk ((grid0.coords t) 1).val (xb1 V c t) (xb2 V c t) (xb3 V c t) p l) (dBlk (xb1 V c t) (xb2 V c t) p l)
      = ∑ l : Fin 4096, extN (wE (uK V c) (vK V c) (sK V c) r) (4096 * (t.val % 123) + l.val) :=
  Finset.sum_congr rfl fun l _ => by
    have hj : 4096 * (t.val % 123) + l.val < 503808 := lane_lt _ (Nat.mod_lt _ (by decide)) l
    rw [extN_of_lt _ _ hj, nactBlk_eq V c t p l r ⟨_, hj⟩ hr rfl, dBlk_eq V c t p l r ⟨_, hj⟩ hr rfl]
    rfl
theorem tile_wa :
    ∑ l : Fin 4096, waT (nactBlk ((grid0.coords t) 1).val (xb1 V c t) (xb2 V c t) (xb3 V c t) p l) (dBlk (xb1 V c t) (xb2 V c t) p l)
      = ∑ l : Fin 4096, extN (waE (uK V c) (vK V c) (sK V c) r) (4096 * (t.val % 123) + l.val) :=
  Finset.sum_congr rfl fun l _ => by
    have hj : 4096 * (t.val % 123) + l.val < 503808 := lane_lt _ (Nat.mod_lt _ (by decide)) l
    rw [extN_of_lt _ _ hj, nactBlk_eq V c t p l r ⟨_, hj⟩ hr rfl, dBlk_eq V c t p l r ⟨_, hj⟩ hr rfl]
    rfl
theorem tile_sq :
    ∑ l : Fin 4096, sqT (Cert.Spec.inner (xb1 V c t) (xb2 V c t) p l) (xb3 V c t (ix2 p l))
      = ∑ l : Fin 4096, extN (sqE (uK V c) (vK V c) (sK V c) r) (4096 * (t.val % 123) + l.val) :=
  Finset.sum_congr rfl fun l _ => by
    have hj : 4096 * (t.val % 123) + l.val < 503808 := lane_lt _ (Nat.mod_lt _ (by decide)) l
    rw [extN_of_lt _ _ hj, inner_uv V c t p l r ⟨_, hj⟩ hr rfl, xb3_apply V c t (ix2 p l) (ix2 r ⟨_, hj⟩) hr rfl]
    rfl

end TileSums

/-! ## The accumulation, output by output -/

/-- Output 4 on tile 0 of a row block: zero plus the tile's margin terms. -/
theorem stepA4 (c : Dev nD) (n : ℕ) (h : n < cfg0.N) (p : Fin 64) (r : Fin 128)
    (hr : r.val = 64 * (n / 123) + p.val) (h0 : n % 123 = 0) :
    (outsAt0 V c n h).1 (ix2 p 0)
      = 0 + ∑ l : Fin 4096, extN (lpE (uK V c) (vK V c) (sK V c) (bRow V c) r) (4096 * (n % 123) + l.val) := by
  rw [outsAt0_A V c ⟨n, h⟩ h0]
  dsimp only
  refine (congrFun (out0_A_4_eq (F := Ideal) (c := c) (i := grid0.coords (⟨n, h⟩ : Fin cfg0.N)) (arg2 := ms0_0 (⟨n, h⟩ : Fin cfg0.N)) (harg2 := hs0_0 (⟨n, h⟩ : Fin cfg0.N)) (arg3 := ms0_1 (⟨n, h⟩ : Fin cfg0.N)) (harg3 := hs0_1 (⟨n, h⟩ : Fin cfg0.N)) (arg4 := ms0_2 (⟨n, h⟩ : Fin cfg0.N)) (harg4 := hs0_2 (⟨n, h⟩ : Fin cfg0.N)) (arg5 := ms0_3 (⟨n, h⟩ : Fin cfg0.N)) (harg5 := hs0_3 (⟨n, h⟩ : Fin cfg0.N)) (arg6 := ms0_4 (⟨n, h⟩ : Fin cfg0.N)) (harg6 := hs0_4 (⟨n, h⟩ : Fin cfg0.N)) (arg7 := ms0_5 (⟨n, h⟩ : Fin cfg0.N)) (harg7 := hs0_5 (⟨n, h⟩ : Fin cfg0.N)) (arg8 := ms0_6 (⟨n, h⟩ : Fin cfg0.N)) (harg8 := hs0_6 (⟨n, h⟩ : Fin cfg0.N)) (arg9 := ms0_7 (⟨n, h⟩ : Fin cfg0.N)) (harg9 := hs0_7 (⟨n, h⟩ : Fin cfg0.N)) (arg10 := ms0_8 (⟨n, h⟩ : Fin cfg0.N)) (harg10 := hs0_8 (⟨n, h⟩ : Fin cfg0.N))
    (x0 := xb0 V c (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (hc0 := (hcond0_0 (⟨n, h⟩ : Fin cfg0.N)).mpr h0)) (ix2 p 0)).trans ?_
  refine (lp_pay (i := grid0.coords (⟨n, h⟩ : Fin cfg0.N)) (x0 := xb0 V c (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (q := k0_pay5 (F := Ideal)) (p := p)).trans ?_
  rw [(zero_pay p).1, tile_lp V c (⟨n, h⟩ : Fin cfg0.N) p r hr]

/-- Output 4 on any other tile: what it held plus the tile's margin terms. -/
theorem stepB4 (c : Dev nD) (n : ℕ) (h : n + 1 < cfg0.N) (p : Fin 64) (r : Fin 128)
    (hr : r.val = 64 * ((n + 1) / 123) + p.val) (h0 : ¬(n + 1) % 123 = 0) :
    (outsAt0 V c (n + 1) h).1 (ix2 p 0)
      = (outsAt0 V c n (Nat.lt_of_succ_lt h)).1 (ix2 p 0)
        + ∑ l : Fin 4096, extN (lpE (uK V c) (vK V c) (sK V c) (bRow V c) r) (4096 * ((n + 1) % 123) + l.val) := by
  rw [outsAt0_B V c ⟨n + 1, h⟩ h0]
  dsimp only
  refine (congrFun (out0_B_4_eq (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := ms0_5 (⟨n + 1, h⟩ : Fin cfg0.N)) (harg7 := hs0_5 (⟨n + 1, h⟩ : Fin cfg0.N)) (arg8 := ms0_6 (⟨n + 1, h⟩ : Fin cfg0.N)) (harg8 := hs0_6 (⟨n + 1, h⟩ : Fin cfg0.N)) (arg9 := ms0_7 (⟨n + 1, h⟩ : Fin cfg0.N)) (harg9 := hs0_7 (⟨n + 1, h⟩ : Fin cfg0.N)) (arg10 := ms0_8 (⟨n + 1, h⟩ : Fin cfg0.N)) (harg10 := hs0_8 (⟨n + 1, h⟩ : Fin cfg0.N))
    (x0 := xb0 V c (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (hc0 := fun hh => h0 ((hcond0_0 (⟨n + 1, h⟩ : Fin cfg0.N)).mp hh))
    (xo4 := (outsAt0 V c n (Nat.lt_of_succ_lt h)).1) (xo5 := (outsAt0 V c n (Nat.lt_of_succ_lt h)).2.1) (xo6 := (outsAt0 V c n (Nat.lt_of_succ_lt h)).2.2.1) (xo7 := (outsAt0 V c n (Nat.lt_of_succ_lt h)).2.2.2.1) (xo8 := (outsAt0 V c n (Nat.lt_of_succ_lt h)).2.2.2.2)) (ix2 p 0)).trans ?_
  refine (lp_pay (i := grid0.coords (⟨n + 1, h⟩ : Fin cfg0.N)) (x0 := xb0 V c (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (q := (outsAt0 V c n (Nat.lt_of_succ_lt h)).1) (p := p)).trans ?_
  rw [tile_lp V c (⟨n + 1, h⟩ : Fin cfg0.N) p r hr]

/-- After the last tile of a row block output 4 holds the row's sum over all 503808 padded columns. -/
theorem last4 (c : Dev nD) (t : Fin cfg0.N) (ht : t.val % 123 = 122) (p : Fin 64) (r : Fin 128)
    (hr : r.val = 64 * (t.val / 123) + p.val) :
    (outsAt0 V c t.val t.isLt).1 (ix2 p 0) = lpRow (uK V c) (vK V c) (sK V c) (bRow V c) r := by
  have e := acc_rows (lpE (uK V c) (vK V c) (sK V c) (bRow V c)) (fun n h p => (outsAt0 V c n h).1 (ix2 p 0))
    (stepA4 V c) (stepB4 V c) t.val t.isLt p r hr
  rw [show 4096 * (t.val % 123 + 1) = 503808 by omega] at e
  exact e.trans (sum_extN _)

/-- Output 5 on tile 0 of a row block: zero plus the tile's count terms. -/
theorem stepA5 (c : Dev nD) (n : ℕ) (h : n < cfg0.N) (p : Fin 64) (r : Fin 128)
    (hr : r.val = 64 * (n / 123) + p.val) (h0 : n % 123 = 0) :
    (outsAt0 V c n h).2.1 (ix2 p 0)
      = 0 + ∑ l : Fin 4096, extN (cntE (sK V c) (bRow V c) r) (4096 * (n % 123) + l.val) := by
  rw [outsAt0_A V c ⟨n, h⟩ h0]
  dsimp only
  refine (congrFun (out0_A_5_eq (F := Ideal) (c := c) (i := grid0.coords (⟨n, h⟩ : Fin cfg0.N)) (arg2 := ms0_0 (⟨n, h⟩ : Fin cfg0.N)) (harg2 := hs0_0 (⟨n, h⟩ : Fin cfg0.N)) (arg3 := ms0_1 (⟨n, h⟩ : Fin cfg0.N)) (harg3 := hs0_1 (⟨n, h⟩ : Fin cfg0.N)) (arg4 := ms0_2 (⟨n, h⟩ : Fin cfg0.N)) (harg4 := hs0_2 (⟨n, h⟩ : Fin cfg0.N)) (arg5 := ms0_3 (⟨n, h⟩ : Fin cfg0.N)) (harg5 := hs0_3 (⟨n, h⟩ : Fin cfg0.N)) (arg6 := ms0_4 (⟨n, h⟩ : Fin cfg0.N)) (harg6 := hs0_4 (⟨n, h⟩ : Fin cfg0.N)) (arg7 := ms0_5 (⟨n, h⟩ : Fin cfg0.N)) (harg7 := hs0_5 (⟨n, h⟩ : Fin cfg0.N)) (arg8 := ms0_6 (⟨n, h⟩ : Fin cfg0.N)) (harg8 := hs0_6 (⟨n, h⟩ : Fin cfg0.N)) (arg9 := ms0_7 (⟨n, h⟩ : Fin cfg0.N)) (harg9 := hs0_7 (⟨n, h⟩ : Fin cfg0.N)) (arg10 := ms0_8 (⟨n, h⟩ : Fin cfg0.N)) (harg10 := hs0_8 (⟨n, h⟩ : Fin cfg0.N))
    (x0 := xb0 V c (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (hc0 := (hcond0_0 (⟨n, h⟩ : Fin cfg0.N)).mpr h0)) (ix2 p 0)).trans ?_
  refine (cnt_pay (i := grid0.coords (⟨n, h⟩ : Fin cfg0.N)) (x0 := xb0 V c (⟨n, h⟩ : Fin cfg0.N)) (x3 := xb3 V c (⟨n, h⟩ : Fin cfg0.N)) (q := k0_pay6 (F := Ideal)) (p := p)).trans ?_
  rw [(zero_pay p).2.1, tile_cnt V c (⟨n, h⟩ : Fin cfg0.N) p r hr]

/-- Output 5 on any other tile: what it held plus the tile's count terms. -/
theorem stepB5 (c : Dev nD) (n : ℕ) (h : n + 1 < cfg0.N) (p : Fin 64) (r : Fin 128)
    (hr : r.val = 64 * ((n + 1) / 123) + p.val) (h0 : ¬(n + 1) % 123 = 0) :
    (outsAt0 V c (n + 1) h).2.1 (ix2 p 0)
      = (outsAt0 V c n (Nat.lt_of_succ_lt h)).2.1 (ix2 p 0)
        + ∑ l : Fin 4096, extN (cntE (sK V c) (bRow V c) r) (4096 * ((n + 1) % 123) + l.val) := by
  rw [outsAt0_B V c ⟨n + 1, h⟩ h0]
  dsimp only
  refine (congrFun (out0_B_5_eq (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := ms0_5 (⟨n + 1, h⟩ : Fin cfg0.N)) (harg7 := hs0_5 (⟨n + 1, h⟩ : Fin cfg0.N)) (arg8 := ms0_6 (⟨n + 1, h⟩ : Fin cfg0.N)) (harg8 := hs0_6 (⟨n + 1, h⟩ : Fin cfg0.N)) (arg9 := ms0_7 (⟨n + 1, h⟩ : Fin cfg0.N)) (harg9 := hs0_7 (⟨n + 1, h⟩ : Fin cfg0.N)) (arg10 := ms0_8 (⟨n + 1, h⟩ : Fin cfg0.N)) (harg10 := hs0_8 (⟨n + 1, h⟩ : Fin cfg0.N))
    (x0 := xb0 V c (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (hc0 := fun hh => h0 ((hcond0_0 (⟨n + 1, h⟩ : Fin cfg0.N)).mp hh))
    (xo4 := (outsAt0 V c n (Nat.lt_of_succ_lt h)).1) (xo5 := (outsAt0 V c n (Nat.lt_of_succ_lt h)).2.1) (xo6 := (outsAt0 V c n (Nat.lt_of_succ_lt h)).2.2.1) (xo7 := (outsAt0 V c n (Nat.lt_of_succ_lt h)).2.2.2.1) (xo8 := (outsAt0 V c n (Nat.lt_of_succ_lt h)).2.2.2.2)) (ix2 p 0)).trans ?_
  refine (cnt_pay (i := grid0.coords (⟨n + 1, h⟩ : Fin cfg0.N)) (x0 := xb0 V c (⟨n + 1, h⟩ : Fin cfg0.N)) (x3 := xb3 V c (⟨n + 1, h⟩ : Fin cfg0.N)) (q := (outsAt0 V c n (Nat.lt_of_succ_lt h)).2.1) (p := p)).trans ?_
  rw [tile_cnt V c (⟨n + 1, h⟩ : Fin cfg0.N) p r hr]

/-- After the last tile of a row block output 5 holds the row's sum over all 503808 padded columns. -/
theorem last5 (c : Dev nD) (t : Fin cfg0.N) (ht : t.val % 123 = 122) (p : Fin 64) (r : Fin 128)
    (hr : r.val = 64 * (t.val / 123) + p.val) :
    (outsAt0 V c t.val t.isLt).2.1 (ix2 p 0) = cntRow (sK V c) (bRow V c) r := by
  have e := acc_rows (cntE (sK V c) (bRow V c)) (fun n h p => (outsAt0 V c n h).2.1 (ix2 p 0))
    (stepA5 V c) (stepB5 V c) t.val t.isLt p r hr
  rw [show 4096 * (t.val % 123 + 1) = 503808 by omega] at e
  exact e.trans (sum_extN _)

/-- Output 6 on tile 0 of a row block: zero plus the tile's weight terms. -/
theorem stepA6 (c : Dev nD) (n : ℕ) (h : n < cfg0.N) (p : Fin 64) (r : Fin 128)
    (hr : r.val = 64 * (n / 123) + p.val) (h0 : n % 123 = 0) :
    (outsAt0 V c n h).2.2.1 (ix2 p 0)
      = 0 + ∑ l : Fin 4096, extN (wE (uK V c) (vK V c) (sK V c) r) (4096 * (n % 123) + l.val) := by
  rw [outsAt0_A V c ⟨n, h⟩ h0]
  dsimp only
  refine (congrFun (out0_A_6_eq (F := Ideal) (c := c) (i := grid0.coords (⟨n, h⟩ : Fin cfg0.N)) (arg2 := ms0_0 (⟨n, h⟩ : Fin cfg0.N)) (harg2 := hs0_0 (⟨n, h⟩ : Fin cfg0.N)) (arg3 := ms0_1 (⟨n, h⟩ : Fin cfg0.N)) (harg3 := hs0_1 (⟨n, h⟩ : Fin cfg0.N)) (arg4 := ms0_2 (⟨n, h⟩ : Fin cfg0.N)) (harg4 := hs0_2 (⟨n, h⟩ : Fin cfg0.N)) (arg5 := ms0_3 (⟨n, h⟩ : Fin cfg0.N)) (harg5 := hs0_3 (⟨n, h⟩ : Fin cfg0.N)) (arg6 := ms0_4 (⟨n, h⟩ : Fin cfg0.N)) (harg6 := hs0_4 (⟨n, h⟩ : Fin cfg0.N)) (arg7 := ms0_5 (⟨n, h⟩ : Fin cfg0.N)) (harg7 := hs0_5 (⟨n, h⟩ : Fin cfg0.N)) (arg8 := ms0_6 (⟨n, h⟩ : Fin cfg0.N)) (harg8 := hs0_6 (⟨n, h⟩ : Fin cfg0.N)) (arg9 := ms0_7 (⟨n, h⟩ : Fin cfg0.N)) (harg9 := hs0_7 (⟨n, h⟩ : Fin cfg0.N)) (arg10 := ms0_8 (⟨n, h⟩ : Fin cfg0.N)) (harg10 := hs0_8 (⟨n, h⟩ : Fin cfg0.N))
    (x0 := xb0 V c (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (hc0 := (hcond0_0 (⟨n, h⟩ : Fin cfg0.N)).mpr h0)) (ix2 p 0)).trans ?_
  refine (w_pay (i := grid0.coords (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (q := k0_pay7 (F := Ideal)) (p := p)).trans ?_
  rw [(zero_pay p).2.2.1, tile_w V c (⟨n, h⟩ : Fin cfg0.N) p r hr]

/-- Output 6 on any other tile: what it held plus the tile's weight terms. -/
theorem stepB6 (c : Dev nD) (n : ℕ) (h : n + 1 < cfg0.N) (p : Fin 64) (r : Fin 128)
    (hr : r.val = 64 * ((n + 1) / 123) + p.val) (h0 : ¬(n + 1) % 123 = 0) :
    (outsAt0 V c (n + 1) h).2.2.1 (ix2 p 0)
      = (outsAt0 V c n (Nat.lt_of_succ_lt h)).2.2.1 (ix2 p 0)
        + ∑ l : Fin 4096, extN (wE (uK V c) (vK V c) (sK V c) r) (4096 * ((n + 1) % 123) + l.val) := by
  rw [outsAt0_B V c ⟨n + 1, h⟩ h0]
  dsimp only
  refine (congrFun (out0_B_6_eq (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := ms0_5 (⟨n + 1, h⟩ : Fin cfg0.N)) (harg7 := hs0_5 (⟨n + 1, h⟩ : Fin cfg0.N)) (arg8 := ms0_6 (⟨n + 1, h⟩ : Fin cfg0.N)) (harg8 := hs0_6 (⟨n + 1, h⟩ : Fin cfg0.N)) (arg9 := ms0_7 (⟨n + 1, h⟩ : Fin cfg0.N)) (harg9 := hs0_7 (⟨n + 1, h⟩ : Fin cfg0.N)) (arg10 := ms0_8 (⟨n + 1, h⟩ : Fin cfg0.N)) (harg10 := hs0_8 (⟨n + 1, h⟩ : Fin cfg0.N))
    (x0 := xb0 V c (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (hc0 := fun hh => h0 ((hcond0_0 (⟨n + 1, h⟩ : Fin cfg0.N)).mp hh))
    (xo4 := (outsAt0 V c n (Nat.lt_of_succ_lt h)).1) (xo5 := (outsAt0 V c n (Nat.lt_of_succ_lt h)).2.1) (xo6 := (outsAt0 V c n (Nat.lt_of_succ_lt h)).2.2.1) (xo7 := (outsAt0 V c n (Nat.lt_of_succ_lt h)).2.2.2.1) (xo8 := (outsAt0 V c n (Nat.lt_of_succ_lt h)).2.2.2.2)) (ix2 p 0)).trans ?_
  refine (w_pay (i := grid0.coords (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (q := (outsAt0 V c n (Nat.lt_of_succ_lt h)).2.2.1) (p := p)).trans ?_
  rw [tile_w V c (⟨n + 1, h⟩ : Fin cfg0.N) p r hr]

/-- After the last tile of a row block output 6 holds the row's sum over all 503808 padded columns. -/
theorem last6 (c : Dev nD) (t : Fin cfg0.N) (ht : t.val % 123 = 122) (p : Fin 64) (r : Fin 128)
    (hr : r.val = 64 * (t.val / 123) + p.val) :
    (outsAt0 V c t.val t.isLt).2.2.1 (ix2 p 0) = wRow (uK V c) (vK V c) (sK V c) r := by
  have e := acc_rows (wE (uK V c) (vK V c) (sK V c)) (fun n h p => (outsAt0 V c n h).2.2.1 (ix2 p 0))
    (stepA6 V c) (stepB6 V c) t.val t.isLt p r hr
  rw [show 4096 * (t.val % 123 + 1) = 503808 by omega] at e
  exact e.trans (sum_extN _)

/-- Output 7 on tile 0 of a row block: zero plus the tile's weighted distance terms. -/
theorem stepA7 (c : Dev nD) (n : ℕ) (h : n < cfg0.N) (p : Fin 64) (r : Fin 128)
    (hr : r.val = 64 * (n / 123) + p.val) (h0 : n % 123 = 0) :
    (outsAt0 V c n h).2.2.2.1 (ix2 p 0)
      = 0 + ∑ l : Fin 4096, extN (waE (uK V c) (vK V c) (sK V c) r) (4096 * (n % 123) + l.val) := by
  rw [outsAt0_A V c ⟨n, h⟩ h0]
  dsimp only
  refine (congrFun (out0_A_7_eq (F := Ideal) (c := c) (i := grid0.coords (⟨n, h⟩ : Fin cfg0.N)) (arg2 := ms0_0 (⟨n, h⟩ : Fin cfg0.N)) (harg2 := hs0_0 (⟨n, h⟩ : Fin cfg0.N)) (arg3 := ms0_1 (⟨n, h⟩ : Fin cfg0.N)) (harg3 := hs0_1 (⟨n, h⟩ : Fin cfg0.N)) (arg4 := ms0_2 (⟨n, h⟩ : Fin cfg0.N)) (harg4 := hs0_2 (⟨n, h⟩ : Fin cfg0.N)) (arg5 := ms0_3 (⟨n, h⟩ : Fin cfg0.N)) (harg5 := hs0_3 (⟨n, h⟩ : Fin cfg0.N)) (arg6 := ms0_4 (⟨n, h⟩ : Fin cfg0.N)) (harg6 := hs0_4 (⟨n, h⟩ : Fin cfg0.N)) (arg7 := ms0_5 (⟨n, h⟩ : Fin cfg0.N)) (harg7 := hs0_5 (⟨n, h⟩ : Fin cfg0.N)) (arg8 := ms0_6 (⟨n, h⟩ : Fin cfg0.N)) (harg8 := hs0_6 (⟨n, h⟩ : Fin cfg0.N)) (arg9 := ms0_7 (⟨n, h⟩ : Fin cfg0.N)) (harg9 := hs0_7 (⟨n, h⟩ : Fin cfg0.N)) (arg10 := ms0_8 (⟨n, h⟩ : Fin cfg0.N)) (harg10 := hs0_8 (⟨n, h⟩ : Fin cfg0.N))
    (x0 := xb0 V c (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (hc0 := (hcond0_0 (⟨n, h⟩ : Fin cfg0.N)).mpr h0)) (ix2 p 0)).trans ?_
  refine (wa_pay (i := grid0.coords (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (q := k0_pay8 (F := Ideal)) (p := p)).trans ?_
  rw [(zero_pay p).2.2.2.1, tile_wa V c (⟨n, h⟩ : Fin cfg0.N) p r hr]

/-- Output 7 on any other tile: what it held plus the tile's weighted distance terms. -/
theorem stepB7 (c : Dev nD) (n : ℕ) (h : n + 1 < cfg0.N) (p : Fin 64) (r : Fin 128)
    (hr : r.val = 64 * ((n + 1) / 123) + p.val) (h0 : ¬(n + 1) % 123 = 0) :
    (outsAt0 V c (n + 1) h).2.2.2.1 (ix2 p 0)
      = (outsAt0 V c n (Nat.lt_of_succ_lt h)).2.2.2.1 (ix2 p 0)
        + ∑ l : Fin 4096, extN (waE (uK V c) (vK V c) (sK V c) r) (4096 * ((n + 1) % 123) + l.val) := by
  rw [outsAt0_B V c ⟨n + 1, h⟩ h0]
  dsimp only
  refine (congrFun (out0_B_7_eq (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := ms0_5 (⟨n + 1, h⟩ : Fin cfg0.N)) (harg7 := hs0_5 (⟨n + 1, h⟩ : Fin cfg0.N)) (arg8 := ms0_6 (⟨n + 1, h⟩ : Fin cfg0.N)) (harg8 := hs0_6 (⟨n + 1, h⟩ : Fin cfg0.N)) (arg9 := ms0_7 (⟨n + 1, h⟩ : Fin cfg0.N)) (harg9 := hs0_7 (⟨n + 1, h⟩ : Fin cfg0.N)) (arg10 := ms0_8 (⟨n + 1, h⟩ : Fin cfg0.N)) (harg10 := hs0_8 (⟨n + 1, h⟩ : Fin cfg0.N))
    (x0 := xb0 V c (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (hc0 := fun hh => h0 ((hcond0_0 (⟨n + 1, h⟩ : Fin cfg0.N)).mp hh))
    (xo4 := (outsAt0 V c n (Nat.lt_of_succ_lt h)).1) (xo5 := (outsAt0 V c n (Nat.lt_of_succ_lt h)).2.1) (xo6 := (outsAt0 V c n (Nat.lt_of_succ_lt h)).2.2.1) (xo7 := (outsAt0 V c n (Nat.lt_of_succ_lt h)).2.2.2.1) (xo8 := (outsAt0 V c n (Nat.lt_of_succ_lt h)).2.2.2.2)) (ix2 p 0)).trans ?_
  refine (wa_pay (i := grid0.coords (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (q := (outsAt0 V c n (Nat.lt_of_succ_lt h)).2.2.2.1) (p := p)).trans ?_
  rw [tile_wa V c (⟨n + 1, h⟩ : Fin cfg0.N) p r hr]

/-- After the last tile of a row block output 7 holds the row's sum over all 503808 padded columns. -/
theorem last7 (c : Dev nD) (t : Fin cfg0.N) (ht : t.val % 123 = 122) (p : Fin 64) (r : Fin 128)
    (hr : r.val = 64 * (t.val / 123) + p.val) :
    (outsAt0 V c t.val t.isLt).2.2.2.1 (ix2 p 0) = waRow (uK V c) (vK V c) (sK V c) r := by
  have e := acc_rows (waE (uK V c) (vK V c) (sK V c)) (fun n h p => (outsAt0 V c n h).2.2.2.1 (ix2 p 0))
    (stepA7 V c) (stepB7 V c) t.val t.isLt p r hr
  rw [show 4096 * (t.val % 123 + 1) = 503808 by omega] at e
  exact e.trans (sum_extN _)

/-- Output 8 on tile 0 of a row block: zero plus the tile's square terms. -/
theorem stepA8 (c : Dev nD) (n : ℕ) (h : n < cfg0.N) (p : Fin 64) (r : Fin 128)
    (hr : r.val = 64 * (n / 123) + p.val) (h0 : n % 123 = 0) :
    (outsAt0 V c n h).2.2.2.2 (ix2 p 0)
      = 0 + ∑ l : Fin 4096, extN (sqE (uK V c) (vK V c) (sK V c) r) (4096 * (n % 123) + l.val) := by
  rw [outsAt0_A V c ⟨n, h⟩ h0]
  dsimp only
  refine (congrFun (out0_A_8_eq (F := Ideal) (c := c) (i := grid0.coords (⟨n, h⟩ : Fin cfg0.N)) (arg2 := ms0_0 (⟨n, h⟩ : Fin cfg0.N)) (harg2 := hs0_0 (⟨n, h⟩ : Fin cfg0.N)) (arg3 := ms0_1 (⟨n, h⟩ : Fin cfg0.N)) (harg3 := hs0_1 (⟨n, h⟩ : Fin cfg0.N)) (arg4 := ms0_2 (⟨n, h⟩ : Fin cfg0.N)) (harg4 := hs0_2 (⟨n, h⟩ : Fin cfg0.N)) (arg5 := ms0_3 (⟨n, h⟩ : Fin cfg0.N)) (harg5 := hs0_3 (⟨n, h⟩ : Fin cfg0.N)) (arg6 := ms0_4 (⟨n, h⟩ : Fin cfg0.N)) (harg6 := hs0_4 (⟨n, h⟩ : Fin cfg0.N)) (arg7 := ms0_5 (⟨n, h⟩ : Fin cfg0.N)) (harg7 := hs0_5 (⟨n, h⟩ : Fin cfg0.N)) (arg8 := ms0_6 (⟨n, h⟩ : Fin cfg0.N)) (harg8 := hs0_6 (⟨n, h⟩ : Fin cfg0.N)) (arg9 := ms0_7 (⟨n, h⟩ : Fin cfg0.N)) (harg9 := hs0_7 (⟨n, h⟩ : Fin cfg0.N)) (arg10 := ms0_8 (⟨n, h⟩ : Fin cfg0.N)) (harg10 := hs0_8 (⟨n, h⟩ : Fin cfg0.N))
    (x0 := xb0 V c (⟨n, h⟩ : Fin cfg0.N)) (x1 := xb1 V c (⟨n, h⟩ : Fin cfg0.N)) (x2 := xb2 V c (⟨n, h⟩ : Fin cfg0.N)) (x3 := xb3 V c (⟨n, h⟩ : Fin cfg0.N)) (hc0 := (hcond0_0 (⟨n, h⟩ : Fin cfg0.N)).mpr h0)) (ix2 p 0)).trans ?_
  refine (sq_pay (x1 := xb1 V c (⟨n, h⟩ : Fin cfg0.N)) (x2 := xb2 V c (⟨n, h⟩ : Fin cfg0.N)) (x3 := xb3 V c (⟨n, h⟩ : Fin cfg0.N)) (q := k0_pay9 (F := Ideal)) (p := p)).trans ?_
  rw [(zero_pay p).2.2.2.2, tile_sq V c (⟨n, h⟩ : Fin cfg0.N) p r hr]

/-- Output 8 on any other tile: what it held plus the tile's square terms. -/
theorem stepB8 (c : Dev nD) (n : ℕ) (h : n + 1 < cfg0.N) (p : Fin 64) (r : Fin 128)
    (hr : r.val = 64 * ((n + 1) / 123) + p.val) (h0 : ¬(n + 1) % 123 = 0) :
    (outsAt0 V c (n + 1) h).2.2.2.2 (ix2 p 0)
      = (outsAt0 V c n (Nat.lt_of_succ_lt h)).2.2.2.2 (ix2 p 0)
        + ∑ l : Fin 4096, extN (sqE (uK V c) (vK V c) (sK V c) r) (4096 * ((n + 1) % 123) + l.val) := by
  rw [outsAt0_B V c ⟨n + 1, h⟩ h0]
  dsimp only
  refine (congrFun (out0_B_8_eq (F := Ideal) (c := c) (i := grid0.coords (⟨n + 1, h⟩ : Fin cfg0.N)) (arg2 := ms0_0 (⟨n + 1, h⟩ : Fin cfg0.N)) (harg2 := hs0_0 (⟨n + 1, h⟩ : Fin cfg0.N)) (arg3 := ms0_1 (⟨n + 1, h⟩ : Fin cfg0.N)) (harg3 := hs0_1 (⟨n + 1, h⟩ : Fin cfg0.N)) (arg4 := ms0_2 (⟨n + 1, h⟩ : Fin cfg0.N)) (harg4 := hs0_2 (⟨n + 1, h⟩ : Fin cfg0.N)) (arg5 := ms0_3 (⟨n + 1, h⟩ : Fin cfg0.N)) (harg5 := hs0_3 (⟨n + 1, h⟩ : Fin cfg0.N)) (arg6 := ms0_4 (⟨n + 1, h⟩ : Fin cfg0.N)) (harg6 := hs0_4 (⟨n + 1, h⟩ : Fin cfg0.N)) (arg7 := ms0_5 (⟨n + 1, h⟩ : Fin cfg0.N)) (harg7 := hs0_5 (⟨n + 1, h⟩ : Fin cfg0.N)) (arg8 := ms0_6 (⟨n + 1, h⟩ : Fin cfg0.N)) (harg8 := hs0_6 (⟨n + 1, h⟩ : Fin cfg0.N)) (arg9 := ms0_7 (⟨n + 1, h⟩ : Fin cfg0.N)) (harg9 := hs0_7 (⟨n + 1, h⟩ : Fin cfg0.N)) (arg10 := ms0_8 (⟨n + 1, h⟩ : Fin cfg0.N)) (harg10 := hs0_8 (⟨n + 1, h⟩ : Fin cfg0.N))
    (x0 := xb0 V c (⟨n + 1, h⟩ : Fin cfg0.N)) (x1 := xb1 V c (⟨n + 1, h⟩ : Fin cfg0.N)) (x2 := xb2 V c (⟨n + 1, h⟩ : Fin cfg0.N)) (x3 := xb3 V c (⟨n + 1, h⟩ : Fin cfg0.N)) (hc0 := fun hh => h0 ((hcond0_0 (⟨n + 1, h⟩ : Fin cfg0.N)).mp hh))
    (xo4 := (outsAt0 V c n (Nat.lt_of_succ_lt h)).1) (xo5 := (outsAt0 V c n (Nat.lt_of_succ_lt h)).2.1) (xo6 := (outsAt0 V c n (Nat.lt_of_succ_lt h)).2.2.1) (xo7 := (outsAt0 V c n (Nat.lt_of_succ_lt h)).2.2.2.1) (xo8 := (outsAt0 V c n (Nat.lt_of_succ_lt h)).2.2.2.2)) (ix2 p 0)).trans ?_
  refine (sq_pay (x1 := xb1 V c (⟨n + 1, h⟩ : Fin cfg0.N)) (x2 := xb2 V c (⟨n + 1, h⟩ : Fin cfg0.N)) (x3 := xb3 V c (⟨n + 1, h⟩ : Fin cfg0.N)) (q := (outsAt0 V c n (Nat.lt_of_succ_lt h)).2.2.2.2) (p := p)).trans ?_
  rw [tile_sq V c (⟨n + 1, h⟩ : Fin cfg0.N) p r hr]

/-- After the last tile of a row block output 8 holds the row's sum over all 503808 padded columns. -/
theorem last8 (c : Dev nD) (t : Fin cfg0.N) (ht : t.val % 123 = 122) (p : Fin 64) (r : Fin 128)
    (hr : r.val = 64 * (t.val / 123) + p.val) :
    (outsAt0 V c t.val t.isLt).2.2.2.2 (ix2 p 0) = sqRow (uK V c) (vK V c) (sK V c) r := by
  have e := acc_rows (sqE (uK V c) (vK V c) (sK V c)) (fun n h p => (outsAt0 V c n h).2.2.2.2 (ix2 p 0))
    (stepA8 V c) (stepB8 V c) t.val t.isLt p r hr
  rw [show 4096 * (t.val % 123 + 1) = 503808 by omega] at e
  exact e.trans (sum_extN _)

/-! ## The write-backs and the cover -/

/-- An output block has one column: its entry at any index is its entry at (the row, 0). -/
theorem col0 (X : Vec Ideal S64x1 .f32) (z : S64x1.Idx) : X z = X (ix2 ⟨(z 0).val, (z 0).isLt⟩ 0) :=
  congrArg X (funext fun a => match a with
    | ⟨0, _⟩ => rfl
    | ⟨1, _⟩ => Fin.ext (by have : (z 1).val < 1 := (z 1).isLt; show (z 1).val = 0; omega))

/-- A block of 64 rows whose row p is row 64 (t / 123) + p of an array of 128 rows is, written back through output
    4's window at point t, that array's block. -/
theorem cut_eq_read4 (t : Fin cfg0.N) (X : Vec Ideal S64x1 .f32) (A : Vec Ideal S128x1 .f32)
    (hX : ∀ (p : Fin 64) (r : Fin 128), r.val = 64 * (t.val / 123) + p.val → X (ix2 p 0) = A (ix2 r 0)) :
    (cfg0.win 4).cut (grid0.coords t) X = ((cfg0.win 4).blk t).view.read (Elt Ideal) A := by
  have hN : t.val < 246 := lt_of_lt_of_eq t.isLt (show cfg0.N = 246 from N_0)
  funext y
  rw [View.read_apply]
  have hy0 : (y 0).val < 64 := (y 0).isLt
  have hy1 : (y 1).val < 1 := (y 1).isLt
  show X _ = A _
  refine (col0 X _).trans ?_
  refine (hX ⟨(y 0).val, hy0⟩ ⟨64 * (t.val / 123) + (y 0).val, by omega⟩ rfl).trans ?_
  congr 1
  funext a
  apply Fin.ext
  match a with
  | ⟨0, _⟩ => show 64 * (t.val / 123) + (y 0).val = win0_4.index t 0 * 64 + 1 * (y 0).val; rw [(idx0_4 t).1]; omega
  | ⟨1, _⟩ => show 0 = win0_4.index t 1 * 1 + 1 * (y 1).val; rw [(idx0_4 t).2]; omega

/-- What the write-back at the last tile of a row block writes to output 4's array is its block of the rows' sums. -/
theorem flushed4 (c : Dev nD) (t : Fin cfg0.N) (hf : (cfg0.win 4).flush t = true) :
    (dat0 V c).flushed 4 t = ((cfg0.win 4).blk t).view.read (Elt Ideal) (lpArr V c) := by
  have ht : t.val % 123 = 122 := (flush0_4 t).mp hf
  show (cfg0.win 4).cut (grid0.coords t) ((dat0 V c).after 4 t) = _
  rw [after0_4]
  exact cut_eq_read4 t _ (lpArr V c) fun p r hr => last4 V c t ht p r hr

/-- The two row blocks' write-backs cover the 128 rows: row i is in the block written at point 123 (i / 64) + 122. -/
theorem region0_arr4 (c : Dev nD) : (dat0 V c).arrAt 4 cfg0.N = lpArr V c :=
  (dat0 V c).arrAt_eq_of_cover 4 (lpArr V c) (flushed4 V c) fun i => by
    have h0 : (i 0 : Nat) < 128 := (i 0).isLt
    have h1 : (i 1 : Nat) < 1 := (i 1).isLt
    have hlt : 123 * ((i 0 : Nat) / 64) + 122 < cfg0.N := by rw [show cfg0.N = 246 from N_0]; omega
    refine ⟨⟨123 * ((i 0 : Nat) / 64) + 122, hlt⟩, (flush0_4 _).mpr (by show (123 * ((i 0 : Nat) / 64) + 122) % 123 = 122; omega), ?_⟩
    show i ∈ ((View.whole main_v3_0).slice (win0_4.rect ⟨123 * ((i 0 : Nat) / 64) + 122, hlt⟩)).set
    rw [View.set_slice_whole, Rect.mem_set_unit]
    intro a
    match a with
    | ⟨0, _⟩ =>
      show win0_4.index ⟨123 * ((i 0 : Nat) / 64) + 122, hlt⟩ 0 * 64 ≤ (i 0 : Nat)
        ∧ (i 0 : Nat) < win0_4.index ⟨123 * ((i 0 : Nat) / 64) + 122, hlt⟩ 0 * 64 + 64
      rw [(idx0_4 _).1]
      show (123 * ((i 0 : Nat) / 64) + 122) / 123 * 64 ≤ (i 0 : Nat) ∧ (i 0 : Nat) < (123 * ((i 0 : Nat) / 64) + 122) / 123 * 64 + 64
      omega
    | ⟨1, _⟩ =>
      show win0_4.index ⟨123 * ((i 0 : Nat) / 64) + 122, hlt⟩ 1 * 1 ≤ (i 1 : Nat)
        ∧ (i 1 : Nat) < win0_4.index ⟨123 * ((i 0 : Nat) / 64) + 122, hlt⟩ 1 * 1 + 1
      rw [(idx0_4 _).2]
      omega

/-- A block of 64 rows whose row p is row 64 (t / 123) + p of an array of 128 rows is, written back through output
    5's window at point t, that array's block. -/
theorem cut_eq_read5 (t : Fin cfg0.N) (X : Vec Ideal S64x1 .f32) (A : Vec Ideal S128x1 .f32)
    (hX : ∀ (p : Fin 64) (r : Fin 128), r.val = 64 * (t.val / 123) + p.val → X (ix2 p 0) = A (ix2 r 0)) :
    (cfg0.win 5).cut (grid0.coords t) X = ((cfg0.win 5).blk t).view.read (Elt Ideal) A := by
  have hN : t.val < 246 := lt_of_lt_of_eq t.isLt (show cfg0.N = 246 from N_0)
  funext y
  rw [View.read_apply]
  have hy0 : (y 0).val < 64 := (y 0).isLt
  have hy1 : (y 1).val < 1 := (y 1).isLt
  show X _ = A _
  refine (col0 X _).trans ?_
  refine (hX ⟨(y 0).val, hy0⟩ ⟨64 * (t.val / 123) + (y 0).val, by omega⟩ rfl).trans ?_
  congr 1
  funext a
  apply Fin.ext
  match a with
  | ⟨0, _⟩ => show 64 * (t.val / 123) + (y 0).val = win0_5.index t 0 * 64 + 1 * (y 0).val; rw [(idx0_5 t).1]; omega
  | ⟨1, _⟩ => show 0 = win0_5.index t 1 * 1 + 1 * (y 1).val; rw [(idx0_5 t).2]; omega

/-- What the write-back at the last tile of a row block writes to output 5's array is its block of the rows' sums. -/
theorem flushed5 (c : Dev nD) (t : Fin cfg0.N) (hf : (cfg0.win 5).flush t = true) :
    (dat0 V c).flushed 5 t = ((cfg0.win 5).blk t).view.read (Elt Ideal) (cntArr V c) := by
  have ht : t.val % 123 = 122 := (flush0_5 t).mp hf
  show (cfg0.win 5).cut (grid0.coords t) ((dat0 V c).after 5 t) = _
  rw [after0_5]
  exact cut_eq_read5 t _ (cntArr V c) fun p r hr => last5 V c t ht p r hr

/-- The two row blocks' write-backs cover the 128 rows: row i is in the block written at point 123 (i / 64) + 122. -/
theorem region0_arr5 (c : Dev nD) : (dat0 V c).arrAt 5 cfg0.N = cntArr V c :=
  (dat0 V c).arrAt_eq_of_cover 5 (cntArr V c) (flushed5 V c) fun i => by
    have h0 : (i 0 : Nat) < 128 := (i 0).isLt
    have h1 : (i 1 : Nat) < 1 := (i 1).isLt
    have hlt : 123 * ((i 0 : Nat) / 64) + 122 < cfg0.N := by rw [show cfg0.N = 246 from N_0]; omega
    refine ⟨⟨123 * ((i 0 : Nat) / 64) + 122, hlt⟩, (flush0_5 _).mpr (by show (123 * ((i 0 : Nat) / 64) + 122) % 123 = 122; omega), ?_⟩
    show i ∈ ((View.whole main_v3_1).slice (win0_5.rect ⟨123 * ((i 0 : Nat) / 64) + 122, hlt⟩)).set
    rw [View.set_slice_whole, Rect.mem_set_unit]
    intro a
    match a with
    | ⟨0, _⟩ =>
      show win0_5.index ⟨123 * ((i 0 : Nat) / 64) + 122, hlt⟩ 0 * 64 ≤ (i 0 : Nat)
        ∧ (i 0 : Nat) < win0_5.index ⟨123 * ((i 0 : Nat) / 64) + 122, hlt⟩ 0 * 64 + 64
      rw [(idx0_5 _).1]
      show (123 * ((i 0 : Nat) / 64) + 122) / 123 * 64 ≤ (i 0 : Nat) ∧ (i 0 : Nat) < (123 * ((i 0 : Nat) / 64) + 122) / 123 * 64 + 64
      omega
    | ⟨1, _⟩ =>
      show win0_5.index ⟨123 * ((i 0 : Nat) / 64) + 122, hlt⟩ 1 * 1 ≤ (i 1 : Nat)
        ∧ (i 1 : Nat) < win0_5.index ⟨123 * ((i 0 : Nat) / 64) + 122, hlt⟩ 1 * 1 + 1
      rw [(idx0_5 _).2]
      omega

/-- A block of 64 rows whose row p is row 64 (t / 123) + p of an array of 128 rows is, written back through output
    6's window at point t, that array's block. -/
theorem cut_eq_read6 (t : Fin cfg0.N) (X : Vec Ideal S64x1 .f32) (A : Vec Ideal S128x1 .f32)
    (hX : ∀ (p : Fin 64) (r : Fin 128), r.val = 64 * (t.val / 123) + p.val → X (ix2 p 0) = A (ix2 r 0)) :
    (cfg0.win 6).cut (grid0.coords t) X = ((cfg0.win 6).blk t).view.read (Elt Ideal) A := by
  have hN : t.val < 246 := lt_of_lt_of_eq t.isLt (show cfg0.N = 246 from N_0)
  funext y
  rw [View.read_apply]
  have hy0 : (y 0).val < 64 := (y 0).isLt
  have hy1 : (y 1).val < 1 := (y 1).isLt
  show X _ = A _
  refine (col0 X _).trans ?_
  refine (hX ⟨(y 0).val, hy0⟩ ⟨64 * (t.val / 123) + (y 0).val, by omega⟩ rfl).trans ?_
  congr 1
  funext a
  apply Fin.ext
  match a with
  | ⟨0, _⟩ => show 64 * (t.val / 123) + (y 0).val = win0_6.index t 0 * 64 + 1 * (y 0).val; rw [(idx0_6 t).1]; omega
  | ⟨1, _⟩ => show 0 = win0_6.index t 1 * 1 + 1 * (y 1).val; rw [(idx0_6 t).2]; omega

/-- What the write-back at the last tile of a row block writes to output 6's array is its block of the rows' sums. -/
theorem flushed6 (c : Dev nD) (t : Fin cfg0.N) (hf : (cfg0.win 6).flush t = true) :
    (dat0 V c).flushed 6 t = ((cfg0.win 6).blk t).view.read (Elt Ideal) (wArr V c) := by
  have ht : t.val % 123 = 122 := (flush0_6 t).mp hf
  show (cfg0.win 6).cut (grid0.coords t) ((dat0 V c).after 6 t) = _
  rw [after0_6]
  exact cut_eq_read6 t _ (wArr V c) fun p r hr => last6 V c t ht p r hr

/-- The two row blocks' write-backs cover the 128 rows: row i is in the block written at point 123 (i / 64) + 122. -/
theorem region0_arr6 (c : Dev nD) : (dat0 V c).arrAt 6 cfg0.N = wArr V c :=
  (dat0 V c).arrAt_eq_of_cover 6 (wArr V c) (flushed6 V c) fun i => by
    have h0 : (i 0 : Nat) < 128 := (i 0).isLt
    have h1 : (i 1 : Nat) < 1 := (i 1).isLt
    have hlt : 123 * ((i 0 : Nat) / 64) + 122 < cfg0.N := by rw [show cfg0.N = 246 from N_0]; omega
    refine ⟨⟨123 * ((i 0 : Nat) / 64) + 122, hlt⟩, (flush0_6 _).mpr (by show (123 * ((i 0 : Nat) / 64) + 122) % 123 = 122; omega), ?_⟩
    show i ∈ ((View.whole main_v3_2).slice (win0_6.rect ⟨123 * ((i 0 : Nat) / 64) + 122, hlt⟩)).set
    rw [View.set_slice_whole, Rect.mem_set_unit]
    intro a
    match a with
    | ⟨0, _⟩ =>
      show win0_6.index ⟨123 * ((i 0 : Nat) / 64) + 122, hlt⟩ 0 * 64 ≤ (i 0 : Nat)
        ∧ (i 0 : Nat) < win0_6.index ⟨123 * ((i 0 : Nat) / 64) + 122, hlt⟩ 0 * 64 + 64
      rw [(idx0_6 _).1]
      show (123 * ((i 0 : Nat) / 64) + 122) / 123 * 64 ≤ (i 0 : Nat) ∧ (i 0 : Nat) < (123 * ((i 0 : Nat) / 64) + 122) / 123 * 64 + 64
      omega
    | ⟨1, _⟩ =>
      show win0_6.index ⟨123 * ((i 0 : Nat) / 64) + 122, hlt⟩ 1 * 1 ≤ (i 1 : Nat)
        ∧ (i 1 : Nat) < win0_6.index ⟨123 * ((i 0 : Nat) / 64) + 122, hlt⟩ 1 * 1 + 1
      rw [(idx0_6 _).2]
      omega

/-- A block of 64 rows whose row p is row 64 (t / 123) + p of an array of 128 rows is, written back through output
    7's window at point t, that array's block. -/
theorem cut_eq_read7 (t : Fin cfg0.N) (X : Vec Ideal S64x1 .f32) (A : Vec Ideal S128x1 .f32)
    (hX : ∀ (p : Fin 64) (r : Fin 128), r.val = 64 * (t.val / 123) + p.val → X (ix2 p 0) = A (ix2 r 0)) :
    (cfg0.win 7).cut (grid0.coords t) X = ((cfg0.win 7).blk t).view.read (Elt Ideal) A := by
  have hN : t.val < 246 := lt_of_lt_of_eq t.isLt (show cfg0.N = 246 from N_0)
  funext y
  rw [View.read_apply]
  have hy0 : (y 0).val < 64 := (y 0).isLt
  have hy1 : (y 1).val < 1 := (y 1).isLt
  show X _ = A _
  refine (col0 X _).trans ?_
  refine (hX ⟨(y 0).val, hy0⟩ ⟨64 * (t.val / 123) + (y 0).val, by omega⟩ rfl).trans ?_
  congr 1
  funext a
  apply Fin.ext
  match a with
  | ⟨0, _⟩ => show 64 * (t.val / 123) + (y 0).val = win0_7.index t 0 * 64 + 1 * (y 0).val; rw [(idx0_7 t).1]; omega
  | ⟨1, _⟩ => show 0 = win0_7.index t 1 * 1 + 1 * (y 1).val; rw [(idx0_7 t).2]; omega

/-- What the write-back at the last tile of a row block writes to output 7's array is its block of the rows' sums. -/
theorem flushed7 (c : Dev nD) (t : Fin cfg0.N) (hf : (cfg0.win 7).flush t = true) :
    (dat0 V c).flushed 7 t = ((cfg0.win 7).blk t).view.read (Elt Ideal) (waArr V c) := by
  have ht : t.val % 123 = 122 := (flush0_7 t).mp hf
  show (cfg0.win 7).cut (grid0.coords t) ((dat0 V c).after 7 t) = _
  rw [after0_7]
  exact cut_eq_read7 t _ (waArr V c) fun p r hr => last7 V c t ht p r hr

/-- The two row blocks' write-backs cover the 128 rows: row i is in the block written at point 123 (i / 64) + 122. -/
theorem region0_arr7 (c : Dev nD) : (dat0 V c).arrAt 7 cfg0.N = waArr V c :=
  (dat0 V c).arrAt_eq_of_cover 7 (waArr V c) (flushed7 V c) fun i => by
    have h0 : (i 0 : Nat) < 128 := (i 0).isLt
    have h1 : (i 1 : Nat) < 1 := (i 1).isLt
    have hlt : 123 * ((i 0 : Nat) / 64) + 122 < cfg0.N := by rw [show cfg0.N = 246 from N_0]; omega
    refine ⟨⟨123 * ((i 0 : Nat) / 64) + 122, hlt⟩, (flush0_7 _).mpr (by show (123 * ((i 0 : Nat) / 64) + 122) % 123 = 122; omega), ?_⟩
    show i ∈ ((View.whole main_v3_3).slice (win0_7.rect ⟨123 * ((i 0 : Nat) / 64) + 122, hlt⟩)).set
    rw [View.set_slice_whole, Rect.mem_set_unit]
    intro a
    match a with
    | ⟨0, _⟩ =>
      show win0_7.index ⟨123 * ((i 0 : Nat) / 64) + 122, hlt⟩ 0 * 64 ≤ (i 0 : Nat)
        ∧ (i 0 : Nat) < win0_7.index ⟨123 * ((i 0 : Nat) / 64) + 122, hlt⟩ 0 * 64 + 64
      rw [(idx0_7 _).1]
      show (123 * ((i 0 : Nat) / 64) + 122) / 123 * 64 ≤ (i 0 : Nat) ∧ (i 0 : Nat) < (123 * ((i 0 : Nat) / 64) + 122) / 123 * 64 + 64
      omega
    | ⟨1, _⟩ =>
      show win0_7.index ⟨123 * ((i 0 : Nat) / 64) + 122, hlt⟩ 1 * 1 ≤ (i 1 : Nat)
        ∧ (i 1 : Nat) < win0_7.index ⟨123 * ((i 0 : Nat) / 64) + 122, hlt⟩ 1 * 1 + 1
      rw [(idx0_7 _).2]
      omega

/-- A block of 64 rows whose row p is row 64 (t / 123) + p of an array of 128 rows is, written back through output
    8's window at point t, that array's block. -/
theorem cut_eq_read8 (t : Fin cfg0.N) (X : Vec Ideal S64x1 .f32) (A : Vec Ideal S128x1 .f32)
    (hX : ∀ (p : Fin 64) (r : Fin 128), r.val = 64 * (t.val / 123) + p.val → X (ix2 p 0) = A (ix2 r 0)) :
    (cfg0.win 8).cut (grid0.coords t) X = ((cfg0.win 8).blk t).view.read (Elt Ideal) A := by
  have hN : t.val < 246 := lt_of_lt_of_eq t.isLt (show cfg0.N = 246 from N_0)
  funext y
  rw [View.read_apply]
  have hy0 : (y 0).val < 64 := (y 0).isLt
  have hy1 : (y 1).val < 1 := (y 1).isLt
  show X _ = A _
  refine (col0 X _).trans ?_
  refine (hX ⟨(y 0).val, hy0⟩ ⟨64 * (t.val / 123) + (y 0).val, by omega⟩ rfl).trans ?_
  congr 1
  funext a
  apply Fin.ext
  match a with
  | ⟨0, _⟩ => show 64 * (t.val / 123) + (y 0).val = win0_8.index t 0 * 64 + 1 * (y 0).val; rw [(idx0_8 t).1]; omega
  | ⟨1, _⟩ => show 0 = win0_8.index t 1 * 1 + 1 * (y 1).val; rw [(idx0_8 t).2]; omega

/-- What the write-back at the last tile of a row block writes to output 8's array is its block of the rows' sums. -/
theorem flushed8 (c : Dev nD) (t : Fin cfg0.N) (hf : (cfg0.win 8).flush t = true) :
    (dat0 V c).flushed 8 t = ((cfg0.win 8).blk t).view.read (Elt Ideal) (sqArr V c) := by
  have ht : t.val % 123 = 122 := (flush0_8 t).mp hf
  show (cfg0.win 8).cut (grid0.coords t) ((dat0 V c).after 8 t) = _
  rw [after0_8]
  exact cut_eq_read8 t _ (sqArr V c) fun p r hr => last8 V c t ht p r hr

/-- The two row blocks' write-backs cover the 128 rows: row i is in the block written at point 123 (i / 64) + 122. -/
theorem region0_arr8 (c : Dev nD) : (dat0 V c).arrAt 8 cfg0.N = sqArr V c :=
  (dat0 V c).arrAt_eq_of_cover 8 (sqArr V c) (flushed8 V c) fun i => by
    have h0 : (i 0 : Nat) < 128 := (i 0).isLt
    have h1 : (i 1 : Nat) < 1 := (i 1).isLt
    have hlt : 123 * ((i 0 : Nat) / 64) + 122 < cfg0.N := by rw [show cfg0.N = 246 from N_0]; omega
    refine ⟨⟨123 * ((i 0 : Nat) / 64) + 122, hlt⟩, (flush0_8 _).mpr (by show (123 * ((i 0 : Nat) / 64) + 122) % 123 = 122; omega), ?_⟩
    show i ∈ ((View.whole main_v3_4).slice (win0_8.rect ⟨123 * ((i 0 : Nat) / 64) + 122, hlt⟩)).set
    rw [View.set_slice_whole, Rect.mem_set_unit]
    intro a
    match a with
    | ⟨0, _⟩ =>
      show win0_8.index ⟨123 * ((i 0 : Nat) / 64) + 122, hlt⟩ 0 * 64 ≤ (i 0 : Nat)
        ∧ (i 0 : Nat) < win0_8.index ⟨123 * ((i 0 : Nat) / 64) + 122, hlt⟩ 0 * 64 + 64
      rw [(idx0_8 _).1]
      show (123 * ((i 0 : Nat) / 64) + 122) / 123 * 64 ≤ (i 0 : Nat) ∧ (i 0 : Nat) < (123 * ((i 0 : Nat) / 64) + 122) / 123 * 64 + 64
      omega
    | ⟨1, _⟩ =>
      show win0_8.index ⟨123 * ((i 0 : Nat) / 64) + 122, hlt⟩ 1 * 1 ≤ (i 1 : Nat)
        ∧ (i 1 : Nat) < win0_8.index ⟨123 * ((i 0 : Nat) / 64) + 122, hlt⟩ 1 * 1 + 1
      rw [(idx0_8 _).2]
      omega

end Cert.KernelIdeal.Val

end
-- ==== Proof.R1Pay.lean ====
/-
  Region 1's arithmetic at one output entry.  At a grid point with column tile `i 1` the body reads the same four
  blocks as region 0 and the 64 rows' weight sums (`x4`), and stores at row `p`, lane `l` the weight-matrix entry:
  minus the pair's weight over the row's weight sum plus eps, plus one where the pair is positive and further than 10.

  The road is region 0's: each composed block is read at row `p`, lane `l`; the distance block is the square root
  of the row's and the lane's squared norms minus twice their inner product, floored at eps; the column of weight
  sums, broadcast over the lanes, reads its row.
-/
import proofs.«404421_j35442070126796_1_alg».proof.Proof.Gen.KernelIdeal.Skeleton
import proofs.«404421_j35442070126796_1_alg».proof.Proof.SpecArr
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen Cert.Spec

namespace R1

/-! ## Layout operations and sums read at coordinates -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane sum of a two-axis block read at row `p`: the sum over the lanes of the block's row. -/
theorem laneSum_apply {a b : ℕ} (x : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (funext fun c => Fin.ext (by
    match c with
    | ⟨0, _⟩ => rfl
    | ⟨1, _⟩ => rfl))

/-- The operand indices of the contraction, axis by axis: the first operand is read at (row of the result, contraction
    position), the second at (lane of the result, contraction position). -/
theorem lhs_dot_0 (j : S64x4096.Idx) (q : dot_S64x64_S4096x64_S64x4096_1_1_0_0_n_n.contr.Idx) :
    (dot_S64x64_S4096x64_S64x4096_1_1_0_0_n_n.lhsIdx j q 0).val = (j 0).val := by
  unfold DotDims.lhsIdx
  rw [dif_neg (show ¬(0 : Fin S64x64.rank) ∈ dot_S64x64_S4096x64_S64x4096_1_1_0_0_n_n.lhsBatch by decide), dif_pos (show (0 : Fin S64x64.rank) ∈ dot_S64x64_S4096x64_S64x4096_1_1_0_0_n_n.lhsNonContracting by decide)]
  rfl
theorem lhs_dot_1 (j : S64x4096.Idx) (q : dot_S64x64_S4096x64_S64x4096_1_1_0_0_n_n.contr.Idx) :
    (dot_S64x64_S4096x64_S64x4096_1_1_0_0_n_n.lhsIdx j q 1).val = (q ⟨0, by decide⟩).val :=
  dot_S64x64_S4096x64_S64x4096_1_1_0_0_n_n.lhsIdx_val_of_single rfl j q
theorem rhs_dot_0 (j : S64x4096.Idx) (q : dot_S64x64_S4096x64_S64x4096_1_1_0_0_n_n.contr.Idx) :
    (dot_S64x64_S4096x64_S64x4096_1_1_0_0_n_n.rhsIdx j q 0).val = (j 1).val := by
  unfold DotDims.rhsIdx
  rw [dif_neg (show ¬(0 : Fin S4096x64.rank) ∈ dot_S64x64_S4096x64_S64x4096_1_1_0_0_n_n.rhsBatch by decide), dif_pos (show (0 : Fin S4096x64.rank) ∈ dot_S64x64_S4096x64_S64x4096_1_1_0_0_n_n.rhsNonContracting by decide)]
  rfl
theorem rhs_dot_1 (j : S64x4096.Idx) (q : dot_S64x64_S4096x64_S64x4096_1_1_0_0_n_n.contr.Idx) :
    (dot_S64x64_S4096x64_S64x4096_1_1_0_0_n_n.rhsIdx j q 1).val = (q ⟨0, by decide⟩).val :=
  dot_S64x64_S4096x64_S64x4096_1_1_0_0_n_n.rhsIdx_val_of_single rfl j q

/-- The contraction into a zero block, read at row `p`, lane `l`: the sum over the 64 positions of the products. -/
theorem dot_apply (y1 : FVec Ideal S64x64 .bf16) (y2 : FVec Ideal S4096x64 .bf16) (p : Fin 64) (l : Fin 4096) :
    matmul dot_S64x64_S4096x64_S64x4096_1_1_0_0_n_n none y1 y2 (constant (F := Ideal) S64x4096 .f32 0x00000000#32) (ix2 p l)
      = ∑ k : Fin 64, y1 (ix2 p k) * y2 (ix2 l k) := by
  refine (Ideal.matmul_constant_zero_apply dot_S64x64_S4096x64_S64x4096_1_1_0_0_n_n none y1 y2 (ix2 p l)).trans ?_
  rw [← Equiv.sum_comp (contrEquiv1 dot_S64x64_S4096x64_S64x4096_1_1_0_0_n_n 64 rfl rfl).symm]
  refine Finset.sum_congr rfl fun k _ => ?_
  have hk := contrEquiv1_symm_val dot_S64x64_S4096x64_S64x4096_1_1_0_0_n_n 64 rfl rfl k
  have el : dot_S64x64_S4096x64_S64x4096_1_1_0_0_n_n.lhsIdx (ix2 p l) ((contrEquiv1 dot_S64x64_S4096x64_S64x4096_1_1_0_0_n_n 64 rfl rfl).symm k) = ix2 p k := funext fun a => Fin.ext (by
    match a with
    | ⟨0, _⟩ => exact lhs_dot_0 _ _
    | ⟨1, _⟩ => exact (lhs_dot_1 _ _).trans hk)
  have er : dot_S64x64_S4096x64_S64x4096_1_1_0_0_n_n.rhsIdx (ix2 p l) ((contrEquiv1 dot_S64x64_S4096x64_S64x4096_1_1_0_0_n_n 64 rfl rfl).symm k) = ix2 l k := funext fun a => Fin.ext (by
    match a with
    | ⟨0, _⟩ => exact rhs_dot_0 _ _
    | ⟨1, _⟩ => exact (rhs_dot_1 _ _).trans hk)
  rw [el, er]

/-! ## The sub-payloads at row `p`, lane `l` -/

/-- The squared norms, broadcast along the other axis. -/
theorem rowNorm_apply (x : FVec Ideal S64x64 .f32) (h : S64x64.Reduces [1] S64) (hφ : FKind.Formats .f32)
    (hacc : (0x00000000#32 : BitVec (FTy.bits .f32)) = FKind.add.neutral .f32 hφ) (hc : S64.ShapeCasts S64x1) (hb : S64x1.Broadcasts S64x4096)
    (p : Fin 64) (l : Fin 4096) :
    broadcastTo S64x4096 (shapeCast S64x1 (multiReduction (F := Ideal) .add [1] S64 (mulf x x) 0x00000000#32 h hφ hacc) hc) hb (ix2 p l)
      = sqn x p := by
  refine (broadcastTo_a1_ab_apply _ hb p l).trans ?_
  refine (shapeCast_a_a1_apply _ hc p 0).trans ?_
  exact laneSum_apply (mulf x x) _ h hφ hacc p

theorem colNorm_apply (x : FVec Ideal S4096x64 .f32) (h : S4096x64.Reduces [1] S4096) (hφ : FKind.Formats .f32)
    (hacc : (0x00000000#32 : BitVec (FTy.bits .f32)) = FKind.add.neutral .f32 hφ) (hc : S4096.ShapeCasts S1x4096) (hb : S1x4096.Broadcasts S64x4096)
    (p : Fin 64) (l : Fin 4096) :
    broadcastTo S64x4096 (shapeCast S1x4096 (multiReduction (F := Ideal) .add [1] S4096 (mulf x x) 0x00000000#32 h hφ hacc) hc) hb (ix2 p l)
      = sqn x l := by
  refine (broadcastTo_1b_ab_apply _ hb p l).trans ?_
  refine (shapeCast_a_1a_apply _ hc 0 l).trans ?_
  exact laneSum_apply (mulf x x) _ h hφ hacc l

section Blocks
variable (i : grid1.Coords) (x0 : Vec Ideal S64x1 .i32) (x1 : Vec Ideal S64x64 .f32) (x2 : Vec Ideal S4096x64 .f32)
  (x3 : Vec Ideal S64x4096 .f32) (x4 : Vec Ideal S64x1 .f32)

/-- The two identity casts change nothing. -/
theorem pay2_eq : k1_pay2 x3 = x3 := shapeCast_self x3 _
theorem pay3_eq : k1_pay3 x4 = x4 := shapeCast_self x4 _

/-- The distance block. -/
theorem pay4_apply (p : Fin 64) (l : Fin 4096) : k1_pay4 x1 x2 (ix2 p l) = dBlk x1 x2 p l := by
  unfold k1_pay4
  show Ideal.sqrt (max ((_ + _) - c2 * _) cEps)
    = Ideal.sqrt (max ((sqn x1 p + sqn x2 l) - c2 * inner x1 x2 p l) cEps)
  refine congrArg (fun t => Ideal.sqrt (max t cEps)) ?_
  refine congrArg₂ (fun a b => a - c2 * b) (congrArg₂ (fun a b => a + b) ?_ ?_) ?_
  · exact rowNorm_apply x1 _ _ _ _ _ p l
  · exact (colNorm_apply (shapeCast S4096x64 x2 _) _ _ _ _ _ p l).trans (congrArg (fun y => sqn y l) (shapeCast_self x2 _))
  · refine (dot_apply _ _ p l).trans ?_
    rw [shapeCast_self]
    rfl

/-- The column word of lane `l` at the point's column tile. -/
theorem pay5_apply (p : Fin 64) (l : Fin 4096) : k1_pay5 i (ix2 p l) = colWord (i 1).val l := by
  unfold k1_pay5
  show IntOp.addi _ (iota .tc S64x4096 32 [1] _ (ix2 p l)) = _
  rw [iota_single_apply]
  rfl

/-- "The column is a real column". -/
theorem pay6_apply (p : Fin 64) (l : Fin 4096) :
    k1_pay6 i (ix2 p l) = IntOp.cmpi .slt (colWord (i 1).val l) 500000#32 := by
  unfold k1_pay6
  show IntOp.cmpi .slt (k1_pay5 i (ix2 p l)) 500000#32 = _
  rw [pay5_apply]

/-- The positive test. -/
theorem pay7_apply (p : Fin 64) (l : Fin 4096) : k1_pay7 i x3 x0 (ix2 p l) = mposBlk (i 1).val x0 x3 p l := by
  unfold k1_pay7
  show IntOp.andi (Ideal.cmp .ogt (k1_pay2 x3 (ix2 p l)) c0)
      (IntOp.xori (IntOp.cmpi .eq (k1_pay5 i (ix2 p l)) (broadcastTo S64x4096 (shapeCast S64x1 x0 _) _ (ix2 p l))) 1#1) = _
  rw [pay2_eq, pay5_apply, broadcastTo_a1_ab_apply, shapeCast_self]
  rfl

/-- The stored expression from any label, weight-sum, distance, validity and positive blocks. -/
theorem pay1_gen (v4 : FVec Ideal S64x4096 .f32) (v8 : FVec Ideal S64x1 .f32) (v26 : FVec Ideal S64x4096 .f32)
    (v32 v38 : IVec S64x4096 1) (p : Fin 64) (l : Fin 4096) :
    k1_pay1 v4 v8 v26 v32 v38 (ix2 p l)
      = wOut (nact (mneg (v4 (ix2 p l)) (v32 (ix2 p l))) (v26 (ix2 p l))) (v38 (ix2 p l)) (v26 (ix2 p l)) (v8 (ix2 p 0)) := by
  unfold k1_pay1
  show (c0 - Ideal.div (wT (nact (mneg (v4 (ix2 p l)) (v32 (ix2 p l))) (v26 (ix2 p l))) (v26 (ix2 p l)))
      (broadcastTo S64x4096 _ _ (ix2 p l))) + paT (v38 (ix2 p l)) (v26 (ix2 p l)) = _
  rw [broadcastTo_a1_ab_apply]
  rfl

end Blocks

end R1

open R1

/-- The stored entry at row `p`, lane `l`. -/
theorem wmat_pay (i : grid1.Coords) (x0 : Vec Ideal S64x1 .i32) (x1 : Vec Ideal S64x64 .f32) (x2 : Vec Ideal S4096x64 .f32)
    (x3 : Vec Ideal S64x4096 .f32) (x4 : Vec Ideal S64x1 .f32) (p : Fin 64) (l : Fin 4096) :
    k1_pay1 (F := Ideal) (k1_pay2 x3) (k1_pay3 x4) (k1_pay4 x1 x2) (k1_pay6 i) (k1_pay7 i x3 x0) (ix2 p l)
      = wOut (nactBlk (i 1).val x1 x2 x3 p l) (mposBlk (i 1).val x0 x3 p l) (dBlk x1 x2 p l) (x4 (ix2 p 0)) := by
  rw [pay1_gen, pay2_eq, pay3_eq, pay4_apply, pay6_apply, pay7_apply]
  rfl

end Cert.KernelIdeal.Val

end
-- ==== Proof.R1Val.lean ====
/-
  Region 1 over its whole grid: point t writes the 64 x 4096 block of the padded weight matrix at row block t / 123,
  column tile t % 123, each entry the scalar weight-matrix term of its row and column; the 2 x 123 blocks tile the
  128 x 503808 array.

  The road: the grid point t has row block t / 123 and column tile t % 123; every input block read at a coordinate
  inside the block is the array read at (block index) * (block size) + (the coordinate inside the block); hence the
  block's distance, positive test and active-negative test at row p, lane l are the array's at row 64 (t / 123) + p,
  column 4096 (t % 123) + l (the column word 4096 * tile + lane on 32 bits is the word of that column, the map from
  naturals to words being a ring map); so the stored block is the block of the padded weight matrix; and every entry
  (r, j) of the array lies in the block of the point 123 (r / 64) + j / 4096.
-/
import proofs.«404421_j35442070126796_1_alg».proof.Proof.KArr
import proofs.«404421_j35442070126796_1_alg».proof.Proof.R1Pay
import Idealize.ShloMosaic.Lib.Pipeline.Value

set_option maxRecDepth 16384

noncomputable section

namespace Cert.KernelIdeal.Val.R1V

open Idealize.ShloMosaic Idealize.ShloMosaic.TcCoe Idealize.ShloMosaic.ValueIdx
open Cert.KernelIdeal Cert.KernelIdeal.Gen Cert.KernelIdeal.GenP Cert.Spec
open Idealize.ShloMosaic.Pipeline (Dat)

variable (V : (c : Dev nD) → (b : Ref sig .tc) → Buf (Elt Ideal) ((c : Thread nD τ).loc b))

/-! ## The grid: 2 row blocks of 64 rows by 123 column tiles of 4096 columns -/

theorem hz1 : (![0, 0] : Fin 2 → Nat) = fun _ => 0 := funext fun a => by fin_cases a <;> rfl

/-- The grid has 246 points. -/
theorem pt_lt (t : Fin cfg1.N) : t.val < 246 :=
  Nat.lt_of_lt_of_eq t.isLt (show cfg1.N = 246 from N_1)

/-- Point t is row block t / 123, column tile t % 123. -/
theorem grid1_pt : ∀ t : Fin cfg1.N, ((grid1.coords t) 0).val = t.val / 123 ∧ ((grid1.coords t) 1).val = t.val % 123 :=
  (by decide +kernel : ∀ t : Fin grid1.N, ((grid1.coords t) 0).val = t.val / 123 ∧ ((grid1.coords t) 1).val = t.val % 123)

/-- The block index of every window at point t: the row windows (own columns, u, weight sums) follow the row block,
    the database window follows the column tile, the label window and the output follow both. -/
theorem win1_idx : ∀ t : Fin cfg1.N,
    win1_0.index t (0 : Fin 2) = t.val / 123 ∧ win1_0.index t (1 : Fin 2) = 0
    ∧ win1_1.index t (0 : Fin 2) = t.val / 123 ∧ win1_1.index t (1 : Fin 2) = 0
    ∧ win1_2.index t (0 : Fin 2) = t.val % 123 ∧ win1_2.index t (1 : Fin 2) = 0
    ∧ win1_3.index t (0 : Fin 2) = t.val / 123 ∧ win1_3.index t (1 : Fin 2) = t.val % 123
    ∧ win1_4.index t (0 : Fin 2) = t.val / 123 ∧ win1_4.index t (1 : Fin 2) = 0
    ∧ win1_5.index t (0 : Fin 2) = t.val / 123 ∧ win1_5.index t (1 : Fin 2) = t.val % 123 :=
  (by decide +kernel : ∀ t : Fin grid1.N, _)

/-! ## The input blocks at a point, and the array entries they are -/

/-- The five input blocks at point t: the 64 rows' own columns, 64 rows of u, 4096 rows of the padded database, the
    64 x 4096 labels, the 64 rows' weight sums. -/
abbrev bb1 (c : Dev nD) (t : Fin cfg1.N) : Vec Ideal S64x1 .i32 := iblk1 V c 0 t
abbrev ub1 (c : Dev nD) (t : Fin cfg1.N) : Vec Ideal S64x64 .f32 := iblk1 V c 1 t
abbrev vb1 (c : Dev nD) (t : Fin cfg1.N) : Vec Ideal S4096x64 .f32 := iblk1 V c 2 t
abbrev sb1 (c : Dev nD) (t : Fin cfg1.N) : Vec Ideal S64x4096 .f32 := iblk1 V c 3 t
abbrev wb1 (c : Dev nD) (t : Fin cfg1.N) : Vec Ideal S64x1 .f32 := iblk1 V c 4 t

/-- The array row of row p of point t's row block, and the array column of lane l of its column tile. -/
def rowOf (t : Fin cfg1.N) (p : Fin 64) : Fin 128 := ⟨64 * (t.val / 123) + p.val, by have := pt_lt t; have := p.isLt; omega⟩
def colOf (t : Fin cfg1.N) (l : Fin 4096) : Fin 503808 := ⟨4096 * (t.val % 123) + l.val, by have := l.isLt; omega⟩

/-- Row p of the block of own columns is the own column of array row 64 (t / 123) + p. -/
theorem bb1_apply (c : Dev nD) (t : Fin cfg1.N) (p : Fin 64) :
    bb1 V c t (ix2 p 0) = bK V c (ix2 (rowOf t p) 0) := by
  obtain ⟨e00, e01, e10, e11, e20, e21, e30, e31, e40, e41, e50, e51⟩ := win1_idx t
  show V c main_v2 (((cfg1.win 0).blk t).view.emb (ix2 p 0)) = V c main_v2 (ix2 (rowOf t p) 0)
  refine congrArg (V c main_v2) ?_
  funext a; apply Fin.ext
  match a with
  | ⟨0, _⟩ => show win1_0.index t (0 : Fin 2) * 64 + 1 * p.val = 64 * (t.val / 123) + p.val; omega
  | ⟨1, _⟩ => show win1_0.index t (1 : Fin 2) * 1 + 1 * 0 = 0; omega

/-- Entry (p, k) of the block of u is u at array row 64 (t / 123) + p. -/
theorem ub1_apply (c : Dev nD) (t : Fin cfg1.N) (p : Fin 64) (k : Fin 64) :
    ub1 V c t (ix2 p k) = uK V c (ix2 (rowOf t p) k) := by
  obtain ⟨e00, e01, e10, e11, e20, e21, e30, e31, e40, e41, e50, e51⟩ := win1_idx t
  show V c main_arg0 (((cfg1.win 1).blk t).view.emb (ix2 p k)) = V c main_arg0 (ix2 (rowOf t p) k)
  refine congrArg (V c main_arg0) ?_
  funext a; apply Fin.ext
  match a with
  | ⟨0, _⟩ => show win1_1.index t (0 : Fin 2) * 64 + 1 * p.val = 64 * (t.val / 123) + p.val; omega
  | ⟨1, _⟩ => show win1_1.index t (1 : Fin 2) * 64 + 1 * k.val = k.val; omega

/-- Entry (l, k) of the database block is the padded database at row 4096 (t % 123) + l. -/
theorem vb1_apply (c : Dev nD) (t : Fin cfg1.N) (l : Fin 4096) (k : Fin 64) :
    vb1 V c t (ix2 l k) = vK V c (ix2 (colOf t l) k) := by
  obtain ⟨e00, e01, e10, e11, e20, e21, e30, e31, e40, e41, e50, e51⟩ := win1_idx t
  show V c main_v0 (((cfg1.win 2).blk t).view.emb (ix2 l k)) = V c main_v0 (ix2 (colOf t l) k)
  refine congrArg (V c main_v0) ?_
  funext a; apply Fin.ext
  match a with
  | ⟨0, _⟩ => show win1_2.index t (0 : Fin 2) * 4096 + 1 * l.val = 4096 * (t.val % 123) + l.val; omega
  | ⟨1, _⟩ => show win1_2.index t (1 : Fin 2) * 64 + 1 * k.val = k.val; omega

/-- Entry (p, l) of the label block is the padded label at row 64 (t / 123) + p, column 4096 (t % 123) + l. -/
theorem sb1_apply (c : Dev nD) (t : Fin cfg1.N) (p : Fin 64) (l : Fin 4096) :
    sb1 V c t (ix2 p l) = sK V c (ix2 (rowOf t p) (colOf t l)) := by
  obtain ⟨e00, e01, e10, e11, e20, e21, e30, e31, e40, e41, e50, e51⟩ := win1_idx t
  show V c main_v1 (((cfg1.win 3).blk t).view.emb (ix2 p l)) = V c main_v1 (ix2 (rowOf t p) (colOf t l))
  refine congrArg (V c main_v1) ?_
  funext a; apply Fin.ext
  match a with
  | ⟨0, _⟩ => show win1_3.index t (0 : Fin 2) * 64 + 1 * p.val = 64 * (t.val / 123) + p.val; omega
  | ⟨1, _⟩ => show win1_3.index t (1 : Fin 2) * 4096 + 1 * l.val = 4096 * (t.val % 123) + l.val; omega

/-- Row p of the block of weight sums is the weight sum of array row 64 (t / 123) + p. -/
theorem wb1_apply (c : Dev nD) (t : Fin cfg1.N) (p : Fin 64) :
    wb1 V c t (ix2 p 0) = wsK V c (ix2 (rowOf t p) 0) := by
  obtain ⟨e00, e01, e10, e11, e20, e21, e30, e31, e40, e41, e50, e51⟩ := win1_idx t
  show V c main_v3_2 (((cfg1.win 4).blk t).view.emb (ix2 p 0)) = V c main_v3_2 (ix2 (rowOf t p) 0)
  refine congrArg (V c main_v3_2) ?_
  funext a; apply Fin.ext
  match a with
  | ⟨0, _⟩ => show win1_4.index t (0 : Fin 2) * 64 + 1 * p.val = 64 * (t.val / 123) + p.val; omega
  | ⟨1, _⟩ => show win1_4.index t (1 : Fin 2) * 1 + 1 * 0 = 0; omega

/-! ## The block's scalar terms are the arrays' -/

/-- Squared norms of rows that agree entry by entry agree. -/
theorem sqn_congr {a b : Nat} (x : Mat a 64) (y : Mat b 64) (r : Fin a) (r' : Fin b)
    (h : ∀ k : Fin 64, x (ix2 r k) = y (ix2 r' k)) : sqn x r = sqn y r' := by
  unfold sqn; exact Finset.sum_congr rfl fun k _ => by rw [h k]

/-- Inner products of rows that agree entry by entry agree. -/
theorem inner_congr {a n a' n' : Nat} (x : Mat a 64) (y : Mat n 64) (x' : Mat a' 64) (y' : Mat n' 64)
    (r : Fin a) (j : Fin n) (r' : Fin a') (j' : Fin n')
    (hx : ∀ k : Fin 64, x (ix2 r k) = x' (ix2 r' k)) (hy : ∀ k : Fin 64, y (ix2 j k) = y' (ix2 j' k)) :
    Spec.inner x y r j = Spec.inner x' y' r' j' := by
  unfold Spec.inner; exact Finset.sum_congr rfl fun k _ => by rw [hx k, hy k]

/-- The column word of lane l of tile t % 123 is the word of column 4096 (t % 123) + l: naturals map to 32-bit words
    by a ring map. -/
theorem colWord_eq (t : Fin cfg1.N) (l : Fin 4096) : colWord (t.val % 123) l = BitVec.ofNat 32 (colOf t l).val := by
  unfold colWord
  show BitVec.ofNat 32 (t.val % 123) * BitVec.ofNat 32 4096 + BitVec.ofNat 32 l.val = BitVec.ofNat 32 (4096 * (t.val % 123) + l.val)
  rw [← BitVec.ofNat_mul, ← BitVec.ofNat_add, Nat.mul_comm]

/-- The block's distance at (p, l) is the arrays' at row 64 (t / 123) + p, column 4096 (t % 123) + l. -/
theorem dBlk_eq (c : Dev nD) (t : Fin cfg1.N) (p : Fin 64) (l : Fin 4096) :
    dBlk (ub1 V c t) (vb1 V c t) p l = dAt (uK V c) (vK V c) (rowOf t p) (colOf t l) := by
  unfold dBlk dAt
  rw [sqn_congr (a := 64) (b := 128) (ub1 V c t) (uK V c) p (rowOf t p) (ub1_apply V c t p),
    sqn_congr (a := 4096) (b := 503808) (vb1 V c t) (vK V c) l (colOf t l) (vb1_apply V c t l),
    inner_congr (a := 64) (n := 4096) (a' := 128) (n' := 503808) (ub1 V c t) (vb1 V c t) (uK V c) (vK V c) p l (rowOf t p) (colOf t l)
      (ub1_apply V c t p) (vb1_apply V c t l)]

/-- The block's positive test is the arrays'. -/
theorem mposBlk_eq (c : Dev nD) (t : Fin cfg1.N) (p : Fin 64) (l : Fin 4096) :
    mposBlk (t.val % 123) (bb1 V c t) (sb1 V c t) p l = mposAt (sK V c) (bRow V c) (rowOf t p) (colOf t l) := by
  unfold mposBlk mposAt selfB bRow
  rw [sb1_apply V c t p l, bb1_apply V c t p, colWord_eq t l]

/-- The block's active-negative test is the arrays'. -/
theorem nactBlk_eq (c : Dev nD) (t : Fin cfg1.N) (p : Fin 64) (l : Fin 4096) :
    nactBlk (t.val % 123) (ub1 V c t) (vb1 V c t) (sb1 V c t) p l = nactAt (uK V c) (vK V c) (sK V c) (rowOf t p) (colOf t l) := by
  unfold nactBlk nactAt validB
  rw [sb1_apply V c t p l, colWord_eq t l, dBlk_eq V c t p l]

/-- The padded weight matrix at an index whose coordinates are row r and column j. -/
theorem wmatArr_at (c : Dev nD) (y : S128x503808.Idx) (r : Fin 128) (j : Fin 503808)
    (hr : (y 0).val = r.val) (hj : (y 1).val = j.val) :
    wmatArr V c y = wMatE (uK V c) (vK V c) (sK V c) (bRow V c) (fun r => wsK V c (ix2 r 0)) r j := by
  unfold wmatArr
  have e0 : (⟨(y 0).val, idx2_lt0 y⟩ : Fin 128) = r := Fin.ext hr
  have e1 : (⟨(y 1).val, idx2_lt1 y⟩ : Fin 503808) = j := Fin.ext hj
  rw [e0, e1]

/-! ## What point t writes back, and the whole array -/

set_option maxHeartbeats 400000 in
/-- What point t writes back is its block of the padded weight matrix. -/
theorem wmat_flushed (c : Dev nD) (t : Fin cfg1.N) :
    (dat1 V c).flushed 5 t = ((cfg1.win 5).blk t).view.read (Elt Ideal) (wmatArr V c) := by
  show (cfg1.win 5).cut (grid1.coords t) ((dat1 V c).after 5 t) = _
  rw [after1_5]
  unfold out1_5
  rw [View.canon_unit_zero hz1]
  simp only [View.ld_unit_zero (S := S64x1) hz1, View.ld_unit_zero (S := S64x64) hz1,
    View.ld_unit_zero (S := S4096x64) hz1, View.ld_unit_zero (S := S64x4096) hz1]
  obtain ⟨g0, g1⟩ := grid1_pt t
  obtain ⟨e00, e01, e10, e11, e20, e21, e30, e31, e40, e41, e50, e51⟩ := win1_idx t
  funext j
  have hj : j = ix2 (n0 := 64) (n1 := 4096) (j 0) (j 1) := eq_ix2 (n0 := 64) (n1 := 4096) j
  generalize (j 0 : Fin 64) = p at hj
  generalize (j 1 : Fin 4096) = l at hj
  subst hj
  refine (wmat_pay (grid1.coords t) (bb1 V c t) (ub1 V c t) (vb1 V c t) (sb1 V c t) (wb1 V c t) p l).trans ?_
  rw [g1, nactBlk_eq V c t p l, mposBlk_eq V c t p l, dBlk_eq V c t p l, wb1_apply V c t p]
  symm
  refine wmatArr_at V c (((cfg1.win 5).blk t).view.emb (ix2 p l)) (rowOf t p) (colOf t l) ?_ ?_
  · show win1_5.index t (0 : Fin 2) * 64 + 1 * p.val = 64 * (t.val / 123) + p.val; omega
  · show win1_5.index t (1 : Fin 2) * 4096 + 1 * l.val = 4096 * (t.val % 123) + l.val; omega

/-- An index of the array is in point t's block iff each coordinate is in the block's range on its axis. -/
theorem mem_wblk (t : Fin cfg1.N) (i : S128x503808.Idx) :
    i ∈ ((cfg1.win 5).blk t).view.set ↔ ∀ a : Fin 2, win1_5.index t a * S64x4096.size a ≤ (i a).val ∧ (i a).val < win1_5.index t a * S64x4096.size a + S64x4096.size a := by
  show i ∈ ((View.whole main_v31).slice (win1_5.rect t)).set ↔ _
  rw [View.set_slice_whole, Rect.mem_set_unit]
  exact Iff.rfl

/-- Every entry (r, j) of the 128 x 503808 array is in the block of the point 123 (r / 64) + j / 4096. -/
theorem wblk_cover (i : S128x503808.Idx) :
    ∃ t : Fin cfg1.N, (cfg1.win 5).flush t = true ∧ i ∈ ((cfg1.win 5).blk t).view.set := by
  have hi0 : (i 0).val < 128 := idx2_lt0 i
  have hi1 : (i 1).val < 503808 := idx2_lt1 i
  have hN : cfg1.N = 246 := N_1
  let t : Fin cfg1.N := ⟨123 * ((i 0).val / 64) + (i 1).val / 4096, by omega⟩
  have ht : t.val = 123 * ((i 0).val / 64) + (i 1).val / 4096 := rfl
  obtain ⟨e00, e01, e10, e11, e20, e21, e30, e31, e40, e41, e50, e51⟩ := win1_idx t
  refine ⟨t, flush1_5 t, ?_⟩
  rw [mem_wblk]
  intro a
  match a with
  | ⟨0, _⟩ => show win1_5.index t (0 : Fin 2) * 64 ≤ (i 0).val ∧ (i 0).val < win1_5.index t (0 : Fin 2) * 64 + 64; omega
  | ⟨1, _⟩ => show win1_5.index t (1 : Fin 2) * 4096 ≤ (i 1).val ∧ (i 1).val < win1_5.index t (1 : Fin 2) * 4096 + 4096; omega

/-- After region 1 its output array holds the padded weight matrix. -/
theorem region1_arr5 (c : Dev nD) : (dat1 V c).arrAt 5 cfg1.N = wmatArr V c :=
  (dat1 V c).arrAt_eq_of_cover 5 (wmatArr V c) (fun t _ => wmat_flushed V c t) wblk_cover

end Cert.KernelIdeal.Val.R1V

namespace Cert.KernelIdeal.Val

open Idealize.ShloMosaic Idealize.ShloMosaic.TcCoe Cert.KernelIdeal Cert.KernelIdeal.Gen Cert.KernelIdeal.GenP

/-- After region 1 its output array holds the padded weight matrix. -/
theorem region1_arr5 (V : (c : Dev nD) → (b : Ref sig .tc) → Buf (Elt Ideal) ((c : Thread nD τ).loc b)) (c : Dev nD) :
    (dat1 V c).arrAt 5 cfg1.N = wmatArr V c := R1V.region1_arr5 V c

end Cert.KernelIdeal.Val

end
-- ==== Proof.KFinal.lean ====
/-
  The kernel's program from launch to return: its two results as functions of the argument arrays.  The loss is the
  loss of the shared specification over the zero-padded database (the five row sums region 0 leaves, fed to the host
  operations between the regions); the weight matrix is the first 500000 columns of the padded weight matrix region 1
  writes from the weight sums region 0 left.
-/
import proofs.«404421_j35442070126796_1_alg».proof.Proof.RunKernelIdeal
import proofs.«404421_j35442070126796_1_alg».proof.Proof.KEntry
import proofs.«404421_j35442070126796_1_alg».proof.Proof.KLoss
import proofs.«404421_j35442070126796_1_alg».proof.Proof.R0Sum
import proofs.«404421_j35442070126796_1_alg».proof.Proof.R1Val
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.GenP Cert.Spec

variable (m : (ℓ : Loc nD τ sig) → Buf (Elt Ideal) ℓ) (ρ : Dev nD → PrngReg)

/-! ## Buffers no later operation writes -/

/-- V_omega_u at region 0's exit is the argument: no host operation before it and no region writes it. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- u at region 0's exit is what region 0 was entered with (an input window's array is not written). -/
theorem W6_arg0 (c : Dev nD) : W6 m ρ c (Proc.devRef .tc main_arg0) = uM m c :=
  ((W6_arr m ρ c 1).trans (((dat0 (V5 m ρ) c).arrAt_in 1 rfl _).trans (A_eq0 (V5 m ρ) c 1))).trans (entry5_u m ρ c)

/-- The loss is not touched after the host operations between the regions. -/
theorem W9_v30 (c : Dev nD) : W9 m ρ c (Proc.devRef .tc main_v30) = W7 m ρ c (Proc.devRef .tc main_v30) :=
  calc W9 m ρ c (Proc.devRef .tc main_v30)
    _ = W8 m ρ c (Proc.devRef .tc main_v30) := StableHlo.after_of_forall_not_mem (b := Proc.devRef .tc main_v30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v30) := W8_of_ne m ρ c main_v30 (by decide)

/-! ## The loss -/

/-- A row of one of region 0's output arrays is the row's sum (the array's index (r, 0) names row r). -/
theorem rowIdx (r : Fin 128) : (⟨((ix2 r (0 : Fin 1) : (⟨2, ![128, 1]⟩ : Shape).Idx) 0).val, idx2_lt0 _⟩ : Fin 128) = r := Fin.ext rfl

/-- The loss the kernel's program returns is the specification's loss over the zero-padded database. -/
theorem W9_loss (c : Dev nD) :
    (W9 m ρ c (Proc.devRef .tc main_v30) : Vec Ideal S_ .f32) = fun _ =>
      lossOf (uM m c) (padRows (N := 503808) (vM m c)) (padCols (N := 503808) (sM m c)) (bOf m c) (voM m c) := by
  rw [W9_v30, loss_chain]
  have h4 : a4 m ρ c = lpArr (V5 m ρ) c := (W6_arr m ρ c 4).trans (region0_arr4 (V5 m ρ) c)
  have h5 : a5 m ρ c = cntArr (V5 m ρ) c := (W6_arr m ρ c 5).trans (region0_arr5 (V5 m ρ) c)
  have h6 : a6 m ρ c = wArr (V5 m ρ) c := (W6_arr m ρ c 6).trans (region0_arr6 (V5 m ρ) c)
  have h7 : a7 m ρ c = waArr (V5 m ρ) c := (W6_arr m ρ c 7).trans (region0_arr7 (V5 m ρ) c)
  have h8 : a8 m ρ c = sqArr (V5 m ρ) c := (W6_arr m ρ c 8).trans (region0_arr8 (V5 m ρ) c)
  have hu : u6 m ρ c = uM m c := W6_arg0 m ρ c
  have hvo : vo6 m ρ c = voM m c := W6_arg4 m ρ c
  rw [h4, h5, h6, h7, h8, hu, hvo]
  have e1 : ∀ r : Fin 128, lpArr (V5 m ρ) c (ix2 r 0)
      = lpRow (uM m c) (padRows (N := 503808) (vM m c)) (padCols (N := 503808) (sM m c)) (bOf m c) r := by
    intro r
    show lpRow (uK (V5 m ρ) c) (vK (V5 m ρ) c) (sK (V5 m ρ) c) (bRow (V5 m ρ) c) _ = _
    rw [entry5_u, entry5_v, entry5_s, entry5_b]
  have e2 : ∀ r : Fin 128, cntArr (V5 m ρ) c (ix2 r 0)
      = cntRow (padCols (N := 503808) (sM m c)) (bOf m c) r := by
    intro r
    show cntRow (sK (V5 m ρ) c) (bRow (V5 m ρ) c) _ = _
    rw [entry5_s, entry5_b]
  have e3 : ∀ r : Fin 128, wArr (V5 m ρ) c (ix2 r 0)
      = wRow (uM m c) (padRows (N := 503808) (vM m c)) (padCols (N := 503808) (sM m c)) r := by
    intro r
    show wRow (uK (V5 m ρ) c) (vK (V5 m ρ) c) (sK (V5 m ρ) c) _ = _
    rw [entry5_u, entry5_v, entry5_s]
  have e4 : ∀ r : Fin 128, waArr (V5 m ρ) c (ix2 r 0)
      = waRow (uM m c) (padRows (N := 503808) (vM m c)) (padCols (N := 503808) (sM m c)) r := by
    intro r
    show waRow (uK (V5 m ρ) c) (vK (V5 m ρ) c) (sK (V5 m ρ) c) _ = _
    rw [entry5_u, entry5_v, entry5_s]
  have e5 : ∀ r : Fin 128, sqArr (V5 m ρ) c (ix2 r 0)
      = sqRow (uM m c) (padRows (N := 503808) (vM m c)) (padCols (N := 503808) (sM m c)) r := by
    intro r
    show sqRow (uK (V5 m ρ) c) (vK (V5 m ρ) c) (sK (V5 m ρ) c) _ = _
    rw [entry5_u, entry5_v, entry5_s]
  funext _
  simp only [e1, e2, e3, e4, e5]
  rfl

/-! ## The weight matrix -/

/-- The padded weight matrix region 1 leaves, over the argument arrays. -/
theorem W8_v31 (c : Dev nD) :
    (W8 m ρ c (Proc.devRef .tc main_v31) : Vec Ideal S128x503808 .f32) = fun y =>
      wMatOf (uM m c) (padRows (N := 503808) (vM m c)) (padCols (N := 503808) (sM m c)) (bOf m c)
        ⟨(y 0).val, idx2_lt0 y⟩ ⟨(y 1).val, idx2_lt1 y⟩ := by
  rw [show W8 m ρ c (Proc.devRef .tc main_v31) = (dat1 (V7 m ρ) c).arrAt 5 cfg1.N from W8_arr m ρ c 5, region1_arr5]
  funext y
  unfold wmatArr wMatOf
  rw [entry7_u, entry7_v, entry7_s, entry7_b]
  have hws : (fun r : Fin 128 => wsK (V7 m ρ) c (ix2 r 0))
      = wRow (uM m c) (padRows (N := 503808) (vM m c)) (padCols (N := 503808) (sM m c)) := by
    funext r
    rw [entry7_ws, region0_arr6]
    show wRow (uK (V5 m ρ) c) (vK (V5 m ρ) c) (sK (V5 m ρ) c) _ = _
    rw [entry5_u, entry5_v, entry5_s]
  rw [hws]

/-- The weight matrix the kernel's program returns: the first 500000 columns of the padded one. -/
theorem W9_wmat (c : Dev nD) :
    (W9 m ρ c (Proc.devRef .tc main_v32) : Vec Ideal S128x500000 .f32) = fun y =>
      wMatOf (uM m c) (padRows (N := 503808) (vM m c)) (padCols (N := 503808) (sM m c)) (bOf m c)
        ⟨(y 0).val, idx2_lt0 y⟩ ⟨(y 1).val, Nat.lt_of_lt_of_le (idx2_lt1 y) (by decide)⟩ := by
  have e : (W9 m ρ c (Proc.devRef .tc main_v32) : Vec Ideal S128x500000 .f32)
      = extractStridedSlice S128x500000 ![0, 0] (W8 m ρ c (Proc.devRef .tc main_v31) : Vec Ideal S128x503808 .f32)
          slices_S128x503808_S128x500000_0_0 := by
    show StableHlo.after hostOps2 _ (Proc.devRef .tc main_v32) = _
    after_results
  rw [e, W8_v31]
  funext y
  obtain ⟨r, j, rfl⟩ : ∃ (r : Fin 128) (j : Fin 500000), y = ix2 r j := ⟨y 0, y 1, eq_ix2 y⟩
  exact slice2_axis1_apply 0 _ slices_S128x503808_S128x500000_0_0 r j ⟨j.val, by omega⟩ (by simp)

/-! ## The run -/

/-- Every weakly fair execution of the kernel's program terminates, nothing faulting, with the loss and the weight
    matrix at the specification's terms over the zero-padded database, and the argument arrays unchanged. -/
theorem run : θ_run defs (onTc (τ := τ) (main (F := Ideal))) ⟨m, fun _ => 0, ρ⟩ (fun r => ∀ c : Dev nD,
      r.2.mem ((c.tc : Thread nD τ).loc main_v30) = (fun _ =>
          lossOf (uM m c) (padRows (N := 503808) (vM m c)) (padCols (N := 503808) (sM m c)) (bOf m c) (voM m c) : Vec Ideal S_ .f32)
      ∧ r.2.mem ((c.tc : Thread nD τ).loc main_v32) = (fun y =>
          wMatOf (uM m c) (padRows (N := 503808) (vM m c)) (padCols (N := 503808) (sM m c)) (bOf m c)
            ⟨(y 0).val, idx2_lt0 y⟩ ⟨(y 1).val, Nat.lt_of_lt_of_le (idx2_lt1 y) (by decide)⟩ : Vec Ideal S128x500000 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
    ⟨(h c _ (mem_uc main_v30 (by decide))).trans (W9_loss m ρ c),
     (h c _ (mem_uc main_v32 (by decide))).trans (W9_wmat m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩)
    (run_final m ρ)

end Cert.KernelIdeal.Val

end
-- ==== Proof.RefRunDefs.lean ====
/-
  The reference's run read stretch by stretch: the stretches and what each leaves.  Its 145 host operations are cut into seven consecutive stretches; after
  each stretch the buffers that later operations still read hold the stage functions of the argument arrays (the value
  each operation writes, as a function of the arguments), so the two results end at their stages.  Each step opens only
  its own stretch: the operations' results in program order, with what the stretch takes over from the one before
  rewritten by name.
-/
import proofs.«404421_j35442070126796_1_alg».proof.Proof.RunRefBase
import proofs.«404421_j35442070126796_1_alg».proof.Proof.ReadRef

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The seven stretches of the operation list -/

abbrev ops1 : List (HloOp τ sig (Elt F)) :=
  [ nullary main_v0 (iotaInDim S128 32 0),
    unary main_arg1 main_v1 ((transpose S64x500000 [1, 0] · transposes_S500000x64_S64x500000_1_0) : (⟨S500000x64, .f32⟩ : BufTy).Contents (Elt F) → (⟨S64x500000, .f32⟩ : BufTy).Contents (Elt F)),
    binary main_arg0 main_v1 main_v2 ((fun l r => Host.dotGeneral dot_S128x64_S64x500000_S128x500000_1_0_0_1_n_n none l r) : (⟨S128x64, .f32⟩ : BufTy).Contents (Elt F) → (⟨S64x500000, .f32⟩ : BufTy).Contents (Elt F) → (⟨S128x500000, .f32⟩ : BufTy).Contents (Elt F)),
    binary main_arg0 main_arg0 main_v3 (mulf : (⟨S128x64, .f32⟩ : BufTy).Contents (Elt F) → (⟨S128x64, .f32⟩ : BufTy).Contents (Elt F) → (⟨S128x64, .f32⟩ : BufTy).Contents (Elt F)),
    nullary main_cst (constant S_ .f32 0x00000000#32),
    binary main_v3 main_cst main_v4 ((fun x v => Host.reduceAdd x v reducesTo_S128x64_S128_d1 h_S_) : (⟨S128x64, .f32⟩ : BufTy).Contents (Elt F) → (⟨S_, .f32⟩ : BufTy).Contents (Elt F) → (⟨S128, .f32⟩ : BufTy).Contents (Elt F)),
    unary main_v4 main_v5 (broadcastInDim S128x1 ![0] bcast_S128_S128x1_0 : (⟨S128, .f32⟩ : BufTy).Contents (Elt F) → (⟨S128x1, .f32⟩ : BufTy).Contents (Elt F)),
    binary main_arg1 main_arg1 main_v6 (mulf : (⟨S500000x64, .f32⟩ : BufTy).Contents (Elt F) → (⟨S500000x64, .f32⟩ : BufTy).Contents (Elt F) → (⟨S500000x64, .f32⟩ : BufTy).Contents (Elt F)),
    nullary main_cst_0 (constant S_ .f32 0x00000000#32),
    binary main_v6 main_cst_0 main_v7 ((fun x v => Host.reduceAdd x v reducesTo_S500000x64_S500000_d1 h_S_) : (⟨S500000x64, .f32⟩ : BufTy).Contents (Elt F) → (⟨S_, .f32⟩ : BufTy).Contents (Elt F) → (⟨S500000, .f32⟩ : BufTy).Contents (Elt F)),
    unary main_v7 main_v8 (broadcastInDim S1x500000 ![1] bcast_S500000_S1x500000_1 : (⟨S500000, .f32⟩ : BufTy).Contents (Elt F) → (⟨S1x500000, .f32⟩ : BufTy).Contents (Elt F)),
    unary main_v5 main_v9 (broadcastInDim S128x500000 ![0, 1] bcast_S128x1_S128x500000_0_1 : (⟨S128x1, .f32⟩ : BufTy).Contents (Elt F) → (⟨S128x500000, .f32⟩ : BufTy).Contents (Elt F)),
    unary main_v8 main_v10 (broadcastInDim S128x500000 ![0, 1] bcast_S1x500000_S128x500000_0_1 : (⟨S1x500000, .f32⟩ : BufTy).Contents (Elt F) → (⟨S128x500000, .f32⟩ : BufTy).Contents (Elt F)),
    binary main_v9 main_v10 main_v11 (addf : (⟨S128x500000, .f32⟩ : BufTy).Contents (Elt F) → (⟨S128x500000, .f32⟩ : BufTy).Contents (Elt F) → (⟨S128x500000, .f32⟩ : BufTy).Contents (Elt F)),
    nullary main_cst_1 (constant S_ .f32 0x40000000#32),
    unary main_cst_1 main_v12 (broadcastInDim S128x500000 ![] bcast_S_S128x500000 : (⟨S_, .f32⟩ : BufTy).Contents (Elt F) → (⟨S128x500000, .f32⟩ : BufTy).Contents (Elt F)),
    binary main_v12 main_v2 main_v13 (mulf : (⟨S128x500000, .f32⟩ : BufTy).Contents (Elt F) → (⟨S128x500000, .f32⟩ : BufTy).Contents (Elt F) → (⟨S128x500000, .f32⟩ : BufTy).Contents (Elt F)),
    binary main_v11 main_v13 main_v14 (subf : (⟨S128x500000, .f32⟩ : BufTy).Contents (Elt F) → (⟨S128x500000, .f32⟩ : BufTy).Contents (Elt F) → (⟨S128x500000, .f32⟩ : BufTy).Contents (Elt F)),
    nullary main_cst_2 (constant S_ .f32 0x2B8CBCCC#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S128x500000, .f32⟩) main_call0_v1) (broadcastInDim S128x500000 ![] bcast_S_S128x500000),
    TRef.binary (TRef.of (T := ⟨S128x500000, .f32⟩) main_call0_v1) (TRef.of (T := ⟨S128x500000, .f32⟩) main_v14) (TRef.of (T := ⟨S128x500000, .f32⟩) main_v15) maximumf,
    unary main_v15 main_v16 (Host.sqrt : (⟨S128x500000, .f32⟩ : BufTy).Contents (Elt F) → (⟨S128x500000, .f32⟩ : BufTy).Contents (Elt F)) ]

abbrev ops2 : List (HloOp τ sig (Elt F)) :=
  [ nullary main_cst_3 (constant S_ .f32 0x00000000#32),
    unary main_cst_3 main_v17 (broadcastInDim S128x500000 ![] bcast_S_S128x500000 : (⟨S_, .f32⟩ : BufTy).Contents (Elt F) → (⟨S128x500000, .f32⟩ : BufTy).Contents (Elt F)),
    binary main_arg2 main_v17 main_v18 (cmpf .ogt : (⟨S128x500000, .f32⟩ : BufTy).Contents (Elt F) → (⟨S128x500000, .f32⟩ : BufTy).Contents (Elt F) → (⟨S128x500000, .i1⟩ : BufTy).Contents (Elt F)),
    nullary main_c (constantI S_ 32 0#32),
    unary main_c main_v19 (broadcastInDim S128 ![] bcast_S_S128 : (⟨S_, .i32⟩ : BufTy).Contents (Elt F) → (⟨S128, .i32⟩ : BufTy).Contents (Elt F)),
    binary main_v0 main_v19 main_v20 (cmpi .slt : (⟨S128, .i32⟩ : BufTy).Contents (Elt F) → (⟨S128, .i32⟩ : BufTy).Contents (Elt F) → (⟨S128, .i1⟩ : BufTy).Contents (Elt F)),
    nullary main_c_4 (constantI S_ 32 128#32),
    unary main_c_4 main_v21 (broadcastInDim S128 ![] bcast_S_S128 : (⟨S_, .i32⟩ : BufTy).Contents (Elt F) → (⟨S128, .i32⟩ : BufTy).Contents (Elt F)),
    binary main_v0 main_v21 main_v22 (addi : (⟨S128, .i32⟩ : BufTy).Contents (Elt F) → (⟨S128, .i32⟩ : BufTy).Contents (Elt F) → (⟨S128, .i32⟩ : BufTy).Contents (Elt F)),
    ternary main_v20 main_v22 main_v0 main_v23 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_c_5 (constantI S_ 32 0#32),
    unary main_c_5 main_v24 (broadcastInDim S128 ![] bcast_S_S128 : (⟨S_, .i32⟩ : BufTy).Contents (Elt F) → (⟨S128, .i32⟩ : BufTy).Contents (Elt F)),
    binary main_arg5 main_v24 main_v25 (cmpi .slt : (⟨S128, .i32⟩ : BufTy).Contents (Elt F) → (⟨S128, .i32⟩ : BufTy).Contents (Elt F) → (⟨S128, .i1⟩ : BufTy).Contents (Elt F)),
    nullary main_c_6 (constantI S_ 32 500000#32),
    unary main_c_6 main_v26 (broadcastInDim S128 ![] bcast_S_S128 : (⟨S_, .i32⟩ : BufTy).Contents (Elt F) → (⟨S128, .i32⟩ : BufTy).Contents (Elt F)),
    binary main_arg5 main_v26 main_v27 (addi : (⟨S128, .i32⟩ : BufTy).Contents (Elt F) → (⟨S128, .i32⟩ : BufTy).Contents (Elt F) → (⟨S128, .i32⟩ : BufTy).Contents (Elt F)),
    ternary main_v25 main_v27 main_arg5 main_v28 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v23 main_v29 (broadcastInDim S128x1 ![0] bcast_S128_S128x1_0 : (⟨S128, .i32⟩ : BufTy).Contents (Elt F) → (⟨S128x1, .i32⟩ : BufTy).Contents (Elt F)),
    unary main_v28 main_v30 (broadcastInDim S128x1 ![0] bcast_S128_S128x1_0 : (⟨S128, .i32⟩ : BufTy).Contents (Elt F) → (⟨S128x1, .i32⟩ : BufTy).Contents (Elt F)),
    binary main_v29 main_v30 main_v31 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    nullary main_c_7 (constantI S_ 1 0#1),
    unary main_c_7 main_v32 (broadcastInDim S128 ![] bcast_S_S128 : (⟨S_, .i1⟩ : BufTy).Contents (Elt F) → (⟨S128, .i1⟩ : BufTy).Contents (Elt F)),
    ternary main_v18 main_v31 main_v32 main_v33 ((fun x i u => Host.scatter scatter_S128x500000_S128x2_S128_n_01_01_1 (fun _ b => b) x i u) : (⟨S128x500000, .i1⟩ : BufTy).Contents (Elt F) → (⟨S128x2, .i32⟩ : BufTy).Contents (Elt F) → (⟨S128, .i1⟩ : BufTy).Contents (Elt F) → (⟨S128x500000, .i1⟩ : BufTy).Contents (Elt F)) ]

abbrev ops3 : List (HloOp τ sig (Elt F)) :=
  [ nullary main_cst_8 (constant S_ .f32 0x00000000#32),
    unary main_cst_8 main_v34 (broadcastInDim S128x500000 ![] bcast_S_S128x500000 : (⟨S_, .f32⟩ : BufTy).Contents (Elt F) → (⟨S128x500000, .f32⟩ : BufTy).Contents (Elt F)),
    binary main_arg2 main_v34 main_v35 (cmpf .ole : (⟨S128x500000, .f32⟩ : BufTy).Contents (Elt F) → (⟨S128x500000, .f32⟩ : BufTy).Contents (Elt F) → (⟨S128x500000, .i1⟩ : BufTy).Contents (Elt F)),
    nullary main_cst_9 (constant S_ .f32 0x41200000#32),
    unary main_cst_9 main_v36 (broadcastInDim S128x500000 ![] bcast_S_S128x500000 : (⟨S_, .f32⟩ : BufTy).Contents (Elt F) → (⟨S128x500000, .f32⟩ : BufTy).Contents (Elt F)),
    binary main_v16 main_v36 main_v37 (subf : (⟨S128x500000, .f32⟩ : BufTy).Contents (Elt F) → (⟨S128x500000, .f32⟩ : BufTy).Contents (Elt F) → (⟨S128x500000, .f32⟩ : BufTy).Contents (Elt F)),
    nullary main_cst_10 (constant S_ .f32 0x00000000#32),
    unary main_cst_10 main_v38 (broadcastInDim S128x500000 ![] bcast_S_S128x500000 : (⟨S_, .f32⟩ : BufTy).Contents (Elt F) → (⟨S128x500000, .f32⟩ : BufTy).Contents (Elt F)),
    binary main_v37 main_v38 main_v39 (maximumf : (⟨S128x500000, .f32⟩ : BufTy).Contents (Elt F) → (⟨S128x500000, .f32⟩ : BufTy).Contents (Elt F) → (⟨S128x500000, .f32⟩ : BufTy).Contents (Elt F)),
    nullary main_cst_11 (constant S_ .f32 0x00000000#32),
    TRef.unary (TRef.of (T := ⟨S_, .f32⟩) main_cst_11) (TRef.of (T := ⟨S_, .f32⟩) main_call1_v0) id,
    TRef.unary (TRef.of (T := ⟨S_, .f32⟩) main_call1_v0) (TRef.of (T := ⟨S128x500000, .f32⟩) main_call1_v1) (broadcastInDim S128x500000 ![] bcast_S_S128x500000),
    TRef.ternary (TRef.of (T := ⟨S128x500000, .i1⟩) main_v33) (TRef.of (T := ⟨S128x500000, .f32⟩) main_v39) (TRef.of (T := ⟨S128x500000, .f32⟩) main_call1_v1) (TRef.of (T := ⟨S128x500000, .f32⟩) main_v40) select,
    nullary main_cst_12 (constant S_ .f32 0x00000000#32),
    binary main_v40 main_cst_12 main_v41 ((fun x v => Host.reduceAdd x v reducesTo_S128x500000_S128_d1 h_S_) : (⟨S128x500000, .f32⟩ : BufTy).Contents (Elt F) → (⟨S_, .f32⟩ : BufTy).Contents (Elt F) → (⟨S128, .f32⟩ : BufTy).Contents (Elt F)),
    unary main_v33 main_v42 ((extui 32 · natLt_1_32) : (⟨S128x500000, .i1⟩ : BufTy).Contents (Elt F) → (⟨S128x500000, .i32⟩ : BufTy).Contents (Elt F)),
    nullary main_c_13 (constantI S_ 32 0#32),
    binary main_v42 main_c_13 main_v43 ((fun x v => Host.reduce IntOp.addi x v reducesTo_S128x500000_S128_d1 h_S_) : (⟨S128x500000, .i32⟩ : BufTy).Contents (Elt F) → (⟨S_, .i32⟩ : BufTy).Contents (Elt F) → (⟨S128, .i32⟩ : BufTy).Contents (Elt F)),
    nullary main_c_14 (constantI S_ 32 1#32),
    unary main_c_14 main_v44 (broadcastInDim S128 ![] bcast_S_S128 : (⟨S_, .i32⟩ : BufTy).Contents (Elt F) → (⟨S128, .i32⟩ : BufTy).Contents (Elt F)),
    binary main_v43 main_v44 main_v45 (maxsi : (⟨S128, .i32⟩ : BufTy).Contents (Elt F) → (⟨S128, .i32⟩ : BufTy).Contents (Elt F) → (⟨S128, .i32⟩ : BufTy).Contents (Elt F)),
    unary main_v45 main_v46 (sitofp .f32 : (⟨S128, .i32⟩ : BufTy).Contents (Elt F) → (⟨S128, .f32⟩ : BufTy).Contents (Elt F)),
    binary main_v41 main_v46 main_v47 (Host.divf : (⟨S128, .f32⟩ : BufTy).Contents (Elt F) → (⟨S128, .f32⟩ : BufTy).Contents (Elt F) → (⟨S128, .f32⟩ : BufTy).Contents (Elt F)) ]

abbrev ops4 : List (HloOp τ sig (Elt F)) :=
  [ nullary main_cst_15 (constant S_ .f32 0x41400000#32),
    unary main_cst_15 main_v48 (broadcastInDim S128x500000 ![] bcast_S_S128x500000 : (⟨S_, .f32⟩ : BufTy).Contents (Elt F) → (⟨S128x500000, .f32⟩ : BufTy).Contents (Elt F)),
    binary main_v48 main_v16 main_v49 (subf : (⟨S128x500000, .f32⟩ : BufTy).Contents (Elt F) → (⟨S128x500000, .f32⟩ : BufTy).Contents (Elt F) → (⟨S128x500000, .f32⟩ : BufTy).Contents (Elt F)),
    nullary main_cst_16 (constant S_ .f32 0x41400000#32),
    unary main_cst_16 main_v50 (broadcastInDim S128x500000 ![] bcast_S_S128x500000 : (⟨S_, .f32⟩ : BufTy).Contents (Elt F) → (⟨S128x500000, .f32⟩ : BufTy).Contents (Elt F)),
    binary main_v16 main_v50 main_v51 (cmpf .olt : (⟨S128x500000, .f32⟩ : BufTy).Contents (Elt F) → (⟨S128x500000, .f32⟩ : BufTy).Contents (Elt F) → (⟨S128x500000, .i1⟩ : BufTy).Contents (Elt F)),
    binary main_v35 main_v51 main_v52 (andi : (⟨S128x500000, .i1⟩ : BufTy).Contents (Elt F) → (⟨S128x500000, .i1⟩ : BufTy).Contents (Elt F) → (⟨S128x500000, .i1⟩ : BufTy).Contents (Elt F)),
    nullary main_cst_17 (constant S_ .f32 0x3F000000#32),
    unary main_cst_17 main_v53 (broadcastInDim S128x500000 ![] bcast_S_S128x500000 : (⟨S_, .f32⟩ : BufTy).Contents (Elt F) → (⟨S128x500000, .f32⟩ : BufTy).Contents (Elt F)),
    binary main_v53 main_v49 main_v54 (mulf : (⟨S128x500000, .f32⟩ : BufTy).Contents (Elt F) → (⟨S128x500000, .f32⟩ : BufTy).Contents (Elt F) → (⟨S128x500000, .f32⟩ : BufTy).Contents (Elt F)),
    unary main_v54 main_v55 (Host.exp : (⟨S128x500000, .f32⟩ : BufTy).Contents (Elt F) → (⟨S128x500000, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S128x500000, .f32⟩) main_call2_v1) (broadcastInDim S128x500000 ![] bcast_S_S128x500000),
    TRef.ternary (TRef.of (T := ⟨S128x500000, .i1⟩) main_v52) (TRef.of (T := ⟨S128x500000, .f32⟩) main_v55) (TRef.of (T := ⟨S128x500000, .f32⟩) main_call2_v1) (TRef.of (T := ⟨S128x500000, .f32⟩) main_v56) select ]

abbrev ops5 : List (HloOp τ sig (Elt F)) :=
  [ binary main_v56 main_v49 main_v57 (mulf : (⟨S128x500000, .f32⟩ : BufTy).Contents (Elt F) → (⟨S128x500000, .f32⟩ : BufTy).Contents (Elt F) → (⟨S128x500000, .f32⟩ : BufTy).Contents (Elt F)),
    nullary main_cst_19 (constant S_ .f32 0x00000000#32),
    binary main_v57 main_cst_19 main_v58 ((fun x v => Host.reduceAdd x v reducesTo_S128x500000_S128_d1 h_S_) : (⟨S128x500000, .f32⟩ : BufTy).Contents (Elt F) → (⟨S_, .f32⟩ : BufTy).Contents (Elt F) → (⟨S128, .f32⟩ : BufTy).Contents (Elt F)),
    nullary main_cst_20 (constant S_ .f32 0x00000000#32),
    binary main_v56 main_cst_20 main_v59 ((fun x v => Host.reduceAdd x v reducesTo_S128x500000_S128_d1 h_S_) : (⟨S128x500000, .f32⟩ : BufTy).Contents (Elt F) → (⟨S_, .f32⟩ : BufTy).Contents (Elt F) → (⟨S128, .f32⟩ : BufTy).Contents (Elt F)),
    nullary main_cst_21 (constant S_ .f32 0x2B8CBCCC#32),
    unary main_cst_21 main_v60 (broadcastInDim S128 ![] bcast_S_S128 : (⟨S_, .f32⟩ : BufTy).Contents (Elt F) → (⟨S128, .f32⟩ : BufTy).Contents (Elt F)),
    binary main_v59 main_v60 main_v61 (addf : (⟨S128, .f32⟩ : BufTy).Contents (Elt F) → (⟨S128, .f32⟩ : BufTy).Contents (Elt F) → (⟨S128, .f32⟩ : BufTy).Contents (Elt F)),
    binary main_v58 main_v61 main_v62 (Host.divf : (⟨S128, .f32⟩ : BufTy).Contents (Elt F) → (⟨S128, .f32⟩ : BufTy).Contents (Elt F) → (⟨S128, .f32⟩ : BufTy).Contents (Elt F)),
    nullary main_cst_22 (constant S_ .f32 0x3F800000#32),
    unary main_cst_22 main_v63 (broadcastInDim S128 ![] bcast_S_S128 : (⟨S_, .f32⟩ : BufTy).Contents (Elt F) → (⟨S128, .f32⟩ : BufTy).Contents (Elt F)),
    binary main_v63 main_v62 main_v64 (mulf : (⟨S128, .f32⟩ : BufTy).Contents (Elt F) → (⟨S128, .f32⟩ : BufTy).Contents (Elt F) → (⟨S128, .f32⟩ : BufTy).Contents (Elt F)),
    binary main_v47 main_v64 main_v65 (addf : (⟨S128, .f32⟩ : BufTy).Contents (Elt F) → (⟨S128, .f32⟩ : BufTy).Contents (Elt F) → (⟨S128, .f32⟩ : BufTy).Contents (Elt F)),
    nullary main_cst_23 (constant S_ .f32 0x00000000#32),
    binary main_v65 main_cst_23 main_v66 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_24 (constant S_ .f32 0x43000000#32),
    binary main_v66 main_cst_24 main_v67 (Host.divf : (⟨S_, .f32⟩ : BufTy).Contents (Elt F) → (⟨S_, .f32⟩ : BufTy).Contents (Elt F) → (⟨S_, .f32⟩ : BufTy).Contents (Elt F)) ]

abbrev ops6 : List (HloOp τ sig (Elt F)) :=
  [ nullary main_cst_25 (constant S_ .f32 0x42800000#32),
    unary main_cst_25 main_v68 (broadcastInDim S128x500000 ![] bcast_S_S128x500000 : (⟨S_, .f32⟩ : BufTy).Contents (Elt F) → (⟨S128x500000, .f32⟩ : BufTy).Contents (Elt F)),
    binary main_v68 main_arg2 main_v69 (mulf : (⟨S128x500000, .f32⟩ : BufTy).Contents (Elt F) → (⟨S128x500000, .f32⟩ : BufTy).Contents (Elt F) → (⟨S128x500000, .f32⟩ : BufTy).Contents (Elt F)),
    binary main_v2 main_v69 main_v70 (subf : (⟨S128x500000, .f32⟩ : BufTy).Contents (Elt F) → (⟨S128x500000, .f32⟩ : BufTy).Contents (Elt F) → (⟨S128x500000, .f32⟩ : BufTy).Contents (Elt F)),
    binary main_v70 main_v70 main_v71 (mulf : (⟨S128x500000, .f32⟩ : BufTy).Contents (Elt F) → (⟨S128x500000, .f32⟩ : BufTy).Contents (Elt F) → (⟨S128x500000, .f32⟩ : BufTy).Contents (Elt F)),
    nullary main_cst_26 (constant S_ .f32 0x00000000#32),
    binary main_v71 main_cst_26 main_v72 ((fun x v => Host.reduceAdd x v reducesTo_S128x500000_S_d0_1 h_S_) : (⟨S128x500000, .f32⟩ : BufTy).Contents (Elt F) → (⟨S_, .f32⟩ : BufTy).Contents (Elt F) → (⟨S_, .f32⟩ : BufTy).Contents (Elt F)),
    nullary main_cst_27 (constant S_ .f32 0x4C742400#32),
    binary main_v72 main_cst_27 main_v73 (Host.divf : (⟨S_, .f32⟩ : BufTy).Contents (Elt F) → (⟨S_, .f32⟩ : BufTy).Contents (Elt F) → (⟨S_, .f32⟩ : BufTy).Contents (Elt F)),
    binary main_arg4 main_arg0 main_v74 (subf : (⟨S128x64, .f32⟩ : BufTy).Contents (Elt F) → (⟨S128x64, .f32⟩ : BufTy).Contents (Elt F) → (⟨S128x64, .f32⟩ : BufTy).Contents (Elt F)),
    binary main_v74 main_v74 main_v75 (mulf : (⟨S128x64, .f32⟩ : BufTy).Contents (Elt F) → (⟨S128x64, .f32⟩ : BufTy).Contents (Elt F) → (⟨S128x64, .f32⟩ : BufTy).Contents (Elt F)),
    nullary main_cst_28 (constant S_ .f32 0x00000000#32),
    binary main_v75 main_cst_28 main_v76 ((fun x v => Host.reduceAdd x v reducesTo_S128x64_S_d0_1 h_S_) : (⟨S128x64, .f32⟩ : BufTy).Contents (Elt F) → (⟨S_, .f32⟩ : BufTy).Contents (Elt F) → (⟨S_, .f32⟩ : BufTy).Contents (Elt F)),
    nullary main_cst_29 (constant S_ .f32 0x46000000#32),
    binary main_v76 main_cst_29 main_v77 (Host.divf : (⟨S_, .f32⟩ : BufTy).Contents (Elt F) → (⟨S_, .f32⟩ : BufTy).Contents (Elt F) → (⟨S_, .f32⟩ : BufTy).Contents (Elt F)),
    nullary main_cst_30 (constant S_ .f32 0x3F800000#32),
    binary main_cst_30 main_v67 main_v78 (mulf : (⟨S_, .f32⟩ : BufTy).Contents (Elt F) → (⟨S_, .f32⟩ : BufTy).Contents (Elt F) → (⟨S_, .f32⟩ : BufTy).Contents (Elt F)),
    nullary main_cst_31 (constant S_ .f32 0x3F800000#32),
    binary main_cst_31 main_v73 main_v79 (mulf : (⟨S_, .f32⟩ : BufTy).Contents (Elt F) → (⟨S_, .f32⟩ : BufTy).Contents (Elt F) → (⟨S_, .f32⟩ : BufTy).Contents (Elt F)),
    binary main_v78 main_v79 main_v80 (addf : (⟨S_, .f32⟩ : BufTy).Contents (Elt F) → (⟨S_, .f32⟩ : BufTy).Contents (Elt F) → (⟨S_, .f32⟩ : BufTy).Contents (Elt F)),
    nullary main_cst_32 (constant S_ .f32 0x43480000#32),
    binary main_cst_32 main_v77 main_v81 (mulf : (⟨S_, .f32⟩ : BufTy).Contents (Elt F) → (⟨S_, .f32⟩ : BufTy).Contents (Elt F) → (⟨S_, .f32⟩ : BufTy).Contents (Elt F)),
    binary main_v80 main_v81 main_v82 (addf : (⟨S_, .f32⟩ : BufTy).Contents (Elt F) → (⟨S_, .f32⟩ : BufTy).Contents (Elt F) → (⟨S_, .f32⟩ : BufTy).Contents (Elt F)) ]

abbrev ops7 : List (HloOp τ sig (Elt F)) :=
  [ nullary main_cst_33 (constant S_ .f32 0x41200000#32),
    unary main_cst_33 main_v83 (broadcastInDim S128x500000 ![] bcast_S_S128x500000 : (⟨S_, .f32⟩ : BufTy).Contents (Elt F) → (⟨S128x500000, .f32⟩ : BufTy).Contents (Elt F)),
    binary main_v16 main_v83 main_v84 (cmpf .ogt : (⟨S128x500000, .f32⟩ : BufTy).Contents (Elt F) → (⟨S128x500000, .f32⟩ : BufTy).Contents (Elt F) → (⟨S128x500000, .i1⟩ : BufTy).Contents (Elt F)),
    binary main_v33 main_v84 main_v85 (andi : (⟨S128x500000, .i1⟩ : BufTy).Contents (Elt F) → (⟨S128x500000, .i1⟩ : BufTy).Contents (Elt F) → (⟨S128x500000, .i1⟩ : BufTy).Contents (Elt F)),
    unary main_v85 main_v86 (uitofp .f32 : (⟨S128x500000, .i1⟩ : BufTy).Contents (Elt F) → (⟨S128x500000, .f32⟩ : BufTy).Contents (Elt F)),
    nullary main_cst_34 (constant S_ .f32 0x3F000000#32),
    unary main_cst_34 main_v87 (broadcastInDim S128x500000 ![] bcast_S_S128x500000 : (⟨S_, .f32⟩ : BufTy).Contents (Elt F) → (⟨S128x500000, .f32⟩ : BufTy).Contents (Elt F)),
    binary main_v87 main_v49 main_v88 (mulf : (⟨S128x500000, .f32⟩ : BufTy).Contents (Elt F) → (⟨S128x500000, .f32⟩ : BufTy).Contents (Elt F) → (⟨S128x500000, .f32⟩ : BufTy).Contents (Elt F)),
    unary main_v88 main_v89 (Host.exp : (⟨S128x500000, .f32⟩ : BufTy).Contents (Elt F) → (⟨S128x500000, .f32⟩ : BufTy).Contents (Elt F)),
    unary main_v52 main_v90 (uitofp .f32 : (⟨S128x500000, .i1⟩ : BufTy).Contents (Elt F) → (⟨S128x500000, .f32⟩ : BufTy).Contents (Elt F)),
    binary main_v89 main_v90 main_v91 (mulf : (⟨S128x500000, .f32⟩ : BufTy).Contents (Elt F) → (⟨S128x500000, .f32⟩ : BufTy).Contents (Elt F) → (⟨S128x500000, .f32⟩ : BufTy).Contents (Elt F)),
    nullary main_cst_35 (constant S_ .f32 0x00000000#32),
    binary main_v91 main_cst_35 main_v92 ((fun x v => Host.reduceAdd x v reducesTo_S128x500000_S128_d1 h_S_) : (⟨S128x500000, .f32⟩ : BufTy).Contents (Elt F) → (⟨S_, .f32⟩ : BufTy).Contents (Elt F) → (⟨S128, .f32⟩ : BufTy).Contents (Elt F)),
    unary main_v92 main_v93 (broadcastInDim S128x1 ![0] bcast_S128_S128x1_0 : (⟨S128, .f32⟩ : BufTy).Contents (Elt F) → (⟨S128x1, .f32⟩ : BufTy).Contents (Elt F)),
    nullary main_cst_36 (constant S_ .f32 0x2B8CBCCC#32),
    unary main_cst_36 main_v94 (broadcastInDim S128x1 ![] bcast_S_S128x1 : (⟨S_, .f32⟩ : BufTy).Contents (Elt F) → (⟨S128x1, .f32⟩ : BufTy).Contents (Elt F)),
    binary main_v93 main_v94 main_v95 (addf : (⟨S128x1, .f32⟩ : BufTy).Contents (Elt F) → (⟨S128x1, .f32⟩ : BufTy).Contents (Elt F) → (⟨S128x1, .f32⟩ : BufTy).Contents (Elt F)),
    unary main_v95 main_v96 (broadcastInDim S128x500000 ![0, 1] bcast_S128x1_S128x500000_0_1 : (⟨S128x1, .f32⟩ : BufTy).Contents (Elt F) → (⟨S128x500000, .f32⟩ : BufTy).Contents (Elt F)),
    binary main_v91 main_v96 main_v97 (Host.divf : (⟨S128x500000, .f32⟩ : BufTy).Contents (Elt F) → (⟨S128x500000, .f32⟩ : BufTy).Contents (Elt F) → (⟨S128x500000, .f32⟩ : BufTy).Contents (Elt F)),
    unary main_v97 main_v98 (Host.negf : (⟨S128x500000, .f32⟩ : BufTy).Contents (Elt F) → (⟨S128x500000, .f32⟩ : BufTy).Contents (Elt F)),
    binary main_v98 main_v86 main_v99 (addf : (⟨S128x500000, .f32⟩ : BufTy).Contents (Elt F) → (⟨S128x500000, .f32⟩ : BufTy).Contents (Elt F) → (⟨S128x500000, .f32⟩ : BufTy).Contents (Elt F)) ]

/-- The operation list is the seven stretches in order. -/
theorem ops_split : (ops : List (HloOp τ sig (Elt F))) = ops1 ++ (ops2 ++ (ops3 ++ (ops4 ++ (ops5 ++ (ops6 ++ ops7))))) := rfl

/-- The contents after two lists run one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-! ## What each stretch leaves -/

variable (x0 : (⟨S128x64, .f32⟩ : BufTy).Contents (Elt F)) (x1 : (⟨S500000x64, .f32⟩ : BufTy).Contents (Elt F)) (x2 : (⟨S128x500000, .f32⟩ : BufTy).Contents (Elt F)) (x3 : (⟨S128x128, .f32⟩ : BufTy).Contents (Elt F)) (x4 : (⟨S128x64, .f32⟩ : BufTy).Contents (Elt F)) (x5 : (⟨S128, .i32⟩ : BufTy).Contents (Elt F))

/-- The argument arrays are at the given contents. -/
def Args (W : Valuation τ sig (Elt F)) : Prop :=
  W (Proc.devRef .tc main_arg0) = x0 ∧ W (Proc.devRef .tc main_arg1) = x1 ∧ W (Proc.devRef .tc main_arg2) = x2
  ∧ W (Proc.devRef .tc main_arg3) = x3 ∧ W (Proc.devRef .tc main_arg4) = x4 ∧ W (Proc.devRef .tc main_arg5) = x5

/-- What the buffers read later hold after stretch 1. -/
def Inv1 (W : Valuation τ sig (Elt F)) : Prop :=
  Args x0 x1 x2 x3 x4 x5 W
  ∧ W (Proc.devRef .tc main_v0) = val_main_v0 (F := F)
  ∧ W (Proc.devRef .tc main_v2) = val_main_v2 (F := F) x0 x1
  ∧ W (Proc.devRef .tc main_v16) = val_main_v16 (F := F) x0 x1

/-- What the buffers read later hold after stretch 2. -/
def Inv2 (W : Valuation τ sig (Elt F)) : Prop :=
  Args x0 x1 x2 x3 x4 x5 W
  ∧ W (Proc.devRef .tc main_v2) = val_main_v2 (F := F) x0 x1
  ∧ W (Proc.devRef .tc main_v16) = val_main_v16 (F := F) x0 x1
  ∧ W (Proc.devRef .tc main_v33) = val_main_v33 (F := F) x2 x5

/-- What the buffers read later hold after stretch 3. -/
def Inv3 (W : Valuation τ sig (Elt F)) : Prop :=
  Args x0 x1 x2 x3 x4 x5 W
  ∧ W (Proc.devRef .tc main_v2) = val_main_v2 (F := F) x0 x1
  ∧ W (Proc.devRef .tc main_v16) = val_main_v16 (F := F) x0 x1
  ∧ W (Proc.devRef .tc main_v33) = val_main_v33 (F := F) x2 x5
  ∧ W (Proc.devRef .tc main_v35) = val_main_v35 (F := F) x2
  ∧ W (Proc.devRef .tc main_v47) = val_main_v47 (F := F) x0 x1 x2 x5

/-- What the buffers read later hold after stretch 4. -/
def Inv4 (W : Valuation τ sig (Elt F)) : Prop :=
  Args x0 x1 x2 x3 x4 x5 W
  ∧ W (Proc.devRef .tc main_v2) = val_main_v2 (F := F) x0 x1
  ∧ W (Proc.devRef .tc main_v16) = val_main_v16 (F := F) x0 x1
  ∧ W (Proc.devRef .tc main_v33) = val_main_v33 (F := F) x2 x5
  ∧ W (Proc.devRef .tc main_v47) = val_main_v47 (F := F) x0 x1 x2 x5
  ∧ W (Proc.devRef .tc main_v49) = val_main_v49 (F := F) x0 x1
  ∧ W (Proc.devRef .tc main_v52) = val_main_v52 (F := F) x0 x1 x2
  ∧ W (Proc.devRef .tc main_v56) = val_main_v56 (F := F) x0 x1 x2

/-- What the buffers read later hold after stretch 5. -/
def Inv5 (W : Valuation τ sig (Elt F)) : Prop :=
  Args x0 x1 x2 x3 x4 x5 W
  ∧ W (Proc.devRef .tc main_v2) = val_main_v2 (F := F) x0 x1
  ∧ W (Proc.devRef .tc main_v16) = val_main_v16 (F := F) x0 x1
  ∧ W (Proc.devRef .tc main_v33) = val_main_v33 (F := F) x2 x5
  ∧ W (Proc.devRef .tc main_v49) = val_main_v49 (F := F) x0 x1
  ∧ W (Proc.devRef .tc main_v52) = val_main_v52 (F := F) x0 x1 x2
  ∧ W (Proc.devRef .tc main_v67) = val_main_v67 (F := F) x0 x1 x2 x5

/-- What the buffers read later hold after stretch 6. -/
def Inv6 (W : Valuation τ sig (Elt F)) : Prop :=
  Args x0 x1 x2 x3 x4 x5 W
  ∧ W (Proc.devRef .tc main_v16) = val_main_v16 (F := F) x0 x1
  ∧ W (Proc.devRef .tc main_v33) = val_main_v33 (F := F) x2 x5
  ∧ W (Proc.devRef .tc main_v49) = val_main_v49 (F := F) x0 x1
  ∧ W (Proc.devRef .tc main_v52) = val_main_v52 (F := F) x0 x1 x2
  ∧ W (Proc.devRef .tc main_v82) = val_main_v82 (F := F) x0 x1 x2 x4 x5

/-- What the buffers read later hold after stretch 7. -/
def Inv7 (W : Valuation τ sig (Elt F)) : Prop :=
  Args x0 x1 x2 x3 x4 x5 W
  ∧ W (Proc.devRef .tc main_v82) = val_main_v82 (F := F) x0 x1 x2 x4 x5
  ∧ W (Proc.devRef .tc main_v99) = val_main_v99 (F := F) x0 x1 x2 x5

end Cert.ReferenceIdeal.RefRun

end
-- ==== Proof.RefRunA.lean ====
/-
  The reference's first two stretches: the inner products, the squared norms and the distances; then the index
  arithmetic and the scatter that strikes each row's own column out of the positive mask.
-/
import proofs.«404421_j35442070126796_1_alg».proof.Proof.RefRunDefs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

variable (x0 : (⟨S128x64, .f32⟩ : BufTy).Contents (Elt F)) (x1 : (⟨S500000x64, .f32⟩ : BufTy).Contents (Elt F)) (x2 : (⟨S128x500000, .f32⟩ : BufTy).Contents (Elt F)) (x3 : (⟨S128x128, .f32⟩ : BufTy).Contents (Elt F)) (x4 : (⟨S128x64, .f32⟩ : BufTy).Contents (Elt F)) (x5 : (⟨S128, .i32⟩ : BufTy).Contents (Elt F))

/-- A buffer that none of a stretch's operations writes holds after the stretch what it held before: every
    operation writes one buffer, and that buffer is another one. -/
local macro "not_written" : tactic =>
  `(tactic| (refine StableHlo.after_of_forall_not_mem _ _ (List.forall_iff_forall_mem.mp ?_)
             simp only [ops1, ops2, List.Forall, StableHlo.nullary_writes, StableHlo.unary_writes, StableHlo.binary_writes,
               StableHlo.ternary_writes, Finset.mem_singleton]
             repeat' apply And.intro
             all_goals exact StableHlo.devRef_ne_of_ne (by decide)))

/-- Stretch 1 writes none of the six arguments; the row counter, the inner products and the distances end at
    their stages: each is its operation applied to the stages before it, read off the operations in order. -/
theorem step1 (W : Valuation τ sig (Elt F)) (h : Args x0 x1 x2 x3 x4 x5 W) : Inv1 x0 x1 x2 x3 x4 x5 (after ops1 W) := by
  obtain ⟨a0, a1, a2, a3, a4, a5⟩ := h
  refine ⟨⟨?_, ?_, ?_, ?_, ?_, ?_⟩, ?_, ?_, ?_⟩
  · exact Eq.trans (by not_written) a0
  · exact Eq.trans (by not_written) a1
  · exact Eq.trans (by not_written) a2
  · exact Eq.trans (by not_written) a3
  · exact Eq.trans (by not_written) a4
  · exact Eq.trans (by not_written) a5
  · show after ops1 W (Proc.devRef .tc main_v0) = _
    after_results
    rfl
  · show after ops1 W (Proc.devRef .tc main_v2) = _
    after_results
    rw [a0, a1]
    rfl
  · show after ops1 W (Proc.devRef .tc main_v16) = _
    after_results
    rw [a0, a1]
    simp only [TRef.ofBuf, TRef.toBuf, cast_eq]
    rfl

-- The scatter stays an applied term in what follows: nothing below reads it at an index.
attribute [local irreducible] Host.scatter

set_option maxHeartbeats 1000000 in
/-- Stretch 2 writes none of the arguments, nor the inner products, nor the distances; the positive mask with the
    own columns struck out ends at its stage: the scatter applied to the mask, the joined index pairs and the
    constant, none of them evaluated. -/
theorem step2 (W : Valuation τ sig (Elt F)) (h : Inv1 x0 x1 x2 x3 x4 x5 W) : Inv2 x0 x1 x2 x3 x4 x5 (after ops2 W) := by
  obtain ⟨⟨a0, a1, a2, a3, a4, a5⟩, h0, h2, h16⟩ := h
  refine ⟨⟨?_, ?_, ?_, ?_, ?_, ?_⟩, ?_, ?_, ?_⟩
  · exact Eq.trans (by not_written) a0
  · exact Eq.trans (by not_written) a1
  · exact Eq.trans (by not_written) a2
  · exact Eq.trans (by not_written) a3
  · exact Eq.trans (by not_written) a4
  · exact Eq.trans (by not_written) a5
  · exact Eq.trans (by not_written) h2
  · exact Eq.trans (by not_written) h16
  · show after ops2 W (Proc.devRef .tc main_v33) = _
    after_results
    rw [a2, a5, h0]
    rfl

end Cert.ReferenceIdeal.RefRun

end
-- ==== Proof.RefRunB.lean ====
/-
  The reference's middle stretches: the margin sum and the count of positives per row; the active-negative mask and
  the weights; the weighted sums and the mean over the rows.
-/
import proofs.«404421_j35442070126796_1_alg».proof.Proof.RefRunDefs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

variable (x0 : (⟨S128x64, .f32⟩ : BufTy).Contents (Elt F)) (x1 : (⟨S500000x64, .f32⟩ : BufTy).Contents (Elt F)) (x2 : (⟨S128x500000, .f32⟩ : BufTy).Contents (Elt F)) (x3 : (⟨S128x128, .f32⟩ : BufTy).Contents (Elt F)) (x4 : (⟨S128x64, .f32⟩ : BufTy).Contents (Elt F)) (x5 : (⟨S128, .i32⟩ : BufTy).Contents (Elt F))

/-- A buffer that no operation of stretch 3 writes keeps its contents. -/
local macro "keep3" : tactic => `(tactic|
  refine (StableHlo.after_of_forall_not_mem _ _ (List.forall_iff_forall_mem.mp (by
      simp only [ops3, List.Forall, StableHlo.nullary_writes, StableHlo.unary_writes, StableHlo.binary_writes,
        StableHlo.ternary_writes, Finset.mem_singleton]
      repeat' apply And.intro
      all_goals exact StableHlo.devRef_ne_of_ne (by decide)))).trans ?_)

set_option maxHeartbeats 1000000 in
/-- Stretch 3: the test S <= 0; the margin terms max (dist - 10) 0 kept on the positive pairs, their row sums; the positive
    mask widened to words, its integer row sums, their maximum with the word 1 read as a float; the quotient. -/
theorem step3 (W : Valuation τ sig (Elt F)) (h : Inv2 x0 x1 x2 x3 x4 x5 W) : Inv3 x0 x1 x2 x3 x4 x5 (after ops3 W) := by
  obtain ⟨⟨a0, a1, a2, a3, a4, a5⟩, h2, h16, h33⟩ := h
  unfold Inv3 Args
  refine ⟨⟨?_, ?_, ?_, ?_, ?_, ?_⟩, ?_, ?_, ?_, ?_, ?_⟩
  · keep3; exact a0
  · keep3; exact a1
  · keep3; exact a2
  · keep3; exact a3
  · keep3; exact a4
  · keep3; exact a5
  · keep3; exact h2
  · keep3; exact h16
  · keep3; exact h33
  · show after ops3 W (Proc.devRef .tc main_v35) = _
    simp only [ops3]
    after_results
    rw [a2]
    rfl
  · show after ops3 W (Proc.devRef .tc main_v47) = _
    simp only [ops3]
    after_results
    rw [h16, h33]
    simp only [TRef.ofBuf, TRef.toBuf, cast_eq]
    rfl

/-- A buffer that no operation of stretch 4 writes keeps its contents. -/
local macro "keep4" : tactic => `(tactic|
  refine (StableHlo.after_of_forall_not_mem _ _ (List.forall_iff_forall_mem.mp (by
      simp only [ops4, List.Forall, StableHlo.nullary_writes, StableHlo.unary_writes, StableHlo.binary_writes,
        StableHlo.ternary_writes, Finset.mem_singleton]
      repeat' apply And.intro
      all_goals exact StableHlo.devRef_ne_of_ne (by decide)))).trans ?_)

set_option maxHeartbeats 1000000 in
/-- Stretch 4: 12 - dist; the test dist < 12 and its conjunction with S <= 0; exp ((12 - dist) / 2) kept on the active
    negatives. -/
theorem step4 (W : Valuation τ sig (Elt F)) (h : Inv3 x0 x1 x2 x3 x4 x5 W) : Inv4 x0 x1 x2 x3 x4 x5 (after ops4 W) := by
  obtain ⟨⟨a0, a1, a2, a3, a4, a5⟩, h2, h16, h33, h35, h47⟩ := h
  unfold Inv4 Args
  refine ⟨⟨?_, ?_, ?_, ?_, ?_, ?_⟩, ?_, ?_, ?_, ?_, ?_, ?_, ?_⟩
  · keep4; exact a0
  · keep4; exact a1
  · keep4; exact a2
  · keep4; exact a3
  · keep4; exact a4
  · keep4; exact a5
  · keep4; exact h2
  · keep4; exact h16
  · keep4; exact h33
  · keep4; exact h47
  · show after ops4 W (Proc.devRef .tc main_v49) = _
    simp only [ops4]
    after_results
    rw [h16]
    rfl
  · show after ops4 W (Proc.devRef .tc main_v52) = _
    simp only [ops4]
    after_results
    rw [h16, h35]
    rfl
  · show after ops4 W (Proc.devRef .tc main_v56) = _
    simp only [ops4]
    after_results
    rw [h16, h35]
    rfl

/-- A buffer that no operation of stretch 5 writes keeps its contents. -/
local macro "keep5" : tactic => `(tactic|
  refine (StableHlo.after_of_forall_not_mem _ _ (List.forall_iff_forall_mem.mp (by
      simp only [ops5, List.Forall, StableHlo.nullary_writes, StableHlo.unary_writes, StableHlo.binary_writes,
        StableHlo.ternary_writes, Finset.mem_singleton]
      repeat' apply And.intro
      all_goals exact StableHlo.devRef_ne_of_ne (by decide)))).trans ?_)

set_option maxHeartbeats 1000000 in
/-- Stretch 5: the row sums of the weights and of the weights times 12 - dist, their quotient (the weight sum plus eps),
    once; the two terms of a row added; the sum over the rows, divided by 128. -/
theorem step5 (W : Valuation τ sig (Elt F)) (h : Inv4 x0 x1 x2 x3 x4 x5 W) : Inv5 x0 x1 x2 x3 x4 x5 (after ops5 W) := by
  obtain ⟨⟨a0, a1, a2, a3, a4, a5⟩, h2, h16, h33, h47, h49, h52, h56⟩ := h
  unfold Inv5 Args
  refine ⟨⟨?_, ?_, ?_, ?_, ?_, ?_⟩, ?_, ?_, ?_, ?_, ?_, ?_⟩
  · keep5; exact a0
  · keep5; exact a1
  · keep5; exact a2
  · keep5; exact a3
  · keep5; exact a4
  · keep5; exact a5
  · keep5; exact h2
  · keep5; exact h16
  · keep5; exact h33
  · keep5; exact h49
  · keep5; exact h52
  · show after ops5 W (Proc.devRef .tc main_v67) = _
    simp only [ops5]
    after_results
    rw [h56, h49, h47]
    rfl

end Cert.ReferenceIdeal.RefRun

end
-- ==== Proof.RefRunC.lean ====
/-
  The reference's last stretches: the square and quantisation terms and the loss; then the weight matrix.
  Each stretch leaves the argument arrays and the buffers it does not write as they were, and the buffers it writes
  at the operations' results applied, in program order, to what the stretch before left.
-/
import proofs.«404421_j35442070126796_1_alg».proof.Proof.RefRunDefs

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

variable (x0 : (⟨S128x64, .f32⟩ : BufTy).Contents (Elt F)) (x1 : (⟨S500000x64, .f32⟩ : BufTy).Contents (Elt F)) (x2 : (⟨S128x500000, .f32⟩ : BufTy).Contents (Elt F)) (x3 : (⟨S128x128, .f32⟩ : BufTy).Contents (Elt F)) (x4 : (⟨S128x64, .f32⟩ : BufTy).Contents (Elt F)) (x5 : (⟨S128, .i32⟩ : BufTy).Contents (Elt F))

/-- A buffer that no operation of the sixth stretch writes keeps its contents. -/
theorem keep6 (W : Valuation τ sig (Elt F)) {r : Ref sig .tc}
    (hr : r ∉ [main_cst_25, main_v68, main_v69, main_v70, main_v71, main_cst_26, main_v72, main_cst_27, main_v73, main_v74,
      main_v75, main_cst_28, main_v76, main_cst_29, main_v77, main_cst_30, main_v78, main_cst_31, main_v79, main_v80,
      main_cst_32, main_v81, main_v82]) :
    after (ops6 (F := F)) W (Proc.devRef .tc r) = W (Proc.devRef .tc r) := by
  refine StableHlo.after_of_writes_sub (ops6 (F := F)) W ?_ hr
  simp only [ops6, List.Forall, StableHlo.nullary_writes, StableHlo.unary_writes, StableHlo.binary_writes]
  decide

/-- The sixth stretch: the squares' total over 6.4e7, the total of (V_omega_u - u)^2 over 8192, and the loss. -/
theorem step6 (W : Valuation τ sig (Elt F)) (h : Inv5 x0 x1 x2 x3 x4 x5 W) : Inv6 x0 x1 x2 x3 x4 x5 (after ops6 W) := by
  obtain ⟨⟨a0, a1, a2, a3, a4, a5⟩, h2, h16, h33, h49, h52, h67⟩ := h
  unfold Inv6 Args
  refine ⟨⟨?_, ?_, ?_, ?_, ?_, ?_⟩, ?_, ?_, ?_, ?_, ?_⟩
  · exact (keep6 W (by decide)).trans a0
  · exact (keep6 W (by decide)).trans a1
  · exact (keep6 W (by decide)).trans a2
  · exact (keep6 W (by decide)).trans a3
  · exact (keep6 W (by decide)).trans a4
  · exact (keep6 W (by decide)).trans a5
  · exact (keep6 W (by decide)).trans h16
  · exact (keep6 W (by decide)).trans h33
  · exact (keep6 W (by decide)).trans h49
  · exact (keep6 W (by decide)).trans h52
  · show after (ops6 (F := F)) W (Proc.devRef .tc main_v82) = _
    dsimp only [ops6]
    after_results_simp
    rw [a0, a2, a4, h2, h67]
    unfold val_main_v82 val_main_v81 val_main_v80 val_main_v79 val_main_v78 val_main_v77 val_main_v76 val_main_v75
      val_main_v74 val_main_v73 val_main_v72 val_main_v71 val_main_v70 val_main_v69 val_main_v68
      val_main_cst_25 val_main_cst_26 val_main_cst_27 val_main_cst_28 val_main_cst_29 val_main_cst_30 val_main_cst_31 val_main_cst_32
    rfl

/-- A buffer that no operation of the seventh stretch writes keeps its contents. -/
theorem keep7 (W : Valuation τ sig (Elt F)) {r : Ref sig .tc}
    (hr : r ∉ [main_cst_33, main_v83, main_v84, main_v85, main_v86, main_cst_34, main_v87, main_v88, main_v89, main_v90,
      main_v91, main_cst_35, main_v92, main_v93, main_cst_36, main_v94, main_v95, main_v96, main_v97, main_v98, main_v99]) :
    after (ops7 (F := F)) W (Proc.devRef .tc r) = W (Proc.devRef .tc r) := by
  refine StableHlo.after_of_writes_sub (ops7 (F := F)) W ?_ hr
  simp only [ops7, List.Forall, StableHlo.nullary_writes, StableHlo.unary_writes, StableHlo.binary_writes]
  decide

/-- The seventh stretch: the positive-and-far mask read as a number, the weights, their row sums plus eps, the
    quotient, its negation, and the weight matrix. -/
theorem step7 (W : Valuation τ sig (Elt F)) (h : Inv6 x0 x1 x2 x3 x4 x5 W) : Inv7 x0 x1 x2 x3 x4 x5 (after ops7 W) := by
  obtain ⟨⟨a0, a1, a2, a3, a4, a5⟩, h16, h33, h49, h52, h82⟩ := h
  unfold Inv7 Args
  refine ⟨⟨?_, ?_, ?_, ?_, ?_, ?_⟩, ?_, ?_⟩
  · exact (keep7 W (by decide)).trans a0
  · exact (keep7 W (by decide)).trans a1
  · exact (keep7 W (by decide)).trans a2
  · exact (keep7 W (by decide)).trans a3
  · exact (keep7 W (by decide)).trans a4
  · exact (keep7 W (by decide)).trans a5
  · exact (keep7 W (by decide)).trans h82
  · show after (ops7 (F := F)) W (Proc.devRef .tc main_v99) = _
    dsimp only [ops7]
    after_results_simp
    rw [h16, h33, h49, h52]
    unfold val_main_v99 val_main_v98 val_main_v97 val_main_v96 val_main_v95 val_main_v94 val_main_v93 val_main_v92
      val_main_v91 val_main_v90 val_main_v89 val_main_v88 val_main_v87 val_main_v86 val_main_v85 val_main_v84 val_main_v83
      val_main_cst_33 val_main_cst_34 val_main_cst_35 val_main_cst_36
    rfl

end Cert.ReferenceIdeal.RefRun

end
-- ==== Proof.RefRun.lean ====
/-
  The reference's run: the operations' fold over the launch contents, read stretch by stretch, ends with the two
  results at their stage functions of the argument arrays and the arguments unchanged.
-/
import proofs.«404421_j35442070126796_1_alg».proof.Proof.RefRunA
import proofs.«404421_j35442070126796_1_alg».proof.Proof.RefRunB
import proofs.«404421_j35442070126796_1_alg».proof.Proof.RefRunC

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

variable (x0 : (⟨S128x64, .f32⟩ : BufTy).Contents (Elt F)) (x1 : (⟨S500000x64, .f32⟩ : BufTy).Contents (Elt F)) (x2 : (⟨S128x500000, .f32⟩ : BufTy).Contents (Elt F)) (x3 : (⟨S128x128, .f32⟩ : BufTy).Contents (Elt F)) (x4 : (⟨S128x64, .f32⟩ : BufTy).Contents (Elt F)) (x5 : (⟨S128, .i32⟩ : BufTy).Contents (Elt F))

/-! ## The run -/

/-- Every weakly fair execution of the reference terminates, nothing faulting, with its two results at their stages of
    the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = val_main_v82 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v99) = val_main_v99 (F := F) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_fold m ρ)
  have hA : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (launchContents m c) :=
    ⟨rfl, rfl, rfl, rfl, rfl, rfl⟩
  have h1 := step1 _ _ _ _ _ _ _ hA
  have h2 := step2 _ _ _ _ _ _ _ h1
  have h3 := step3 _ _ _ _ _ _ _ h2
  have h4 := step4 _ _ _ _ _ _ _ h3
  have h5 := step5 _ _ _ _ _ _ _ h4
  have h6 := step6 _ _ _ _ _ _ _ h5
  have h7 := step7 _ _ _ _ _ _ _ h6
  have e : after ops (launchContents m c)
      = after ops7 (after ops6 (after ops5 (after ops4 (after ops3 (after ops2 (after ops1 (launchContents m c))))))) := by
    rw [ops_split, after_append, after_append, after_append, after_append, after_append, after_append]
  refine ⟨(h c main_v82).trans ?_, (h c main_v99).trans ?_, (h c main_arg0).trans ?_, (h c main_arg1).trans ?_,
    (h c main_arg2).trans ?_, (h c main_arg3).trans ?_, (h c main_arg4).trans ?_, (h c main_arg5).trans ?_⟩ <;> rw [e]
  · exact h7.2.1
  · exact h7.2.2
  · exact h7.1.1
  · exact h7.1.2.1
  · exact h7.1.2.2.1
  · exact h7.1.2.2.2.1
  · exact h7.1.2.2.2.2.1
  · exact h7.1.2.2.2.2.2

end Cert.ReferenceIdeal.RefRun

end
-- ==== Proof.RefElems.lean ====
/-
  The reference's intermediate arrays at an index (r, j): the inner products, the distances, the positive mask after
  the rows' own columns are struck out, and the active-negative mask.  The own column is struck by a scatter of
  `false` at (r, b r); for 0 <= b r < 500000 that clears exactly the entry whose column is b r.
-/
import proofs.«404421_j35442070126796_1_alg».proof.Proof.ReadRef
import proofs.«404421_j35442070126796_1_alg».proof.Proof.SpecArr
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.Spec

namespace Aux

/-! ## The scatter of one constant at 128 index pairs

  The scatter has no window: each of the 128 updates is one element, written at the operand index whose two
  coordinates are the two words of the update's index pair, read signed, and dropped when either is out of range.
  All updates carry the same value, so the result at an index is that value where some update lands and the
  operand's element where none does; no distinctness of the targets is needed. -/

/-- The scatter's dimension numbers: both operand axes are inserted, the index pair names both. -/
abbrev dS : ScatterDims S128x500000 S128x2 S128 := scatter_S128x500000_S128x2_S128_n_01_01_1

theorem sKept_nil : dS.sKept = [] := by decide

theorem window_zero (j : S128.Idx) (a : Fin 2) : dS.window j a = 0 := by
  unfold ScatterDims.window
  rw [dif_neg]
  rw [sKept_nil]; exact List.not_mem_nil

set_option maxHeartbeats 400000 in
theorem siIdx0 (j : S128.Idx) (h : 0 < dS.scatterDimsToOperandDims.length) : dS.siIdx j ⟨0, h⟩ = ix2 (j 0) 0 := by
  funext b
  match b with
  | ⟨0, _⟩ => rfl
  | ⟨1, _⟩ => rfl

set_option maxHeartbeats 400000 in
theorem siIdx1 (j : S128.Idx) (h : 1 < dS.scatterDimsToOperandDims.length) : dS.siIdx j ⟨1, h⟩ = ix2 (j 0) 1 := by
  funext b
  match b with
  | ⟨0, _⟩ => rfl
  | ⟨1, _⟩ => rfl

theorem start0 (idx : IVec S128x2 32) (j : S128.Idx) : dS.start j idx 0 = (idx (ix2 (j 0) 0)).toInt := by
  unfold ScatterDims.start
  rw [dif_pos (by decide)]
  exact congrArg (fun i => (idx i).toInt) (siIdx0 j _)

theorem start1 (idx : IVec S128x2 32) (j : S128.Idx) : dS.start j idx 1 = (idx (ix2 (j 0) 1)).toInt := by
  unfold ScatterDims.start
  rw [dif_pos (by decide)]
  exact congrArg (fun i => (idx i).toInt) (siIdx1 j _)

/-- An update whose two index words are in range lands at the index they name. -/
theorem resultIdx_some (idx : IVec S128x2 32) (j : S128.Idx) (p : Fin 128) (q : Fin 500000)
    (h0 : (idx (ix2 (j 0) 0)).toInt = (p.val : Int)) (h1 : (idx (ix2 (j 0) 1)).toInt = (q.val : Int)) :
    dS.resultIdx? j idx = some (ix2 p q) := by
  unfold ScatterDims.resultIdx?
  have hs0 : dS.start j idx 0 + dS.window j 0 = (p.val : Int) := by rw [start0, window_zero, h0]; simp
  have hs1 : dS.start j idx 1 + dS.window j 1 = (q.val : Int) := by rw [start1, window_zero, h1]; simp
  have hall : ∀ a : Fin S128x500000.rank, 0 ≤ dS.start j idx a + ↑(dS.window j a) ∧ dS.start j idx a + ↑(dS.window j a) < ↑(S128x500000.size a) := by
    intro a
    match a with
    | ⟨0, _⟩ => show 0 ≤ dS.start j idx 0 + ↑(dS.window j 0) ∧ dS.start j idx 0 + ↑(dS.window j 0) < (128 : Int); rw [hs0]; have := p.isLt; omega
    | ⟨1, _⟩ => show 0 ≤ dS.start j idx 1 + ↑(dS.window j 1) ∧ dS.start j idx 1 + ↑(dS.window j 1) < (500000 : Int); rw [hs1]; have := q.isLt; omega
  rw [dif_pos hall]
  congr 1
  funext a
  apply Fin.ext
  match a with
  | ⟨0, _⟩ => show (dS.start j idx 0 + ↑(dS.window j 0)).toNat = p.val; rw [hs0]; simp
  | ⟨1, _⟩ => show (dS.start j idx 1 + ↑(dS.window j 1)).toNat = q.val; rw [hs1]; simp

/-- A left fold of steps each of which sets ONE index (the one `g n` names, if any) to the same constant `c` and
    keeps every other: at an index some step names the result is `c`, at an index no step names it is the start's. -/
theorem foldl_point {ι α β : Type} (step : (ι → α) → β → (ι → α)) (g : β → Option ι) (c : α)
    (hhit : ∀ r n i, g n = some i → step r n i = c)
    (hmiss : ∀ r n i, g n ≠ some i → step r n i = r i) (i : ι) :
    ∀ (l : List β) (x : ι → α),
      ((∃ n ∈ l, g n = some i) → l.foldl step x i = c) ∧ ((¬ ∃ n ∈ l, g n = some i) → l.foldl step x i = x i) := by
  intro l
  induction l with
  | nil => intro x; exact ⟨fun ⟨n, hn, _⟩ => absurd hn List.not_mem_nil, fun _ => rfl⟩
  | cons a l ih =>
    intro x
    rw [List.foldl_cons]
    obtain ⟨ih1, ih2⟩ := ih (step x a)
    constructor
    · rintro ⟨n, hn, hg⟩
      by_cases hl : ∃ n ∈ l, g n = some i
      · exact ih1 hl
      · rw [ih2 hl]
        rcases List.mem_cons.1 hn with rfl | hn'
        · exact hhit x n i hg
        · exact absurd ⟨n, hn', hg⟩ hl
    · intro hno
      have hl : ¬ ∃ n ∈ l, g n = some i := fun ⟨n, hn, hg⟩ => hno ⟨n, List.mem_cons_of_mem _ hn, hg⟩
      rw [ih2 hl]
      exact hmiss x a i (fun hg => hno ⟨a, List.mem_cons_self, hg⟩)

theorem foldl_point_hit {ι α β : Type} (step : (ι → α) → β → (ι → α)) (g : β → Option ι) (c : α)
    (hhit : ∀ r n i, g n = some i → step r n i = c)
    (hmiss : ∀ r n i, g n ≠ some i → step r n i = r i) (i : ι) (l : List β) (x : ι → α)
    (h : ∃ n ∈ l, g n = some i) : l.foldl step x i = c := (foldl_point step g c hhit hmiss i l x).1 h

theorem foldl_point_miss {ι α β : Type} (step : (ι → α) → β → (ι → α)) (g : β → Option ι) (c : α)
    (hhit : ∀ r n i, g n = some i → step r n i = c)
    (hmiss : ∀ r n i, g n ≠ some i → step r n i = r i) (i : ι) (l : List β) (x : ι → α)
    (h : ¬ ∃ n ∈ l, g n = some i) : l.foldl step x i = x i := (foldl_point step g c hhit hmiss i l x).2 h

/-- The scatter of one constant at the index pairs (row, the row's word): the constant where the column is the
    row's word, the operand elsewhere. -/
theorem scatter_const_apply {α : Type} (x : S128x500000.Idx → α) (idx : IVec S128x2 32) (upd : S128.Idx → α) (c : α)
    (b : Fin 128 → BitVec 32)
    (hupd : ∀ j, upd j = c)
    (hrow : ∀ r : Fin 128, (idx (ix2 r 0)).toInt = (r.val : Int))
    (hcol : ∀ r : Fin 128, idx (ix2 r 1) = b r)
    (hb : ∀ r, 0 ≤ (b r).toInt ∧ (b r).toInt < 500000) (r : Fin 128) (j : Fin 500000) :
    (((b r).toInt = (j.val : Int)) → Host.scatter dS (fun _ v => v) x idx upd (ix2 r j) = c) ∧
    (((b r).toInt ≠ (j.val : Int)) → Host.scatter dS (fun _ v => v) x idx upd (ix2 r j) = x (ix2 r j)) := by
  -- where the update of row p lands
  have hland : ∀ p : Fin 128, dS.resultIdx? (ix1 p) idx
      = some (ix2 p (⟨((b p).toInt).toNat, by have := hb p; omega⟩ : Fin 500000)) := by
    intro p
    apply resultIdx_some
    · exact hrow p
    · show (idx (ix2 p 1)).toInt = _
      rw [hcol]; have := hb p; simp only []; omega
  unfold Host.scatter
  constructor
  · intro heq
    apply foldl_point_hit (g := fun n => dS.resultIdx? (S128.rowMajor.symm n) idx) (c := c)
    · intro r' n i hg
      simp only [hg, hupd]
      simp
    · intro r' n i hg
      cases hres : dS.resultIdx? (S128.rowMajor.symm n) idx with
      | none => simp only [hres]
      | some i0 =>
        simp only [hres]
        rw [if_neg]
        intro e; apply hg; simp only [hres, e]
    · refine ⟨S128.rowMajor (ix1 r), List.mem_finRange _, ?_⟩
      simp only [Equiv.symm_apply_apply]
      rw [hland]
      congr 2
      apply Fin.ext
      show ((b r).toInt).toNat = j.val
      omega
  · intro hne
    apply foldl_point_miss (g := fun n => dS.resultIdx? (S128.rowMajor.symm n) idx) (c := c)
    · intro r' n i hg
      simp only [hg, hupd]
      simp
    · intro r' n i hg
      cases hres : dS.resultIdx? (S128.rowMajor.symm n) idx with
      | none => simp only [hres]
      | some i0 =>
        simp only [hres]
        rw [if_neg]
        intro e; apply hg; simp only [hres, e]
    · rintro ⟨n, _, hg⟩
      obtain ⟨p, hp⟩ : ∃ p : Fin 128, S128.rowMajor.symm n = ix1 p := ⟨S128.rowMajor.symm n 0, eq_ix1 _⟩
      simp only [hp] at hg
      rw [hland] at hg
      have hg' := Option.some.inj hg
      have h0 : p = r := congrFun hg' 0
      have h1 : (⟨((b p).toInt).toNat, by have := hb p; omega⟩ : Fin 500000) = j := congrFun hg' 1
      subst h0
      have h2 := congrArg Fin.val h1
      simp only [] at h2
      have := hb p
      omega

/-- Column 0 of the joined index array is the first piece. -/
theorem concat_row {α : Type} (x₁ x₂ : S128x1.Idx → α) (r : Fin 128) :
    concatenate S128x2 1 [⟨S128x1, x₁⟩, ⟨S128x1, x₂⟩] concatenates_S128x1_S128x1_S128x2_d1 (ix2 r (0 : Fin 2)) = x₁ (ix2 r (0 : Fin 1)) :=
  concatenate_pair_apply_left (t := S128x2) (s₁ := S128x1) (s₂ := S128x1) 1 x₁ x₂ concatenates_S128x1_S128x1_S128x2_d1
    (ix2 r (0 : Fin 2)) rfl (ix2 r (0 : Fin 1)) (fun b => by match b with | ⟨0, _⟩ => rfl | ⟨1, _⟩ => rfl)

/-- Column 1 of the joined index array is the second piece. -/
theorem concat_col {α : Type} (x₁ x₂ : S128x1.Idx → α) (r : Fin 128) :
    concatenate S128x2 1 [⟨S128x1, x₁⟩, ⟨S128x1, x₂⟩] concatenates_S128x1_S128x1_S128x2_d1 (ix2 r (1 : Fin 2)) = x₂ (ix2 r (0 : Fin 1)) :=
  concatenate_pair_apply_right (t := S128x2) (s₁ := S128x1) (s₂ := S128x1) 1 x₁ x₂ concatenates_S128x1_S128x1_S128x2_d1
    (ix2 r (1 : Fin 2)) rfl rfl (ix2 r (0 : Fin 1))
    (fun b hb => by match b with | ⟨0, _⟩ => rfl | ⟨1, _⟩ => exact absurd rfl hb) rfl

theorem toInt_ofNat_small (j : Nat) (h : j < 2147483648) : (BitVec.ofNat 32 j).toInt = (j : Int) := by
  unfold BitVec.toInt
  rw [BitVec.toNat_ofNat]
  have e : j % 2 ^ 32 = j := Nat.mod_eq_of_lt (by omega)
  rw [e, if_pos (by omega)]

/-- A word that reads as a non-negative integer is not below zero, so the index normalisation keeps it. -/
theorem select_slt_zero (b y : BitVec 32) (h : 0 ≤ b.toInt) : Scalar.select (IntOp.cmpi .slt b 0#32) y b = b := by
  unfold Scalar.select IntOp.cmpi
  have e : b.slt 0#32 = false := by
    simp only [BitVec.slt]
    have : (0#32 : BitVec 32).toInt = 0 := by decide
    rw [this]
    exact decide_eq_false (by omega)
  simp only [e]
  rw [if_neg (by decide)]

/-! ## One-bit masks and the two index tests -/

theorem and_one1 (x : BitVec 1) : x &&& 1#1 = x := by
  have : (1#1 : BitVec 1) = BitVec.allOnes 1 := by decide
  rw [this, BitVec.and_allOnes]

theorem and_zero1 (x : BitVec 1) : x &&& 0#1 = 0#1 := BitVec.and_zero

theorem validB_of_lt (j : Nat) (h : j < 500000) : validB j = 1#1 := by
  unfold validB IntOp.cmpi
  simp only [BitVec.slt, toInt_ofNat_small j (by omega)]
  have : (500000#32 : BitVec 32).toInt = 500000 := by decide
  rw [this]
  have : decide ((j : Int) < 500000) = true := by simpa using (by omega : (j : Int) < 500000)
  rw [this]; rfl

/-- The own-column test on words, for a column below 2^31 and a word that is a natural below 2^31. -/
theorem selfB_eq (b : BitVec 32) (j : Nat) (hb0 : 0 ≤ b.toInt) (hj : j < 2147483648) :
    selfB b j = if b.toInt = (j : Int) then 1#1 else 0#1 := by
  unfold selfB IntOp.cmpi
  by_cases h : b.toInt = (j : Int)
  · rw [if_pos h]
    have : BitVec.ofNat 32 j = b := by
      apply BitVec.eq_of_toInt_eq
      rw [toInt_ofNat_small j hj, h]
    rw [this]; simp
  · rw [if_neg h]
    have : BitVec.ofNat 32 j ≠ b := by
      intro e; apply h; rw [← e, toInt_ofNat_small j hj]
    have e : (BitVec.ofNat 32 j == b) = false := beq_eq_false_iff_ne.2 this
    rw [e]; rfl

end Aux

open Aux

/-! ## The four arrays at an index -/

variable (x0 : Vec Ideal S128x64 .f32) (x1 : Vec Ideal S500000x64 .f32) (x2 : Vec Ideal S128x500000 .f32) (x5 : Vec Ideal S128 .i32)

/-- The rows' own columns as a function of the row. -/
def bFn : Fin 128 → BitVec 32 := fun r => x5 (ix1 r)

/-- The rows' own columns are real columns. -/
def InRange : Prop := ∀ r : Fin 128, 0 ≤ (bFn x5 r).toInt ∧ (bFn x5 r).toInt < 500000

/-- The inner products (the reference's `u @ V.T`). -/
theorem v2_apply (r : Fin 128) (j : Fin 500000) : ReadP.val_main_v2 (F := Ideal) x0 x1 (ix2 r j) = inner x0 x1 r j := by
  have e1 : ∀ k : Fin 64, ReadP.lidx_main_v2 (ix2 r j) k = ix2 r k := fun k =>
    funext fun a => Fin.ext (by match a with | ⟨0, _⟩ => rfl | ⟨1, _⟩ => rfl)
  have e2 : ∀ k : Fin 64, ReadP.idx_main_v1 (ReadP.ridx_main_v2 (ix2 r j) k) = ix2 j k := fun k =>
    funext fun a => Fin.ext (by match a with | ⟨0, _⟩ => rfl | ⟨1, _⟩ => rfl)
  rw [ReadP.val_main_v2_apply]
  unfold Cert.Spec.inner
  refine Finset.sum_congr rfl fun k _ => ?_
  rw [ReadP.val_main_v1_apply, e1, e2]

/-- The squared norm of a row of u: the sum of squares from zero. -/
theorem v4_apply (r : Fin 128) : ReadP.val_main_v4 (F := Ideal) x0 (ix1 r) = sqn x0 r := by
  have e : ∀ k : Fin 64, ReadP.idx_main_v4 (ix1 r) k = ix2 r k := fun k =>
    funext fun a => Fin.ext (by match a with | ⟨0, _⟩ => rfl | ⟨1, _⟩ => rfl)
  rw [ReadP.val_main_v4_apply, ReadP.val_main_cst_apply, Ideal.ofBits_def, Ideal.ofBits_zero_f32, zero_add]
  unfold sqn
  refine Finset.sum_congr rfl fun k _ => ?_
  rw [ReadP.val_main_v3_apply, e, Ideal.mulf_def]

/-- The squared norm of a database row. -/
theorem v7_apply (j : Fin 500000) : ReadP.val_main_v7 (F := Ideal) x1 (ix1 j) = sqn x1 j := by
  have e : ∀ k : Fin 64, ReadP.idx_main_v7 (ix1 j) k = ix2 j k := fun k =>
    funext fun a => Fin.ext (by match a with | ⟨0, _⟩ => rfl | ⟨1, _⟩ => rfl)
  rw [ReadP.val_main_v7_apply, ReadP.val_main_cst_0_apply, Ideal.ofBits_def, Ideal.ofBits_zero_f32, zero_add]
  unfold sqn
  refine Finset.sum_congr rfl fun k _ => ?_
  rw [ReadP.val_main_v6_apply, e, Ideal.mulf_def]

/-- The distances: the square root of the squared distance clipped below at eps (the clip takes the maximum with
    eps on the left). -/
theorem v16_apply (r : Fin 128) (j : Fin 500000) : ReadP.val_main_v16 (F := Ideal) x0 x1 (ix2 r j) = dAt x0 x1 r j := by
  have e9 : ReadP.idx_main_v5 (ReadP.idx_main_v9 (ix2 r j)) = ix1 r :=
    funext fun a => Fin.ext (by match a with | ⟨0, _⟩ => rfl)
  have e10 : ReadP.idx_main_v8 (ReadP.idx_main_v10 (ix2 r j)) = ix1 j :=
    funext fun a => Fin.ext (by match a with | ⟨0, _⟩ => rfl)
  rw [ReadP.val_main_v16_apply, ReadP.val_main_v15_apply, ReadP.val_main_call0_v1_apply, ReadP.val_main_call0_v0_apply,
    ReadP.val_main_cst_2_apply, ReadP.val_main_v14_apply, ReadP.val_main_v11_apply, ReadP.val_main_v9_apply,
    ReadP.val_main_v5_apply, e9, v4_apply, ReadP.val_main_v10_apply, ReadP.val_main_v8_apply, e10, v7_apply,
    ReadP.val_main_v13_apply, ReadP.val_main_v12_apply, ReadP.val_main_cst_1_apply, v2_apply]
  simp only [Ideal.hostUnary_sqrt_def, Ideal.maximumf_def, Ideal.subf_def, Ideal.addf_def, Ideal.mulf_def, Ideal.ofBits_def]
  unfold dAt Cert.Spec.dist
  rw [max_comm]

/-- Column 0 of the index pairs is the row number (the row counter is never negative, so its normalisation keeps it). -/
theorem v31_row (r : Fin 128) : (ReadP.val_main_v31 (F := Ideal) x5 (ix2 r (0 : Fin 2))).toInt = (r.val : Int) := by
  have e : ReadP.idx_main_v29 (ix2 r (0 : Fin 1)) = ix1 r := funext fun a => Fin.ext (by match a with | ⟨0, _⟩ => rfl)
  unfold ReadP.val_main_v31
  rw [concat_row, ReadP.val_main_v29_apply, e, ReadP.val_main_v23_apply, ReadP.val_main_v20_apply, ReadP.val_main_v0_apply,
    ReadP.val_main_v19_apply, ReadP.val_main_c_apply]
  have h : 0 ≤ (BitVec.ofNat 32 ((ix1 r : S128.Idx) 0).val).toInt := by
    rw [toInt_ofNat_small _ (by have := r.isLt; show r.val < 2147483648; omega)]; exact Int.natCast_nonneg _
  rw [select_slt_zero _ _ h]
  exact toInt_ofNat_small _ (by have := r.isLt; show r.val < 2147483648; omega)

/-- Column 1 of the index pairs is the row's own column (in range, so its normalisation keeps it). -/
theorem v31_col (hb : InRange x5) (r : Fin 128) : ReadP.val_main_v31 (F := Ideal) x5 (ix2 r (1 : Fin 2)) = bFn x5 r := by
  have e : ReadP.idx_main_v30 (ix2 r (0 : Fin 1)) = ix1 r := funext fun a => Fin.ext (by match a with | ⟨0, _⟩ => rfl)
  unfold ReadP.val_main_v31
  rw [concat_col, ReadP.val_main_v30_apply, e, ReadP.val_main_v28_apply, ReadP.val_main_v25_apply, ReadP.val_main_v24_apply,
    ReadP.val_main_c_5_apply]
  exact select_slt_zero _ _ (hb r).1

/-- The positive mask after the rows' own columns are struck out by the scatter. -/
theorem v33_apply (hb : InRange x5) (r : Fin 128) (j : Fin 500000) :
    ReadP.val_main_v33 (F := Ideal) x2 x5 (ix2 r j) = mposAt x2 (bFn x5) r j := by
  have hsc := scatter_const_apply (α := BitVec 1) (ReadP.val_main_v18 (F := Ideal) x2) (ReadP.val_main_v31 (F := Ideal) x5)
    (ReadP.val_main_v32 (F := Ideal)) 0#1 (bFn x5)
    (fun i => by rw [ReadP.val_main_v32_apply, ReadP.val_main_c_7_apply])
    (v31_row x5) (v31_col x5 hb) hb r j
  have hself := selfB_eq (bFn x5 r) j.val (hb r).1 (by have := j.isLt; omega)
  unfold mposAt mpos
  unfold ReadP.val_main_v33
  by_cases h : (bFn x5 r).toInt = (j.val : Int)
  · rw [hsc.1 h, hself, if_pos h]
    show (0#1 : BitVec 1) = _ &&& (1#1 ^^^ 1#1)
    rw [show (1#1 ^^^ 1#1 : BitVec 1) = 0#1 by decide, and_zero1]
  · rw [hsc.2 h, hself, if_neg h]
    rw [show (0#1 ^^^ 1#1 : BitVec 1) = 1#1 by decide, and_one1]
    rw [ReadP.val_main_v18_apply, ReadP.val_main_v17_apply, ReadP.val_main_cst_3_apply]
    rfl

/-- The active-negative mask (every column of the reference is a real column). -/
theorem v52_apply (r : Fin 128) (j : Fin 500000) : ReadP.val_main_v52 (F := Ideal) x0 x1 x2 (ix2 r j) = nactAt x0 x1 x2 r j := by
  rw [ReadP.val_main_v52_apply, ReadP.val_main_v35_apply, ReadP.val_main_v34_apply, ReadP.val_main_cst_8_apply,
    ReadP.val_main_v51_apply, v16_apply, ReadP.val_main_v50_apply, ReadP.val_main_cst_16_apply]
  unfold nactAt nact mneg
  rw [validB_of_lt j.val j.isLt, and_one1]
  rfl

end Cert.ReferenceIdeal.RefValue

end
-- ==== Proof.RefLoss.lean ====
/-
  The reference's loss is the loss of the shared specification over the 500000 database columns.

  Read from its last operation backwards, the reference's first result is
      (1 * (S / 128) + 1 * (Q / 6.4e7)) + 200 * (P / 8192),
  where P is zero plus the sum over all entries of (V_omega_u - u)^2, Q is zero plus the sum over all pairs (r, j) of
  (uv - 64 S[r,j])^2, and S is zero plus the sum over the rows r of
      lp r / max (cnt r) 1 + 1 * (wa r / (w r + eps)),
  lp, w, wa being float row sums (each zero plus a sum over the 500000 columns) and cnt an INTEGER row sum: the positive
  mask widened to 32-bit words, added as words, compared (signed) with the word 1 and only then read as a number.
  Every word added is 0 or 1 and there are 500000 of them, so the word sum never wraps and its signed value is the
  number of positives: the integer count is the float count of the specification.
-/
import proofs.«404421_j35442070126796_1_alg».proof.Proof.ReadRef
import proofs.«404421_j35442070126796_1_alg».proof.Proof.SpecArr
import proofs.«404421_j35442070126796_1_alg».proof.Proof.RefElems
import Idealize.ShloMosaic.PureOps.Ideal.Laws
import Idealize.ShloMosaic.PureOps.IdealRules
import Idealize.ShloMosaic.PureOps.Reduce
import Idealize.ShloMosaic.Lib.ValueIdx
import Idealize.ShloMosaic.Lib.WordSum
import Idealize.ShloMosaic.Lib.Pipeline.Value

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.Spec

/-! ## Words and casts: a sum of 500000 bits, as words and as numbers -/

/-- The cast of a finite sum of reals into the extended reals is the sum of the casts. -/
private theorem ereal_coe_sum {ι : Type*} (S : Finset ι) (g : ι → ℝ) :
    ((∑ i ∈ S, g i : ℝ) : EReal) = ∑ i ∈ S, ((g i : ℝ) : EReal) := by
  classical
  induction S using Finset.induction_on with
  | empty => simp
  | insert a S ha ih => rw [Finset.sum_insert ha, Finset.sum_insert ha, EReal.coe_add, ih]

/-- A fold of word addition from the zero word is the sum of the words. -/
private theorem fold_addi_eq_sum {ι : Type*} (S : Finset ι) (x : ι → BitVec 32) :
    S.fold IntOp.addi (0#32) x = ∑ i ∈ S, x i := by
  induction S using Finset.cons_induction with
  | empty => rfl
  | cons a S ha ih => rw [Finset.fold_cons, Finset.sum_cons, ih]; rfl

/-- The signed maximum of two words has the maximum of their signed values. -/
private theorem toInt_maxsi (a b : BitVec 32) : (IntOp.maxsi a b).toInt = max a.toInt b.toInt := by
  unfold IntOp.maxsi
  by_cases h : b.toInt < a.toInt
  · rw [if_pos (by simpa [BitVec.slt] using h)]; exact (max_eq_left h.le).symm
  · rw [if_neg (by simpa [BitVec.slt] using h)]; exact (max_eq_right (not_lt.1 h)).symm

/-- A bit widened to a word is 0 or 1. -/
private theorem bitWord_toNat_le (b : BitVec 1) : (b.setWidth 32).toNat ≤ 1 := by
  have h := b.isLt
  rw [BitVec.toNat_setWidth]
  have : b.toNat % 2 ^ 32 ≤ b.toNat := Nat.mod_le _ _
  omega

/-- A word below 2^31 has its unsigned value as its signed value. -/
private theorem toInt_of_small (w : BitVec 32) (h : w.toNat < 2 ^ 31) : w.toInt = (w.toNat : ℤ) := by
  rw [BitVec.toInt_eq_toNat_cond, if_pos (by omega)]

/-- The word sum of 500000 widened bits does not wrap: its signed value is the sum of the bits' values. -/
private theorem toInt_sum_bits (mp : Fin 500000 → BitVec 1) :
    (∑ k : Fin 500000, (mp k).setWidth 32).toInt = ∑ k : Fin 500000, ((mp k).setWidth 32).toInt := by
  have hle : ∑ k : Fin 500000, ((mp k).setWidth 32).toNat ≤ 500000 := by
    refine (Finset.sum_le_sum fun k _ => bitWord_toNat_le (mp k)).trans ?_
    simp
  have hn := WordSum.toNat_sum Finset.univ (fun k : Fin 500000 => (mp k).setWidth 32) (by omega)
  rw [toInt_of_small _ (by rw [hn]; omega), hn, Nat.cast_sum]
  exact Finset.sum_congr rfl fun k _ => (toInt_of_small _ (by have := bitWord_toNat_le (mp k); omega)).symm

/-- A row's count: the signed maximum with the word 1 of the word sum of the widened bits, read as a number, is the
    maximum with 1 of the sum of the bits read as numbers. -/
private theorem count_of_bits (mp : Fin 500000 → BitVec 1) :
    (((IntOp.maxsi ((Finset.univ : Finset (Fin 500000)).fold IntOp.addi 0#32 (fun k => (mp k).setWidth 32)) 1#32).toInt : ℝ) : EReal)
      = max (∑ k : Fin 500000, ((((mp k).setWidth 32).toInt : ℝ) : EReal)) 1 := by
  rw [fold_addi_eq_sum, toInt_maxsi, toInt_sum_bits, show (1#32 : BitVec 32).toInt = 1 from rfl, Int.cast_max,
    EReal.coe_strictMono.monotone.map_max, Int.cast_sum, ereal_coe_sum, Int.cast_one, EReal.coe_one]

/-- The float literal one is the number one. -/
private theorem c1_eq_one : (c1 : EReal) = 1 := IdealRules.sign_bit.ideal_onePat .f32

/-- Zero (the float literal) plus y is y. -/
private theorem c0_add (y : EReal) : c0 + y = y := by
  show Ideal.ofBits .f32 0x00000000#32 + y = y
  rw [Ideal.ofBits_zero_f32, zero_add]

/-- A sum over the indices of a 128-vector is the sum over its coordinate. -/
private def idxEquiv1 : (⟨1, ![128]⟩ : Shape).Idx ≃ Fin 128 where
  toFun i := i 0
  invFun r := ix1 r
  left_inv i := (eq_ix1 i).symm
  right_inv _ := rfl

private theorem sum_idx1 (f : (⟨1, ![128]⟩ : Shape).Idx → EReal) : ∑ i, f i = ∑ r : Fin 128, f (ix1 r) := by
  rw [← Equiv.sum_comp idxEquiv1.symm f]; rfl

variable (x0 : Vec Ideal S128x64 .f32) (x1 : Vec Ideal S500000x64 .f32) (x2 : Vec Ideal S128x500000 .f32) (x5 : Vec Ideal S128 .i32)

/-! ## The summands at a pair (r, j) -/

/-- 12 - d. -/
private theorem amd_at (r : Fin 128) (j : Fin 500000) :
    ReadP.val_main_v49 (F := Ideal) x0 x1 (ix2 r j) = amd (dAt x0 x1 r j) := by
  rw [ReadP.val_main_v49_apply, ReadP.val_main_v48_apply, ReadP.val_main_cst_15_apply, v16_apply]
  rfl

/-- The margin term max (d - 10) 0 on the positive pairs, zero elsewhere. -/
private theorem lp_at (hb : InRange x5) (r : Fin 128) (j : Fin 500000) :
    ReadP.val_main_v40 (F := Ideal) x0 x1 x2 x5 (ix2 r j) = lpE x0 x1 x2 (bFn x5) r j := by
  rw [ReadP.val_main_v40_apply, ReadP.val_main_v39_apply, ReadP.val_main_v37_apply, ReadP.val_main_v36_apply,
    ReadP.val_main_cst_9_apply, ReadP.val_main_v38_apply, ReadP.val_main_cst_10_apply, ReadP.val_main_call1_v1_apply,
    ReadP.val_main_call1_v0_apply, ReadP.val_main_cst_11_apply, v33_apply x2 x5 hb, v16_apply]
  rfl

/-- The weight exp ((12 - d) / 2) on the active negatives, zero elsewhere. -/
private theorem w_at (r : Fin 128) (j : Fin 500000) :
    ReadP.val_main_v56 (F := Ideal) x0 x1 x2 (ix2 r j) = wE x0 x1 x2 r j := by
  rw [ReadP.val_main_v56_apply, ReadP.val_main_v55_apply, ReadP.val_main_v54_apply, ReadP.val_main_v53_apply,
    ReadP.val_main_cst_17_apply, ReadP.val_main_call2_v1_apply, ReadP.val_main_call2_v0_apply, ReadP.val_main_cst_18_apply,
    v52_apply, amd_at]
  rfl

/-- The weight times 12 - d. -/
private theorem wa_at (r : Fin 128) (j : Fin 500000) :
    ReadP.val_main_v57 (F := Ideal) x0 x1 x2 (ix2 r j) = waE x0 x1 x2 r j := by
  rw [ReadP.val_main_v57_apply, w_at, amd_at]
  rfl

/-- (uv - 64 S[r,j])^2. -/
private theorem sq_at (r : Fin 128) (j : Fin 500000) :
    ReadP.val_main_v71 (F := Ideal) x0 x1 x2 (ix2 r j) = sqE x0 x1 x2 r j := by
  rw [ReadP.val_main_v71_apply, ReadP.val_main_v70_apply, ReadP.val_main_v69_apply, ReadP.val_main_v68_apply,
    ReadP.val_main_cst_25_apply, v2_apply]
  rfl

/-! ## The row sums -/

/-- The index a row sum reads at column k of row r is the pair (r, k). -/
private theorem idx41 (r : Fin 128) (k : Fin 500000) : ReadP.idx_main_v41 (ix1 r) k = ix2 r k := by
  funext a; match a with | ⟨0, _⟩ => rfl | ⟨1, _⟩ => rfl
private theorem idx58 (r : Fin 128) (k : Fin 500000) : ReadP.idx_main_v58 (ix1 r) k = ix2 r k := by
  funext a; match a with | ⟨0, _⟩ => rfl | ⟨1, _⟩ => rfl
private theorem idx59 (r : Fin 128) (k : Fin 500000) : ReadP.idx_main_v59 (ix1 r) k = ix2 r k := by
  funext a; match a with | ⟨0, _⟩ => rfl | ⟨1, _⟩ => rfl

/-- The row's margin sum: zero plus the sum over the 500000 columns. -/
theorem lp_row (hb : InRange x5) (r : Fin 128) :
    ReadP.val_main_v41 (F := Ideal) x0 x1 x2 x5 (ix1 r) = lpRow x0 x1 x2 (bFn x5) r := by
  rw [ReadP.val_main_v41_apply, ReadP.val_main_cst_12_apply]
  refine (c0_add _).trans ?_
  unfold lpRow
  exact Finset.sum_congr rfl fun k _ => by rw [idx41]; exact lp_at x0 x1 x2 x5 hb r k

/-- The row's weight sum. -/
theorem w_row (r : Fin 128) :
    ReadP.val_main_v59 (F := Ideal) x0 x1 x2 (ix1 r) = wRow x0 x1 x2 r := by
  rw [ReadP.val_main_v59_apply, ReadP.val_main_cst_20_apply]
  refine (c0_add _).trans ?_
  unfold wRow
  exact Finset.sum_congr rfl fun k _ => by rw [idx59]; exact w_at x0 x1 x2 r k

/-- The row's sum of weight times 12 - d. -/
theorem wa_row (r : Fin 128) :
    ReadP.val_main_v58 (F := Ideal) x0 x1 x2 (ix1 r) = waRow x0 x1 x2 r := by
  rw [ReadP.val_main_v58_apply, ReadP.val_main_cst_19_apply]
  refine (c0_add _).trans ?_
  unfold waRow
  exact Finset.sum_congr rfl fun k _ => by rw [idx58]; exact wa_at x0 x1 x2 r k

/-- The integer row sum of the widened positive mask is the fold of word addition over the row's 500000 columns. -/
private theorem cnt_fold (hb : InRange x5) (r : Fin 128) :
    ReadP.val_main_v43 (F := Ideal) x2 x5 (ix1 r)
      = (Finset.univ : Finset (Fin 500000)).fold IntOp.addi 0#32 (fun k => (mposAt x2 (bFn x5) r k).setWidth 32) := by
  have h : S128x500000.Reduces [1] S128 := by decide
  unfold ReadP.val_main_v43
  refine (Host.reduce_eq_fold_single IntOp.addi (ReadP.val_main_v42 (F := Ideal) x2 x5) _ _ h _ (ix1 r)).trans ?_
  have hf : ∀ k : Fin 500000, ReadP.val_main_v42 (F := Ideal) x2 x5 (h.lift (ix1 r) k)
      = (mposAt x2 (bFn x5) r k).setWidth 32 := by
    intro k
    have hk : h.lift (ix1 r) k = ix2 r k :=
      funext fun a => Fin.ext (by match a with | ⟨0, _⟩ => rfl | ⟨1, _⟩ => rfl)
    rw [hk, ReadP.val_main_v42_apply, v33_apply x2 x5 hb]
  exact congrArg (fun f => (Finset.univ : Finset (Fin 500000)).fold IntOp.addi 0#32 f) (funext hf)

/-- The row's count, as the reference divides by it: the number of positives, at least one. -/
theorem cnt_row (hb : InRange x5) (r : Fin 128) :
    ReadP.val_main_v46 (F := Ideal) x2 x5 (ix1 r) = max (cntRow x2 (bFn x5) r) c1 := by
  rw [ReadP.val_main_v46_apply, ReadP.val_main_v45_apply, ReadP.val_main_v44_apply, ReadP.val_main_c_14_apply,
    cnt_fold x2 x5 hb r, c1_eq_one]
  exact count_of_bits fun k => mposAt x2 (bFn x5) r k

/-! ## The totals -/

/-- The total of the squares: zero plus the sum over the rows of the rows' sums. -/
theorem sq_tot (i : S_.Idx) :
    ReadP.val_main_v72 (F := Ideal) x0 x1 x2 i = c0 + ∑ r : Fin 128, sqRow x0 x1 x2 r := by
  rw [ReadP.val_main_v72_apply, ReadP.val_main_cst_26_apply]
  refine congrArg (c0 + ·) ((sum_idx2 _).trans ?_)
  unfold sqRow
  exact Finset.sum_congr rfl fun r _ => Finset.sum_congr rfl fun j _ => sq_at x0 x1 x2 r j

/-- The total of (V_omega_u - u)^2. -/
theorem q_tot (x4 : Vec Ideal S128x64 .f32) (i : S_.Idx) :
    ReadP.val_main_v76 (F := Ideal) x0 x4 i
      = c0 + ∑ i : (⟨2, ![128, 64]⟩ : Shape).Idx, (x4 i - x0 i) * (x4 i - x0 i) := by
  rw [ReadP.val_main_v76_apply, ReadP.val_main_cst_28_apply]
  rfl

/-- A row's term of the loss. -/
private theorem row_term (hb : InRange x5) (r : Fin 128) :
    ReadP.val_main_v65 (F := Ideal) x0 x1 x2 x5 (ix1 r)
      = Ideal.div (lpRow x0 x1 x2 (bFn x5) r) (max (cntRow x2 (bFn x5) r) c1)
        + c1 * Ideal.div (waRow x0 x1 x2 r) (wRow x0 x1 x2 r + cEps) := by
  rw [ReadP.val_main_v65_apply, ReadP.val_main_v47_apply, ReadP.val_main_v64_apply, ReadP.val_main_v63_apply,
    ReadP.val_main_cst_22_apply, ReadP.val_main_v62_apply, ReadP.val_main_v61_apply, ReadP.val_main_v60_apply,
    ReadP.val_main_cst_21_apply, lp_row x0 x1 x2 x5 hb, cnt_row x2 x5 hb, wa_row, w_row]
  rfl

/-- The total of the rows' terms. -/
private theorem rows_tot (hb : InRange x5) (i : S_.Idx) :
    ReadP.val_main_v66 (F := Ideal) x0 x1 x2 x5 i
      = c0 + ∑ r : Fin 128, (Ideal.div (lpRow x0 x1 x2 (bFn x5) r) (max (cntRow x2 (bFn x5) r) c1)
          + c1 * Ideal.div (waRow x0 x1 x2 r) (wRow x0 x1 x2 r + cEps)) := by
  rw [ReadP.val_main_v66_apply, ReadP.val_main_cst_23_apply]
  refine congrArg (c0 + ·) ((sum_idx1 _).trans ?_)
  exact Finset.sum_congr rfl fun r _ => row_term x0 x1 x2 x5 hb r

/-- The reference's first result. -/
theorem ref_loss (x4 : Vec Ideal S128x64 .f32) (hb : InRange x5) :
    ReadP.val_main_v82 (F := Ideal) x0 x1 x2 x4 x5 = fun _ => lossOf x0 x1 x2 (bFn x5) x4 := by
  funext i
  rw [ReadP.val_main_v82_apply, ReadP.val_main_v80_apply, ReadP.val_main_v78_apply, ReadP.val_main_cst_30_apply,
    ReadP.val_main_v67_apply, ReadP.val_main_cst_24_apply, ReadP.val_main_v79_apply, ReadP.val_main_cst_31_apply,
    ReadP.val_main_v73_apply, ReadP.val_main_cst_27_apply, ReadP.val_main_v81_apply, ReadP.val_main_cst_32_apply,
    ReadP.val_main_v77_apply, ReadP.val_main_cst_29_apply, sq_tot, q_tot, rows_tot x0 x1 x2 x5 hb]
  rfl

end Cert.ReferenceIdeal.RefValue

end
-- ==== Proof.RefW.lean ====
/-
  The reference's weight matrix is the weight matrix of the shared specification over the 500000 database columns.

  Entry (r, j) of the reference's second result is  -(w / (row sum of w + eps)) + [positive and d > 10],  where the
  weight w is  exp ((12 - d) / 2)  times the active-negative bit read as a number.  A one-bit word read as an
  unsigned number is 0 or 1, which is also the word widened to 32 bits and read signed; the weight times that number
  is the weight where the bit is set and zero elsewhere, for the entry and for every summand of the row sum.
-/
import proofs.«404421_j35442070126796_1_alg».proof.Proof.ReadRef
import proofs.«404421_j35442070126796_1_alg».proof.Proof.SpecArr
import proofs.«404421_j35442070126796_1_alg».proof.Proof.RefElems
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.Spec

variable (x0 : Vec Ideal S128x64 .f32) (x1 : Vec Ideal S500000x64 .f32) (x2 : Vec Ideal S128x500000 .f32) (x5 : Vec Ideal S128 .i32)

/-! The steps, under their own namespace; the result follows it. -/
namespace RefW

/-- A one-bit word is zero or one. -/
theorem bit_cases (b : BitVec 1) : b = 0#1 ∨ b = 1#1 := BitVec.eq_zero_or_eq_one b

/-- A one-bit word read unsigned is the word widened to 32 bits read signed: both are 0 or 1. -/
theorem uitofp_bit (b : BitVec 1) :
    FloatOps.uitofp (F := Ideal) .f32 b = (((b.setWidth 32).toInt : ℝ) : EReal) := by
  rcases bit_cases b with rfl | rfl
  · show (((0#1 : BitVec 1).toNat : ℝ) : EReal) = _
    simp
  · show (((1#1 : BitVec 1).toNat : ℝ) : EReal) = _
    simp

/-- exp ((12 - d) / 2) times the bit read as a number is the weight where the bit is set and zero elsewhere. -/
theorem exp_mul_bit (na : BitVec 1) (d : EReal) :
    Ideal.exp (cHalf * (c12 - d)) * FloatOps.uitofp (F := Ideal) .f32 na = wT na d := by
  rcases bit_cases na with rfl | rfl
  · show _ * (((0#1 : BitVec 1).toNat : ℝ) : EReal) = _
    simp [wT, Scalar.select, amd, Ideal.ofBits_zero_f32]
  · show _ * (((1#1 : BitVec 1).toNat : ℝ) : EReal) = _
    simp [wT, Scalar.select, amd]

/-- The weight at (r, j): the summand of the row's weight sum. -/
theorem v91_apply (r : Fin 128) (j : Fin 500000) :
    ReadP.val_main_v91 (F := Ideal) x0 x1 x2 (ix2 r j) = wE x0 x1 x2 r j := by
  rw [ReadP.val_main_v91_apply, ReadP.val_main_v89_apply, ReadP.val_main_v88_apply, ReadP.val_main_v87_apply,
    ReadP.val_main_cst_34_apply, ReadP.val_main_v49_apply, ReadP.val_main_v48_apply, ReadP.val_main_cst_15_apply,
    ReadP.val_main_v90_apply, v16_apply, v52_apply]
  exact exp_mul_bit (nactAt x0 x1 x2 r j) (dAt x0 x1 r j)

/-- The row's weight sum: zero plus the sum of the weights over the 500000 columns. -/
theorem v92_apply (r : Fin 128) :
    ReadP.val_main_v92 (F := Ideal) x0 x1 x2 (ix1 r) = wRow x0 x1 x2 r := by
  rw [ReadP.val_main_v92_apply, ReadP.val_main_cst_35_apply]
  show Ideal.ofBits .f32 0x00000000#32 + _ = _
  rw [Ideal.ofBits_zero_f32, zero_add]
  unfold wRow
  refine Finset.sum_congr rfl fun k _ => ?_
  have hk : ReadP.idx_main_v92 (ix1 r) k = ix2 r k := by
    funext a; match a with | ⟨0, _⟩ => rfl | ⟨1, _⟩ => rfl
  rw [hk, v91_apply]

/-- The divisor at (r, j): the row's weight sum plus eps, the same along the row. -/
theorem v96_apply (r : Fin 128) (j : Fin 500000) :
    ReadP.val_main_v96 (F := Ideal) x0 x1 x2 (ix2 r j) = wRow x0 x1 x2 r + cEps := by
  rw [ReadP.val_main_v96_apply, ReadP.val_main_v95_apply, ReadP.val_main_v93_apply, ReadP.val_main_v94_apply,
    ReadP.val_main_cst_36_apply]
  have hi : ReadP.idx_main_v93 (ReadP.idx_main_v96 (ix2 r j)) = ix1 r := by
    funext a; match a with | ⟨0, _⟩ => rfl
  show ReadP.val_main_v92 (F := Ideal) x0 x1 x2 (ReadP.idx_main_v93 (ReadP.idx_main_v96 (ix2 r j))) + cEps = _
  rw [hi, v92_apply]

/-- "Positive and further than 10" at (r, j), read as a number. -/
theorem v86_apply (hb : InRange x5) (r : Fin 128) (j : Fin 500000) :
    ReadP.val_main_v86 (F := Ideal) x0 x1 x2 x5 (ix2 r j) = paT (mposAt x2 (bFn x5) r j) (dAt x0 x1 r j) := by
  rw [ReadP.val_main_v86_apply, ReadP.val_main_v85_apply, ReadP.val_main_v84_apply, ReadP.val_main_v83_apply,
    ReadP.val_main_cst_33_apply, v33_apply x2 x5 hb, v16_apply]
  exact uitofp_bit _

end RefW

/-- The reference's second result. -/
theorem ref_wmat (hb : InRange x5) :
    ReadP.val_main_v99 (F := Ideal) x0 x1 x2 x5 = fun y =>
      wMatOf x0 x1 x2 (bFn x5) ⟨(y 0).val, idx2_lt0 y⟩ ⟨(y 1).val, idx2_lt1 y⟩ := by
  funext y
  obtain ⟨r, j, rfl⟩ : ∃ (r : Fin 128) (j : Fin 500000), y = ix2 r j := ⟨y 0, y 1, eq_ix2 y⟩
  show ReadP.val_main_v99 (F := Ideal) x0 x1 x2 x5 (ix2 r j) = wMatOf x0 x1 x2 (bFn x5) r j
  rw [ReadP.val_main_v99_apply, ReadP.val_main_v98_apply, ReadP.val_main_v97_apply, RefW.v91_apply, RefW.v96_apply,
    RefW.v86_apply x0 x1 x2 x5 hb]
  show -(Ideal.div (wE x0 x1 x2 r j) (wRow x0 x1 x2 r + cEps)) + paT (mposAt x2 (bFn x5) r j) (dAt x0 x1 r j)
    = (Ideal.ofBits .f32 0x00000000#32 - Ideal.div (wE x0 x1 x2 r j) (wRow x0 x1 x2 r + cEps))
      + paT (mposAt x2 (bFn x5) r j) (dAt x0 x1 r j)
  rw [Ideal.ofBits_zero_f32, zero_sub]

end Cert.ReferenceIdeal.RefValue

end
-- ==== Proof.Bridge.lean ====
/-
  Zero-padding the database changes neither the loss nor the kept part of the weight matrix: a padded column has
  label 0 and a zero row of V, so it is neither positive nor (being past the last real column) negative, and its
  square term is (0 - 64 * 0)^2 = 0; every row sum over the 503808 padded columns is therefore the sum over the
  500000 real ones, term by term equal there.
-/
import proofs.«404421_j35442070126796_1_alg».proof.Proof.SpecArr
import Idealize.ShloMosaic.PureOps.Ideal.Laws
import Mathlib.Algebra.BigOperators.Fin

noncomputable section

namespace Cert.Spec

open Idealize.ShloMosaic Idealize.ShloMosaic.ValueIdx

/-- A sum over N indices whose terms vanish from index n on is the sum over the first n indices. -/
theorem sum_fin_pad {M : Type} [AddCommMonoid M] {n N : Nat} (h : n ≤ N) (f : Fin N → M)
    (hz : ∀ j : Fin N, n ≤ j.val → f j = 0) : ∑ j, f j = ∑ j : Fin n, f (Fin.castLE h j) := by
  obtain ⟨k, rfl⟩ := Nat.exists_eq_add_of_le h
  have h2 : ∑ i : Fin k, f (Fin.natAdd n i) = 0 :=
    Finset.sum_eq_zero (fun i _ => hz _ (by simp [Fin.natAdd]))
  rw [Fin.sum_univ_add, h2, add_zero]
  exact Finset.sum_congr rfl (fun i _ => rfl)

/-- The zero literal is the extended real 0. -/
theorem c0_eq : c0 = 0 := Ideal.ofBits_zero_f32

variable (u : Mat 128 64) (v : Mat 500000 64) (s : Mat 128 500000) (b : Fin 128 → BitVec 32) (vo : Mat 128 64)

/-! ### A real column: every entry of the padded arrays is the entry of the arrays -/

theorem padRows_real (j : Fin 500000) (hj : j.val < 503808) (k : Fin 64) :
    padRows (N := 503808) v (ix2 ⟨j.val, hj⟩ k) = v (ix2 j k) := by
  unfold padRows; exact dif_pos j.isLt

theorem padCols_real (r : Fin 128) (j : Fin 500000) (hj : j.val < 503808) :
    padCols (N := 503808) s (ix2 r ⟨j.val, hj⟩) = s (ix2 r j) := by
  unfold padCols; exact dif_pos j.isLt

theorem sqn_real (j : Fin 500000) (hj : j.val < 503808) :
    sqn (padRows (N := 503808) v) ⟨j.val, hj⟩ = sqn v j := by
  unfold sqn; simp only [padRows_real]

theorem inner_real (r : Fin 128) (j : Fin 500000) (hj : j.val < 503808) :
    inner u (padRows (N := 503808) v) r ⟨j.val, hj⟩ = inner u v r j := by
  unfold inner; simp only [padRows_real]

theorem dAt_real (r : Fin 128) (j : Fin 500000) (hj : j.val < 503808) :
    dAt u (padRows (N := 503808) v) r ⟨j.val, hj⟩ = dAt u v r j := by
  unfold dAt; rw [sqn_real, inner_real]

theorem mposAt_real (r : Fin 128) (j : Fin 500000) (hj : j.val < 503808) :
    mposAt (padCols (N := 503808) s) b r ⟨j.val, hj⟩ = mposAt s b r j := by
  unfold mposAt; rw [padCols_real]

theorem nactAt_real (r : Fin 128) (j : Fin 500000) (hj : j.val < 503808) :
    nactAt u (padRows (N := 503808) v) (padCols (N := 503808) s) r ⟨j.val, hj⟩ = nactAt u v s r j := by
  unfold nactAt; rw [padCols_real, dAt_real]

/-! ### A padded column: zero label, zero row, past the last real column -/

theorem padRows_pad (j : Fin 503808) (hj : 500000 ≤ j.val) (k : Fin 64) :
    padRows (N := 503808) v (ix2 j k) = 0 := by
  unfold padRows; exact dif_neg (Nat.not_lt.mpr hj)

theorem padCols_pad (r : Fin 128) (j : Fin 503808) (hj : 500000 ≤ j.val) :
    padCols (N := 503808) s (ix2 r j) = 0 := by
  unfold padCols; exact dif_neg (Nat.not_lt.mpr hj)

theorem inner_pad (r : Fin 128) (j : Fin 503808) (hj : 500000 ≤ j.val) :
    inner u (padRows (N := 503808) v) r j = 0 := by
  unfold inner; simp only [padRows_pad v j hj, mul_zero, Finset.sum_const_zero]

/-- Zero is not above zero: a zero label is not positive. -/
theorem mpos_zero (self : BitVec 1) : mpos 0 self = 0#1 := by
  unfold mpos; rw [c0_eq]; simp [Ideal.cmp]

/-- A word below 2^31 read as a signed number is itself. -/
theorem toInt_small (j : Nat) (h2 : j < 503808) : (BitVec.ofNat 32 j).toInt = (j : Int) := by
  have hn : (BitVec.ofNat 32 j).toNat = j := by
    rw [BitVec.toNat_ofNat]; exact Nat.mod_eq_of_lt (by omega)
  rw [BitVec.toInt_eq_toNat_of_lt (by rw [hn]; omega), hn]

/-- The signed test "j < 500000" fails from 500000 up to the padded extent. -/
theorem validB_pad (j : Nat) (h1 : 500000 ≤ j) (h2 : j < 503808) : validB j = 0#1 := by
  unfold validB IntOp.cmpi
  have e2 : (500000#32).toInt = 500000 := by decide
  have hlt : ¬ ((BitVec.ofNat 32 j).toInt < (500000#32).toInt) := by
    rw [toInt_small j h2, e2]; omega
  simp only [BitVec.slt, decide_eq_false hlt]
  rfl

theorem nact_zero (d : EReal) : nact 0#1 d = 0#1 := by unfold nact; simp
theorem mneg_zero (x : EReal) : mneg x 0#1 = 0#1 := by unfold mneg; simp

theorem lpT_zero (d : EReal) : lpT 0#1 d = 0 := by unfold lpT Scalar.select; simp [c0_eq]
theorem cntT_zero : cntT 0#1 = 0 := by unfold cntT; simp
theorem wT_zero (d : EReal) : wT 0#1 d = 0 := by unfold wT Scalar.select; simp [c0_eq]
theorem waT_zero (d : EReal) : waT 0#1 d = 0 := by unfold waT; rw [wT_zero, zero_mul]
theorem sqT_zero : sqT 0 0 = 0 := by unfold sqT; simp

/-- A padded column is not positive for any row. -/
theorem mposAt_pad (r : Fin 128) (j : Fin 503808) (hj : 500000 ≤ j.val) :
    mposAt (padCols (N := 503808) s) b r j = 0#1 := by
  unfold mposAt; rw [padCols_pad s r j hj, mpos_zero]

/-- A padded column is not an active negative for any row. -/
theorem nactAt_pad (r : Fin 128) (j : Fin 503808) (hj : 500000 ≤ j.val) :
    nactAt u (padRows (N := 503808) v) (padCols (N := 503808) s) r j = 0#1 := by
  unfold nactAt; rw [validB_pad j.val hj j.isLt, mneg_zero, nact_zero]

/-! ### The five summands: zero at a padded column, unchanged at a real one -/

theorem lpE_pad (r : Fin 128) (j : Fin 503808) (hj : 500000 ≤ j.val) :
    lpE u (padRows (N := 503808) v) (padCols (N := 503808) s) b r j = 0 := by
  unfold lpE; rw [mposAt_pad s b r j hj, lpT_zero]
theorem cntE_pad (r : Fin 128) (j : Fin 503808) (hj : 500000 ≤ j.val) :
    cntE (padCols (N := 503808) s) b r j = 0 := by
  unfold cntE; rw [mposAt_pad s b r j hj, cntT_zero]
theorem wE_pad (r : Fin 128) (j : Fin 503808) (hj : 500000 ≤ j.val) :
    wE u (padRows (N := 503808) v) (padCols (N := 503808) s) r j = 0 := by
  unfold wE; rw [nactAt_pad u v s r j hj, wT_zero]
theorem waE_pad (r : Fin 128) (j : Fin 503808) (hj : 500000 ≤ j.val) :
    waE u (padRows (N := 503808) v) (padCols (N := 503808) s) r j = 0 := by
  unfold waE; rw [nactAt_pad u v s r j hj, waT_zero]
theorem sqE_pad (r : Fin 128) (j : Fin 503808) (hj : 500000 ≤ j.val) :
    sqE u (padRows (N := 503808) v) (padCols (N := 503808) s) r j = 0 := by
  unfold sqE; rw [inner_pad u v r j hj, padCols_pad s r j hj, sqT_zero]

theorem lpE_real (r : Fin 128) (j : Fin 500000) (hj : j.val < 503808) :
    lpE u (padRows (N := 503808) v) (padCols (N := 503808) s) b r ⟨j.val, hj⟩ = lpE u v s b r j := by
  unfold lpE; rw [mposAt_real, dAt_real]
theorem cntE_real (r : Fin 128) (j : Fin 500000) (hj : j.val < 503808) :
    cntE (padCols (N := 503808) s) b r ⟨j.val, hj⟩ = cntE s b r j := by
  unfold cntE; rw [mposAt_real]
theorem wE_real (r : Fin 128) (j : Fin 500000) (hj : j.val < 503808) :
    wE u (padRows (N := 503808) v) (padCols (N := 503808) s) r ⟨j.val, hj⟩ = wE u v s r j := by
  unfold wE; rw [nactAt_real, dAt_real]
theorem waE_real (r : Fin 128) (j : Fin 500000) (hj : j.val < 503808) :
    waE u (padRows (N := 503808) v) (padCols (N := 503808) s) r ⟨j.val, hj⟩ = waE u v s r j := by
  unfold waE; rw [nactAt_real, dAt_real]
theorem sqE_real (r : Fin 128) (j : Fin 500000) (hj : j.val < 503808) :
    sqE u (padRows (N := 503808) v) (padCols (N := 503808) s) r ⟨j.val, hj⟩ = sqE u v s r j := by
  unfold sqE; rw [inner_real, padCols_real]

/-! ### The row sums, the loss and the weight matrix -/

theorem lpRow_pad (r : Fin 128) : lpRow u (padRows (N := 503808) v) (padCols (N := 503808) s) b r = lpRow u v s b r := by
  unfold lpRow
  rw [sum_fin_pad (n := 500000) (by omega) _ (fun j hj => lpE_pad u v s b r j hj)]
  exact Finset.sum_congr rfl (fun j _ => lpE_real u v s b r j _)
theorem cntRow_pad (r : Fin 128) : cntRow (padCols (N := 503808) s) b r = cntRow s b r := by
  unfold cntRow
  rw [sum_fin_pad (n := 500000) (by omega) _ (fun j hj => cntE_pad s b r j hj)]
  exact Finset.sum_congr rfl (fun j _ => cntE_real s b r j _)
theorem wRow_pad (r : Fin 128) : wRow u (padRows (N := 503808) v) (padCols (N := 503808) s) r = wRow u v s r := by
  unfold wRow
  rw [sum_fin_pad (n := 500000) (by omega) _ (fun j hj => wE_pad u v s r j hj)]
  exact Finset.sum_congr rfl (fun j _ => wE_real u v s r j _)
theorem waRow_pad (r : Fin 128) : waRow u (padRows (N := 503808) v) (padCols (N := 503808) s) r = waRow u v s r := by
  unfold waRow
  rw [sum_fin_pad (n := 500000) (by omega) _ (fun j hj => waE_pad u v s r j hj)]
  exact Finset.sum_congr rfl (fun j _ => waE_real u v s r j _)
theorem sqRow_pad (r : Fin 128) : sqRow u (padRows (N := 503808) v) (padCols (N := 503808) s) r = sqRow u v s r := by
  unfold sqRow
  rw [sum_fin_pad (n := 500000) (by omega) _ (fun j hj => sqE_pad u v s r j hj)]
  exact Finset.sum_congr rfl (fun j _ => sqE_real u v s r j _)

/-- The loss over the padded database is the loss over the database. -/
theorem lossOf_pad : lossOf u (padRows (N := 503808) v) (padCols (N := 503808) s) b vo = lossOf u v s b vo := by
  have h1 : lpRow u (padRows (N := 503808) v) (padCols (N := 503808) s) b = lpRow u v s b := funext (lpRow_pad u v s b)
  have h2 : cntRow (padCols (N := 503808) s) b = cntRow s b := funext (cntRow_pad s b)
  have h3 : wRow u (padRows (N := 503808) v) (padCols (N := 503808) s) = wRow u v s := funext (wRow_pad u v s)
  have h4 : waRow u (padRows (N := 503808) v) (padCols (N := 503808) s) = waRow u v s := funext (waRow_pad u v s)
  have h5 : sqRow u (padRows (N := 503808) v) (padCols (N := 503808) s) = sqRow u v s := funext (sqRow_pad u v s)
  unfold lossOf
  rw [h1, h2, h3, h4, h5]

/-- The weight matrix over the padded database, at a real column, is the weight matrix over the database. -/
theorem wMatOf_pad (r : Fin 128) (j : Fin 500000) :
    wMatOf u (padRows (N := 503808) v) (padCols (N := 503808) s) b r ⟨j.val, by omega⟩ = wMatOf u v s b r j := by
  have h3 : wRow u (padRows (N := 503808) v) (padCols (N := 503808) s) = wRow u v s := funext (wRow_pad u v s)
  unfold wMatOf wMatE
  rw [h3, nactAt_real, mposAt_real, dAt_real]

end Cert.Spec

end
-- ==== Proof.PreFacts.lean ====
/-
  What the precondition says of the index input: every row's own column b r is a real column, 0 <= b r < 500000
  (as a signed 32-bit word).  The precondition is a conjunction of seven `all`-reductions; the last two are these
  two bounds.
-/
import proofs.«404421_j35442070126796_1_alg».proof.Pre_finite_inputs
import proofs.«404421_j35442070126796_1_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.PreFacts

open Idealize.ShloMosaic Idealize.ShloMosaic.ValueIdx Cert.Pre_finite_inputs

variable [Cert.Pre_finite_inputs.Facts]

/-- Under the precondition every row's own column lies in [0, 500000). -/
theorem batch_range {F : FTy → Type} [FloatOps F] (a0 : FVec F S128x64 .f32) (a1 : FVec F S500000x64 .f32) (a2 : FVec F S128x500000 .f32)
    (a3 : FVec F S128x128 .f32) (a4 : FVec F S128x64 .f32) (a5 : IVec S128 32)
    (h : Cert.Pre_finite_inputs.fn (F := F) a0 a1 a2 a3 a4 a5 = fun _ => 1#1) (r : Fin 128) :
    0 ≤ (a5 (ix1 r)).toInt ∧ (a5 (ix1 r)).toInt < 500000 := by
  -- the one entry of the scalar conjunction is 1
  have h0 := congrFun h ix0
  dsimp only [Cert.Pre_finite_inputs.fn, Cert.Pre_finite_inputs.fn_part1, andi] at h0
  haveI : Subsingleton S_.Idx := ⟨fun a b => funext fun d => d.elim0⟩
  -- a conjunction of bits is 1 only if both are: peel the last two all-reductions off
  obtain ⟨h1, hlt⟩ := IntOp.andi_eq_one.1 h0
  obtain ⟨-, hge⟩ := IntOp.andi_eq_one.1 h1
  -- an all-reduction that is 1 met a 1 at every row
  have hge_r := Host.reduce_andi_all _ _ _ _ _ hge (ix1 r)
  have hlt_r := Host.reduce_andi_all _ _ _ _ _ hlt (ix1 r)
  -- a signed compare that is 1 is the order of the signed readings; the broadcast literals read 0 and 500000
  have e0 : ((0#32 : BitVec 32)).toInt = 0 := by decide
  have e1 : ((500000#32 : BitVec 32)).toInt = 500000 := by decide
  refine ⟨?_, ?_⟩
  · have := IntOp.cmpi_sge.1 hge_r
    exact e0 ▸ this
  · have := IntOp.cmpi_slt.1 hlt_r
    exact e1 ▸ this

end Cert.Pre_finite_inputs.PreFacts

end
-- ==== Proof.lean ====
/-
  The certificate: the kernel's program (a two-pass Pallas kernel for a hashing loss: pass 1 accumulates, per row,
  five sums over the 123 column tiles of the zero-padded database; host operations turn them into the scalar loss;
  pass 2 writes the weight matrix from the rows' weight sums) against the jnp reference, at the exact instance,
  for finite inputs whose index input names real columns (0 <= batch_ind < 500000).

  Both programs compute, for a row r and a database column j, the distance d(r, j) from the row's and the column's
  squared norms and their inner product, call the pair positive when S[r,j] > 0 and j is not the row's own column
  batch_ind[r], and an active negative when S[r,j] <= 0 and d < 12; the loss is assembled from five row sums of
  terms of d and these tests, the weight matrix from the pair's weight, the row's weight sum and the positive test.
  The reference strikes the own column by a scatter, which for an index in range clears exactly that column: the
  kernel's comparison of the column number with batch_ind[r].  The kernel sums tile by tile over 503808 padded
  columns; a padded column has label 0 and a zero database row, so it is neither positive nor (lying past the last
  real column) negative and its square term is 0: every row sum equals the reference's sum over 500000 columns by
  the commutative-monoid laws of the extended reals alone.  The kernel's count of positives is a float sum of
  zeros and ones, the reference's an integer count converted afterwards: the same number.  No law used needs
  finiteness; of the precondition only the range of batch_ind is used.
-/
import proofs.«404421_j35442070126796_1_alg».proof.Defs
import proofs.«404421_j35442070126796_1_alg».proof.Proof.Gen.Kernel
import proofs.«404421_j35442070126796_1_alg».proof.Proof.Gen.KernelIdeal
import proofs.«404421_j35442070126796_1_alg».proof.Proof.Gen.ReferenceIdeal
import proofs.«404421_j35442070126796_1_alg».proof.Proof.Gen.Pre_finite_inputs
import proofs.«404421_j35442070126796_1_alg».proof.Proof.FrameKernel
import proofs.«404421_j35442070126796_1_alg».proof.Proof.KFinal
import proofs.«404421_j35442070126796_1_alg».proof.Proof.RefRun
import proofs.«404421_j35442070126796_1_alg».proof.Proof.RefLoss
import proofs.«404421_j35442070126796_1_alg».proof.Proof.RefW
import proofs.«404421_j35442070126796_1_alg».proof.Proof.Bridge
import proofs.«404421_j35442070126796_1_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

/-- The word-level kernel runs and keeps its arguments. -/
theorem frame_k : Cert.frame_Kernel := fun m ρ _ => Cert.Kernel.GenP.frame m ρ

/-- The exact kernel runs and keeps its arguments. -/
theorem frame_ki : Cert.frame_KernelIdeal := fun m ρ _ => Cert.KernelIdeal.GenP.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The two exact programs, from memories agreeing on the arguments, end with the same loss and the same weight
    matrix: the kernel's are the specification's over the zero-padded database, the reference's the specification's
    over the database, and padding changes neither. -/
theorem algebraic : Cert.algebraic_KernelIdeal_ReferenceIdeal := by
  intro m ρ m' ρ' hpre hagree
  refine ⟨_, _, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  all_goals
    have hb : Cert.ReferenceIdeal.RefValue.InRange (m' ((c.tc : Thread Cert.ReferenceIdeal.nD Cert.ReferenceIdeal.τ).loc Cert.ReferenceIdeal.main_arg5)) := by
      intro r
      rw [(hagree c).2.2.2.2.2]
      exact Cert.Pre_finite_inputs.PreFacts.batch_range (F := Ideal) _ _ _ _ _ _ (hpre c) r
  · rw [Cert.ReferenceIdeal.RefValue.ref_loss _ _ _ _ _ hb,
      (hagree c).1, (hagree c).2.1, (hagree c).2.2.1, (hagree c).2.2.2.2.1, (hagree c).2.2.2.2.2]
    funext _
    exact (lossOf_pad _ _ _ _ _).symm
  · rw [Cert.ReferenceIdeal.RefValue.ref_wmat _ _ _ _ hb,
      (hagree c).1, (hagree c).2.1, (hagree c).2.2.1, (hagree c).2.2.2.2.2]
    funext y
    exact (wMatOf_pad _ _ _ _ ⟨(y 0).val, idx2_lt0 y⟩ ⟨(y 1).val, idx2_lt1 y⟩).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
